-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S4096x4096 : Shape := ⟨2, ![4096, 4096]⟩
abbrev S256x256 : Shape := ⟨2, ![256, 256]⟩
abbrev S256 : Shape := ⟨1, ![256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S4096x256 .f32) (main_arg1 : FVec F S4096x4096 .f32) (main_arg2 : FVec F S256x256 .f32) (main_arg3 : FVec F S256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S4096x256 : Shape := ⟨2, ![4096, 256]⟩
abbrev S4096x4096 : Shape := ⟨2, ![4096, 4096]⟩
abbrev S256x256 : Shape := ⟨2, ![256, 256]⟩
abbrev S256 : Shape := ⟨1, ![256]⟩
abbrev S1x256 : Shape := ⟨2, ![1, 256]⟩
abbrev S256x4096 : Shape := ⟨2, ![256, 4096]⟩
abbrev S512x256 : Shape := ⟨2, ![512, 256]⟩

abbrev nBuf : Space → Nat
  | .hbm => 6
  | .vmem => 10
  | .smem => 0
  | _ => 0

abbrev bufTy : (tb : Table) → Fin (tcTables nBuf tb) → BufTy
  | .hbm, ⟨0, _⟩ => ⟨S4096x256, .f32⟩
  | .hbm, ⟨1, _⟩ => ⟨S4096x4096, .f32⟩
  | .hbm, ⟨2, _⟩ => ⟨S256x256, .f32⟩
  | .hbm, ⟨3, _⟩ => ⟨S256, .f32⟩
  | .hbm, ⟨4, _⟩ => ⟨S1x256, .f32⟩
  | .hbm, ⟨5, _⟩ => ⟨S4096x256, .f32⟩
  | .local _ .vmem, ⟨0, _⟩ => ⟨S4096x256, .f32⟩
  | .local _ .vmem, ⟨1, _⟩ => ⟨S256x256, .f32⟩
  | .local _ .vmem, ⟨2, _⟩ => ⟨S256x4096, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | .local _ .vmem, ⟨6, _⟩ => ⟨S1x256, .f32⟩
  | .local _ .vmem, ⟨7, _⟩ => ⟨S512x256, .f32⟩
  | .local _ .vmem, ⟨8, _⟩ => ⟨S512x256, .f32⟩
  | .local _ .vmem, ⟨9, _⟩ => ⟨S4096x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c2_i32 : BitVec 32 := 2#32
  let v2 : BitVec 32 := Scalar.muli c2_i32 v1
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c2_i32 : BitVec 32 := 2#32
  let v2 : BitVec 32 := Scalar.muli c2_i32 v1
  let c1_i32 : BitVec 32 := 1#32
  let v3 : BitVec 32 := Scalar.addi v2 c1_i32
  let c0_i32 : BitVec 32 := 0#32
  let c0_i32_0 : BitVec 32 := 0#32
  ![v3.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S256_S1x256 : S256.ShapeCasts S1x256
  inb_S4096x256_S4096x256_0_0 : ∀ a, (![0, 0] : Fin 2 → Nat) a + S4096x256.size a ≤ S4096x256.size a
  h_S4096x256 : 0 < S4096x256.numel
  inb_S256x256_S256x256_0_0 : ∀ a, (![0, 0] : Fin 2 → Nat) a + S256x256.size a ≤ S256x256.size a
  h_S256x256 : 0 < S256x256.numel
  shapeCasts_S4096x256_S4096x256 : S4096x256.ShapeCasts S4096x256
  inb_S256x4096_S256x4096_0_0 : ∀ a, (![0, 0] : Fin 2 → Nat) a + S256x4096.size a ≤ S256x4096.size a
  h_S256x4096 : 0 < S256x4096.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  inb_S512x256_S256x256_0_0 : ∀ a, (![0, 0] : Fin 2 → Nat) a + S256x256.size a ≤ S512x256.size a
  inb_S512x256_S256x256_256_0 : ∀ a, (![256, 0] : Fin 2 → Nat) a + S256x256.size a ≤ S512x256.size a
  dot_S4096x256_S256x256_S4096x256_1_0_0_1_n_n_wf : DotDims.WF S4096x256 S256x256 S4096x256 [1] [0] [0] [1] [] []
  dot_S256x4096_S4096x256_S256x256_1_0_0_1_n_n_wf : DotDims.WF S256x4096 S4096x256 S256x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S4096x256.size a
  hwx0_0 : ∀ i : grid0.Coords, EltTy.bits .f32 = 32 ∨ (Rect.block (s := S4096x256) S4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S4096x4096.size a
  hwx0_2 : ∀ i : grid0.Coords, EltTy.bits .f32 = 32 ∨ (Rect.block (s := S4096x4096) S256x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S4096x4096.size a
  hwx0_3 : ∀ i : grid0.Coords, EltTy.bits .f32 = 32 ∨ (Rect.block (s := S4096x4096) S256x4096.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x256.size a ≤ S4096x256.size a
  hwx0_5 : ∀ i : grid0.Coords, EltTy.bits .f32 = 32 ∨ (Rect.block (s := S4096x256) S512x256.size (cc0_transform_5 i) (hinb0_5 i)).WholeWords (EltTy.packing .f32)

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S256x4096_S4096x256_S256x256_1_0_0_1_n_n : DotDims S256x4096 S4096x256 S256x256 where
  lhsContracting := [1]
  rhsContracting := [0]
  lhsNonContracting := [0]
  rhsNonContracting := [1]
  lhsBatch := []
  rhsBatch := []
  wf := dot_S256x4096_S4096x256_S256x256_1_0_0_1_n_n_wf

abbrev win0_0 : Pipeline.Window sig grid0 :=
  Pipeline.Window.ofSpec (Memref.whole main_arg0) S4096x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S256x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S256x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S512x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4096x256 : Shape := ⟨2, ![4096, 256]⟩
abbrev S4096x4096 : Shape := ⟨2, ![4096, 4096]⟩
abbrev S256x256 : Shape := ⟨2, ![256, 256]⟩
abbrev S256 : Shape := ⟨1, ![256]⟩
abbrev S0 : Shape := ⟨1, ![0]⟩
abbrev S_ : Shape := ⟨0, ![]⟩
abbrev S1x256 : Shape := ⟨2, ![1, 256]⟩
abbrev S1 : Shape := ⟨1, ![1]⟩
abbrev S256x512 : Shape := ⟨2, ![256, 512]⟩
abbrev S512x256 : Shape := ⟨2, ![512, 256]⟩

abbrev nBuf : Space → Nat
  | .hbm => 23
  | .vmem => 13
  | .smem => 0
  | _ => 0

abbrev bufTy : (tb : Table) → Fin (tcTables nBuf tb) → BufTy
  | .hbm, ⟨0, _⟩ => ⟨S4096x256, .f32⟩
  | .hbm, ⟨1, _⟩ => ⟨S4096x4096, .f32⟩
  | .hbm, ⟨2, _⟩ => ⟨S256x256, .f32⟩
  | .hbm, ⟨3, _⟩ => ⟨S256, .f32⟩
  | .hbm, ⟨4, _⟩ => ⟨S0, .i32⟩
  | .hbm, ⟨5, _⟩ => ⟨S0, .i32⟩
  | .hbm, ⟨6, _⟩ => ⟨S0, .i32⟩
  | .hbm, ⟨7, _⟩ => ⟨S_, .f32⟩
  | .hbm, ⟨8, _⟩ => ⟨S4096x256, .f32⟩
  | .hbm, ⟨9, _⟩ => ⟨S4096x256, .f32⟩
  | .hbm, ⟨10, _⟩ => ⟨S_, .f32⟩
  | .hbm, ⟨11, _⟩ => ⟨S256x256, .f32⟩
  | .hbm, ⟨12, _⟩ => ⟨S256x256, .f32⟩
  | .hbm, ⟨13, _⟩ => ⟨S_, .f32⟩
  | .hbm, ⟨14, _⟩ => ⟨S4096x4096, .f32⟩
  | .hbm, ⟨15, _⟩ => ⟨S4096x4096, .f32⟩
  | .hbm, ⟨16, _⟩ => ⟨S_, .f32⟩
  | .hbm, ⟨17, _⟩ => ⟨S1x256, .f32⟩
  | .hbm, ⟨18, _⟩ => ⟨S_, .i32⟩
  | .hbm, ⟨19, _⟩ => ⟨S1, .i32⟩
  | .hbm, ⟨20, _⟩ => ⟨S1x256, .f32⟩
  | .hbm, ⟨21, _⟩ => ⟨S4096x256, .f32⟩
  | .hbm, ⟨22, _⟩ => ⟨S4096x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x512, .f32⟩
  | .local _ .vmem, ⟨6, _⟩ => ⟨S256x512, .f32⟩
  | .local _ .vmem, ⟨7, _⟩ => ⟨S512x256, .f32⟩
  | .local _ .vmem, ⟨8, _⟩ => ⟨S512x256, .f32⟩
  | .local _ .vmem, ⟨9, _⟩ => ⟨S1x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_2 : Ref sig .tc := ⟨.hbm, 10, rfl⟩
abbrev main_v2 : Ref sig .tc := ⟨.hbm, 11, rfl⟩
abbrev main_v3 : Ref sig .tc := ⟨.hbm, 12, rfl⟩
abbrev main_cst_3 : Ref sig .tc := ⟨.hbm, 13, rfl⟩
abbrev main_v4 : Ref sig .tc := ⟨.hbm, 14, rfl⟩
abbrev main_v5 : Ref sig .tc := ⟨.hbm, 15, rfl⟩
abbrev main_cst_4 : Ref sig .tc := ⟨.hbm, 16, rfl⟩
abbrev main_v6 : Ref sig .tc := ⟨.hbm, 17, rfl⟩
abbrev main_c_5 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![16, 8], ![false, false]⟩

def k1_cond2 (i : grid1.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S256x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S256x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  hz_S0 : S0.numel = 0
  bcast_S_S4096x256 : S_.BroadcastsInDim S4096x256 (![] : Fin 0 → Fin S4096x256.rank)
  bcast_S_S256x256 : S_.BroadcastsInDim S256x256 (![] : Fin 0 → Fin S256x256.rank)
  bcast_S_S4096x4096 : S_.BroadcastsInDim S4096x4096 (![] : Fin 0 → Fin S4096x4096.rank)
  bcast_S_S1x256 : S_.BroadcastsInDim S1x256 (![] : Fin 0 → Fin S1x256.rank)
  bcast_S_S1 : S_.BroadcastsInDim S1 (![] : Fin 0 → Fin S1.rank)
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  scatter_S4096x256_S0_S4096x256_01_n_n_0_wf : ScatterDims.WF S4096x256 S0 S4096x256 [0, 1] [] [] 0
  scatter_S256x256_S0_S256x256_01_n_n_0_wf : ScatterDims.WF S256x256 S0 S256x256 [0, 1] [] [] 0
  scatter_S4096x4096_S0_S4096x4096_01_n_n_0_wf : ScatterDims.WF S4096x4096 S0 S4096x4096 [0, 1] [] [] 0
  scatter_S1x256_S1_S256_0_0_0_0_wf : ScatterDims.WF S1x256 S1 S256 [0] [0] [0] 0
  dot_S256x256_S256x256_S256x256_1_0_0_1_n_n_wf : DotDims.WF S256x256 S256x256 S256x256 [1] [0] [0] [1] [] []
  dot_S256x512_S512x256_S256x256_1_0_0_1_n_n_wf : DotDims.WF S256x512 S512x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S4096x256.size a
  hwx0_0 : ∀ i : grid0.Coords, EltTy.bits .f32 = 32 ∨ (Rect.block (s := S4096x256) S256x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S4096x256.size a
  hwx0_2 : ∀ i : grid0.Coords, EltTy.bits .f32 = 32 ∨ (Rect.block (s := S4096x256) S256x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x512.size a ≤ S4096x4096.size a
  hwx1_0 : ∀ i : grid1.Coords, EltTy.bits .f32 = 32 ∨ (Rect.block (s := S4096x4096) S256x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x256.size a ≤ S4096x256.size a
  hwx1_1 : ∀ i : grid1.Coords, EltTy.bits .f32 = 32 ∨ (Rect.block (s := S4096x256) S512x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S4096x256.size a
  hwx1_3 : ∀ i : grid1.Coords, EltTy.bits .f32 = 32 ∨ (Rect.block (s := S4096x256) S256x256.size (cc1_transform_3 i) (hinb1_3 i)).WholeWords (EltTy.packing .f32)

variable [Facts₀]

def scatter_S4096x256_S0_S4096x256_01_n_n_0 : ScatterDims S4096x256 S0 S4096x256 where
  updateWindowDims := [0, 1]
  insertedWindowDims := []
  scatterDimsToOperandDims := []
  indexVectorDim := 0
  wf := scatter_S4096x256_S0_S4096x256_01_n_n_0_wf
def scatter_S256x256_S0_S256x256_01_n_n_0 : ScatterDims S256x256 S0 S256x256 where
  updateWindowDims := [0, 1]
  insertedWindowDims := []
  scatterDimsToOperandDims := []
  indexVectorDim := 0
  wf := scatter_S256x256_S0_S256x256_01_n_n_0_wf
def scatter_S4096x4096_S0_S4096x4096_01_n_n_0 : ScatterDims S4096x4096 S0 S4096x4096 where
  updateWindowDims := [0, 1]
  insertedWindowDims := []
  scatterDimsToOperandDims := []
  indexVectorDim := 0
  wf := scatter_S4096x4096_S0_S4096x4096_01_n_n_0_wf
def scatter_S1x256_S1_S256_0_0_0_0 : ScatterDims S1x256 S1 S256 where
  updateWindowDims := [0]
  insertedWindowDims := [0]
  scatterDimsToOperandDims := [0]
  indexVectorDim := 0
  wf := scatter_S1x256_S1_S256_0_0_0_0_wf
def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf
def dot_S256x512_S512x256_S256x256_1_0_0_1_n_n : DotDims S256x512 S512x256 S256x256 where
  lhsContracting := [1]
  rhsContracting := [0]
  lhsNonContracting := [0]
  rhsNonContracting := [1]
  lhsBatch := []
  rhsBatch := []
  wf := dot_S256x512_S512x256_S256x256_1_0_0_1_n_n_wf

abbrev win0_0 : Pipeline.Window sig grid0 :=
  Pipeline.Window.ofSpec (Memref.whole main_v1) S256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S256x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v5) S256x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S512x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v10) S256x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== Proof.KB.Entry.lean ====
/-
  What the one kernel region finds in the device's arrays when it is entered: the launch memory after the single
  host operation that precedes the region (the bias reshaped from [256] to a [1, 256] row). Every later module
  states the region's proof data, its launch and its value at these contents.
-/
import proofs.«107922_g2000603260507787_pallasbulk_1139_8_alg».proof.Proof.Gen.Kernel.Launch
import proofs.«107922_g2000603260507787_pallasbulk_1139_8_alg».proof.Proof.Gen.Kernel.Skeleton
import proofs.«107922_g2000603260507787_pallasbulk_1139_8_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ)

/-- Core `c`'s buffers at launch. -/
abbrev W0 : Dev nD → Valuation τ sig (Elt F) := fun c b => m ((c : Dev nD), b)
/-- After the host operation before the region: the region's entry contents, as a valuation. -/
abbrev W1 : Dev nD → Valuation τ sig (Elt F) := fun c => StableHlo.after hostOps0 (W0 m c)
/-- The same read at the TensorCore's references: what the region's proof data take as the arrays. -/
abbrev V1 : (c : Dev nD) → (b : Ref sig .tc) → Buf (Elt F) ((c : Thread nD τ).loc b) := fun c b => W1 m c b

end Cert.Kernel.Hand

end
-- ==== Proof.KB.Base.lean ====
/-
  The one kernel region of the fused graph-convolution program, first part: what every later module of the region
  is stated over. The region is entered with the device's arrays at some contents `V` (a parameter throughout).
  Here: each window's block of its array at a grid point; the fact that an input window's staging buffer holds
  that block when the body runs, whether the block was fetched at this point or is still there from an earlier one;
  the body's single branch condition in closed form over the eight grid points; names for the staging memrefs the
  body is called with and for the scratch buffer the body carries from point to point; and the region invariant
  with that scratch buffer spelled as an owned memref.
-/
import proofs.«107922_g2000603260507787_pallasbulk_1139_8_alg».proof.Proof.KB.Entry

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region

-- the TensorCore's buffer contents when the region is entered
variable (V : (c : Dev nD) → (b : Ref sig .tc) → Buf (Elt F) ((c : Thread nD τ).loc b))

/-! ## The windows' blocks -/

/-- Window `w`'s block at grid point `t`, read off its array at the entry contents `V`. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each of the five input windows finds its block in its staging buffer at every point: windows 0, 1, 4 (node
    features, weights, bias row) are whole arrays fetched once, and their block index never moves; windows 2 and 3
    (two row blocks of the adjacency) are fetched at every point. For any proof data over the entry contents whose
    body leaves input blocks in place, one lemma covers both kinds. -/

theorem before0_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's branch condition -/

/-- The condition of the body's one conditional: the second grid coordinate is zero. -/
abbrev cond0_0 (i : grid0.Coords) : Prop := (Scalar.cmpi .ne (Scalar.extui (Scalar.cmpi .eq (BitVec.ofNat 32 (i 1).val) 0#32)) 0#32) = 1#1
/-- Over the row-major order of the 2 × 4 grid it holds exactly at the points that are multiples of four. -/
theorem hcond0_0 : ∀ t : Fin cfg0.N, cond0_0 (grid0.coords t) ↔ t.val % 4 = 0 :=
  (by decide +kernel : ∀ t : Fin grid0.N, cond0_0 (grid0.coords t) ↔ t.val % 4 = 0)

/-! ## The memrefs the body is called with -/

/-- One staging buffer of the output window, through which its contents are stated (which one does not matter:
    pieces that cover a buffer read back the same through any whole view). -/
abbrev VO0_5 : View sig .tc .vmem S512x256 .f32 := (Memref.whole cc0_stg5_0 : Memref sig .tc .vmem S512x256 .f32).view
/-- Each window's current staging memref at point `t`, and that it is a whole buffer. -/
abbrev ms0_0 (t : Fin cfg0.N) : Memref sig .tc .vmem S4096x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x4096 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x4096 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x256 .f32 := win0_5.stage (cfg0.slots t 5)
abbrev hs0_5 (t : Fin cfg0.N) : (ms0_5 t).IsWhole := hstage0_5 ((cfg0.slots t 5).cast nbuf0_5)
/-- The scratch operand: a whole scoped buffer of the kernel's own, which holds the product of the node features
    and the weights from the point that computes it to the points that read it. -/
abbrev scM0_0 : Memref sig .tc .vmem S4096x256 .f32 := Memref.whole cc0_scratch0
/-- The same as a view: what the scratch holds is stated through it. -/
abbrev VS0_0 : View sig .tc .vmem S4096x256 .f32 := scM0_0.view

/-- The region's invariant as the launch hands it over, with the scratch buffer as a memref owned at some contents:
    this is what the body is given at the first point and what is given back after the last. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Region

end Cert.Kernel.Hand

end
-- ==== Proof.KB.RunA.lean ====
/-
  The kernel body run whole at a grid point where its condition holds (the first point of each row of the grid):
  it loads the node features and the weights, stores their product over the whole scratch buffer, and then, as at
  every point, stores the two halves of its output block, each the product of one adjacency row block with the
  scratch plus the broadcast bias row. Stated as a weakest-precondition triple on any whole memrefs: the five
  inputs come in and go out at their contents, the output buffer and the scratch come in at anything and go out
  with the stores' pieces written over what they held. The piece lists are found by running the body symbolically.
-/
import proofs.«107922_g2000603260507787_pallasbulk_1139_8_alg».proof.Proof.KB.Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- (the run's proof term is large)
set_option maxHeartbeats 4000000 in
/-- The pieces the body's stores leave in the output buffer (`.1`) and in the scratch (`.2.1`) at a point where the
    condition holds, with the proof (`.2.2`) that from the inputs owned at `x0 … x4`, the output buffer and the
    scratch owned at anything, the body runs to any continuation that accepts the inputs as they were and the two
    written buffers with those pieces laid over their former contents. -/
noncomputable def kernelRunA (c : Dev nD) (i : grid0.Coords) (arg2 : Memref sig .tc .vmem S4096x256 .f32) (harg2 : arg2.IsWhole) (arg3 : Memref sig .tc .vmem S256x256 .f32) (harg3 : arg3.IsWhole) (arg4 : Memref sig .tc .vmem S256x4096 .f32) (harg4 : arg4.IsWhole) (arg5 : Memref sig .tc .vmem S256x4096 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S4096x256 .f32) (harg8 : arg8.IsWhole) (hc0 : cond0_0 i)
    (x0 : Vec F S4096x256 .f32) (x1 : Vec F S256x256 .f32) (x2 : Vec F S256x4096 .f32) (x3 : Vec F S256x4096 .f32) (x4 : Vec F S1x256 .f32) :
    Σ' (L5 : List (View.Piece (Elt F) S512x256 .f32)), { LS0 : List (View.Piece (Elt F) S4096x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f LS0)) -∗ K ⟨⟩))
          ⊢ wp frame (wpE (defs₀ (F := F)) Variants.none c none) E (cc0__fused_body i arg2 harg2 arg3 harg3 arg4 harg4 arg5 harg5 arg6 harg6 arg7 harg7 arg8 harg8) K } := by
  refine ⟨?_, ?_, fun E K => ?run⟩
  case run =>
    simp only [cc0__fused_body_eq_skeleton]; unfold cc0__fused_body_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, Hk⟩
    obtain rfl := harg2.eq_unread hf0; obtain rfl := harg3.eq_unread hf1; obtain rfl := harg4.eq_unread hf2
    obtain rfl := harg5.eq_unread hf3; obtain rfl := harg6.eq_unread hf4
    sl_exec (disch := exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.Kernel.Hand

end
-- ==== Proof.KB.RunB.lean ====
/-
  The kernel body run whole at a grid point where its condition fails (the other three points of each row of the
  grid): it leaves the scratch buffer alone and only reads it, storing the two halves of its output block, each the
  product of one adjacency row block with the scratch plus the broadcast bias row. Stated as a
  weakest-precondition triple on any whole memrefs: the five inputs and the scratch come in and go out at their
  contents, the output buffer comes in at anything and goes out with the two stores' pieces written over what it
  held. The piece list is found by running the body symbolically.
-/
import proofs.«107922_g2000603260507787_pallasbulk_1139_8_alg».proof.Proof.KB.RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- (the run's proof term is large)
set_option maxHeartbeats 4000000 in
/-- The pieces the body's stores leave in the output buffer (`.1`) at a point where the condition fails, with the
    proof (`.2`) that from the inputs owned at `x0 … x4`, the scratch owned at `xs` and the output buffer owned at
    anything, the body runs to any continuation that accepts the inputs and the scratch as they were and the output
    buffer with those pieces laid over its former contents. -/
noncomputable def kernelRunB (c : Dev nD) (i : grid0.Coords) (arg2 : Memref sig .tc .vmem S4096x256 .f32) (harg2 : arg2.IsWhole) (arg3 : Memref sig .tc .vmem S256x256 .f32) (harg3 : arg3.IsWhole) (arg4 : Memref sig .tc .vmem S256x4096 .f32) (harg4 : arg4.IsWhole) (arg5 : Memref sig .tc .vmem S256x4096 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S4096x256 .f32) (harg8 : arg8.IsWhole) (hc0 : ¬cond0_0 i)
    (x0 : Vec F S4096x256 .f32) (x1 : Vec F S256x256 .f32) (x2 : Vec F S256x4096 .f32) (x3 : Vec F S256x4096 .f32) (x4 : Vec F S1x256 .f32) (xs : Vec F S4096x256 .f32) :
    { L5 : List (View.Piece (Elt F) S512x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ d, owns (c : Thread nD τ) arg7 fullShare d) ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ (∃ f, arg7.view.loc (c : Thread nD τ) ↦[arg7.view.set]{fullShare} arg7.view.writes (Elt F) f L5)
                ∗ owns (c : Thread nD τ) arg8 fullShare xs) -∗ K ⟨⟩))
          ⊢ wp frame (wpE (defs₀ (F := F)) Variants.none c none) E (cc0__fused_body i arg2 harg2 arg3 harg3 arg4 harg4 arg5 harg5 arg6 harg6 arg7 harg7 arg8 harg8) K } := by
  refine ⟨?_, fun E K => ?run⟩
  case run =>
    simp only [cc0__fused_body_eq_skeleton]; unfold cc0__fused_body_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg8.eq_unread hfs0
    sl_exec (disch := exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; isplitr; · ipureintro; exact harg8.read_unread _
    iexact HS0

end Cert.Kernel.Hand

end
-- ==== Proof.KB.Frame.lean ====
/-
  The one kernel region of the fused graph-convolution program, last part: the proof data of the pipeline and the
  body obligation, at any entry contents `V` of the device's arrays and any shares `q` of the input arrays.

  What the body leaves: at a point where its condition holds it overwrites the whole scratch buffer (one piece that
  covers it) and the whole output block (two half-height pieces that tile it); at a point where the condition fails
  it leaves the scratch as it found it and again overwrites the whole output block. So the contents of the output
  buffer and of the scratch after each point are defined by recursion on the point: the scratch after a point of the
  second kind is the scratch after the point before. The region invariant carries the scratch at exactly those
  contents from one point to the next; before the first point and after the last it is the launch's own invariant
  (the scratch at anything).
-/
import proofs.«107922_g2000603260507787_pallasbulk_1139_8_alg».proof.Proof.KB.RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region

-- the TensorCore's buffer contents when the region is entered
variable (V : (c : Dev nD) → (b : Ref sig .tc) → Buf (Elt F) ((c : Thread nD τ).loc b))

/-! ## What each case leaves, read back -/

/-- Where the condition holds, the two output stores are half-height blocks that tile the output block, so they cover it. -/
theorem cover_A_5 (c : Dev nD) (i : grid0.Coords) (arg2 : Memref sig .tc .vmem S4096x256 .f32) (harg2 : arg2.IsWhole) (arg3 : Memref sig .tc .vmem S256x256 .f32) (harg3 : arg3.IsWhole) (arg4 : Memref sig .tc .vmem S256x4096 .f32) (harg4 : arg4.IsWhole) (arg5 : Memref sig .tc .vmem S256x4096 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S4096x256 .f32) (harg8 : arg8.IsWhole) (hc0 : cond0_0 i)
    (x0 : Vec F S4096x256 .f32) (x1 : Vec F S256x256 .f32) (x2 : Vec F S256x4096 .f32) (x3 : Vec F S256x4096 .f32) (x4 : Vec F S1x256 .f32) (y : S512x256.Idx) :
    ∃ pc ∈ (kernelRunA c i arg2 harg2 arg3 harg3 arg4 harg4 arg5 harg5 arg6 harg6 arg7 harg7 arg8 harg8 hc0 x0 x1 x2 x3 x4).1, y ∈ pc.1.set :=
  View.cover_of_tiledL (kernelRunA c i arg2 harg2 arg3 harg3 arg4 harg4 arg5 harg5 arg6 harg6 arg7 harg7 arg8 harg8 hc0 x0 x1 x2 x3 x4).1 S256x256.size (by sl_kernel_rfl) y

/-- What the output buffer holds after the body where the condition holds: the stores' pieces read back over junk. -/
def out_A_5 (c : Dev nD) (i : grid0.Coords) (arg2 : Memref sig .tc .vmem S4096x256 .f32) (harg2 : arg2.IsWhole) (arg3 : Memref sig .tc .vmem S256x256 .f32) (harg3 : arg3.IsWhole) (arg4 : Memref sig .tc .vmem S256x4096 .f32) (harg4 : arg4.IsWhole) (arg5 : Memref sig .tc .vmem S256x4096 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S4096x256 .f32) (harg8 : arg8.IsWhole) (hc0 : cond0_0 i)
    (x0 : Vec F S4096x256 .f32) (x1 : Vec F S256x256 .f32) (x2 : Vec F S256x4096 .f32) (x3 : Vec F S256x4096 .f32) (x4 : Vec F S1x256 .f32) : Vec F S512x256 .f32 :=
  VO0_5.read (Elt F) (VO0_5.writes (Elt F) VO0_5.junk (kernelRunA c i arg2 harg2 arg3 harg3 arg4 harg4 arg5 harg5 arg6 harg6 arg7 harg7 arg8 harg8 hc0 x0 x1 x2 x3 x4).1)

/-- Where the condition holds, the one scratch store is the whole buffer, so it covers it. -/
theorem scover_A (c : Dev nD) (i : grid0.Coords) (arg2 : Memref sig .tc .vmem S4096x256 .f32) (harg2 : arg2.IsWhole) (arg3 : Memref sig .tc .vmem S256x256 .f32) (harg3 : arg3.IsWhole) (arg4 : Memref sig .tc .vmem S256x4096 .f32) (harg4 : arg4.IsWhole) (arg5 : Memref sig .tc .vmem S256x4096 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S4096x256 .f32) (harg8 : arg8.IsWhole) (hc0 : cond0_0 i)
    (x0 : Vec F S4096x256 .f32) (x1 : Vec F S256x256 .f32) (x2 : Vec F S256x4096 .f32) (x3 : Vec F S256x4096 .f32) (x4 : Vec F S1x256 .f32) (y : S4096x256.Idx) :
    ∃ pc ∈ (kernelRunA c i arg2 harg2 arg3 harg3 arg4 harg4 arg5 harg5 arg6 harg6 arg7 harg7 arg8 harg8 hc0 x0 x1 x2 x3 x4).2.1, y ∈ pc.1.set :=
  View.cover_of_tiledL (kernelRunA c i arg2 harg2 arg3 harg3 arg4 harg4 arg5 harg5 arg6 harg6 arg7 harg7 arg8 harg8 hc0 x0 x1 x2 x3 x4).2.1 S4096x256.size (by sl_kernel_rfl) y

/-- What the scratch holds after the body where the condition holds: the store's piece read back over junk. -/
def sout_A (c : Dev nD) (i : grid0.Coords) (arg2 : Memref sig .tc .vmem S4096x256 .f32) (harg2 : arg2.IsWhole) (arg3 : Memref sig .tc .vmem S256x256 .f32) (harg3 : arg3.IsWhole) (arg4 : Memref sig .tc .vmem S256x4096 .f32) (harg4 : arg4.IsWhole) (arg5 : Memref sig .tc .vmem S256x4096 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S4096x256 .f32) (harg8 : arg8.IsWhole) (hc0 : cond0_0 i)
    (x0 : Vec F S4096x256 .f32) (x1 : Vec F S256x256 .f32) (x2 : Vec F S256x4096 .f32) (x3 : Vec F S256x4096 .f32) (x4 : Vec F S1x256 .f32) : Vec F S4096x256 .f32 :=
  VS0_0.read (Elt F) (VS0_0.writes (Elt F) VS0_0.junk (kernelRunA c i arg2 harg2 arg3 harg3 arg4 harg4 arg5 harg5 arg6 harg6 arg7 harg7 arg8 harg8 hc0 x0 x1 x2 x3 x4).2.1)

/-- Where the condition fails, the two output stores tile the output block all the same. -/
theorem cover_B_5 (c : Dev nD) (i : grid0.Coords) (arg2 : Memref sig .tc .vmem S4096x256 .f32) (harg2 : arg2.IsWhole) (arg3 : Memref sig .tc .vmem S256x256 .f32) (harg3 : arg3.IsWhole) (arg4 : Memref sig .tc .vmem S256x4096 .f32) (harg4 : arg4.IsWhole) (arg5 : Memref sig .tc .vmem S256x4096 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S4096x256 .f32) (harg8 : arg8.IsWhole) (hc0 : ¬cond0_0 i)
    (x0 : Vec F S4096x256 .f32) (x1 : Vec F S256x256 .f32) (x2 : Vec F S256x4096 .f32) (x3 : Vec F S256x4096 .f32) (x4 : Vec F S1x256 .f32) (xs : Vec F S4096x256 .f32) (y : S512x256.Idx) :
    ∃ pc ∈ (kernelRunB c i arg2 harg2 arg3 harg3 arg4 harg4 arg5 harg5 arg6 harg6 arg7 harg7 arg8 harg8 hc0 x0 x1 x2 x3 x4 xs).1, y ∈ pc.1.set :=
  View.cover_of_tiledL (kernelRunB c i arg2 harg2 arg3 harg3 arg4 harg4 arg5 harg5 arg6 harg6 arg7 harg7 arg8 harg8 hc0 x0 x1 x2 x3 x4 xs).1 S256x256.size (by sl_kernel_rfl) y

/-- What the output buffer holds after the body where the condition fails, the scratch being at `xs`. -/
def out_B_5 (c : Dev nD) (i : grid0.Coords) (arg2 : Memref sig .tc .vmem S4096x256 .f32) (harg2 : arg2.IsWhole) (arg3 : Memref sig .tc .vmem S256x256 .f32) (harg3 : arg3.IsWhole) (arg4 : Memref sig .tc .vmem S256x4096 .f32) (harg4 : arg4.IsWhole) (arg5 : Memref sig .tc .vmem S256x4096 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S4096x256 .f32) (harg8 : arg8.IsWhole) (hc0 : ¬cond0_0 i)
    (x0 : Vec F S4096x256 .f32) (x1 : Vec F S256x256 .f32) (x2 : Vec F S256x4096 .f32) (x3 : Vec F S256x4096 .f32) (x4 : Vec F S1x256 .f32) (xs : Vec F S4096x256 .f32) : Vec F S512x256 .f32 :=
  VO0_5.read (Elt F) (VO0_5.writes (Elt F) VO0_5.junk (kernelRunB c i arg2 harg2 arg3 harg3 arg4 harg4 arg5 harg5 arg6 harg6 arg7 harg7 arg8 harg8 hc0 x0 x1 x2 x3 x4 xs).1)

/-! ## What the output buffer and the scratch hold after each point -/

/-- The pair (output buffer, scratch) after the body at position `n` of the grid's order: at a multiple of four the
    first case's contents at the point's input blocks; elsewhere the second case's output over the scratch the point
    before left, and that same scratch. -/
def outsAt (c : Dev nD) : (n : ℕ) → n < cfg0.N → Vec F S512x256 .f32 × Vec F S4096x256 .f32
  | 0, hn => (out_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (iblk V c 0 ⟨0, hn⟩) (iblk V c 1 ⟨0, hn⟩) (iblk V c 2 ⟨0, hn⟩) (iblk V c 3 ⟨0, hn⟩) (iblk V c 4 ⟨0, hn⟩), sout_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (iblk V c 0 ⟨0, hn⟩) (iblk V c 1 ⟨0, hn⟩) (iblk V c 2 ⟨0, hn⟩) (iblk V c 3 ⟨0, hn⟩) (iblk V c 4 ⟨0, hn⟩))
  | n + 1, hn =>
    if h0 : (n + 1) % 4 = 0 then
      (out_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (iblk V c 0 ⟨n + 1, hn⟩) (iblk V c 1 ⟨n + 1, hn⟩) (iblk V c 2 ⟨n + 1, hn⟩) (iblk V c 3 ⟨n + 1, hn⟩) (iblk V c 4 ⟨n + 1, hn⟩), sout_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (iblk V c 0 ⟨n + 1, hn⟩) (iblk V c 1 ⟨n + 1, hn⟩) (iblk V c 2 ⟨n + 1, hn⟩) (iblk V c 3 ⟨n + 1, hn⟩) (iblk V c 4 ⟨n + 1, hn⟩))
    else
      (out_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt c n (Nat.lt_of_succ_lt hn)).2, (outsAt c n (Nat.lt_of_succ_lt hn)).2)

/-- `outsAt` at a point where the condition holds. -/
theorem outsAt_A (c : Dev nD) (t : Fin cfg0.N) (h : t.val % 4 = 0) :
    outsAt V c t.val t.isLt = (out_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h) (iblk V c 0 t) (iblk V c 1 t) (iblk V c 2 t) (iblk V c 3 t) (iblk V c 4 t), sout_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h) (iblk V c 0 t) (iblk V c 1 t) (iblk V c 2 t) (iblk V c 3 t) (iblk V c 4 t)) := by
  obtain ⟨n, hn⟩ := t
  cases n with
  | zero => exact rfl
  | succ n => exact (dif_pos h).trans rfl

/-- `outsAt` at a point where the condition fails: over the scratch the point before left, which stays. -/
theorem outsAt_B (c : Dev nD) (t : Fin cfg0.N) (h : ¬t.val % 4 = 0) :
    outsAt V c t.val t.isLt = (out_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h' => h ((hcond0_0 t).mp h')) (iblk V c 0 t) (iblk V c 1 t) (iblk V c 2 t) (iblk V c 3 t) (iblk V c 4 t) (outsAt V c (t.val - 1) (Nat.lt_of_le_of_lt (Nat.sub_le _ _) t.isLt)).2, (outsAt V c (t.val - 1) (Nat.lt_of_le_of_lt (Nat.sub_le _ _) t.isLt)).2) := by
  obtain ⟨n, hn⟩ := t
  cases n with
  | zero => exact (by exfalso; (try dsimp only at h); exact absurd (Nat.zero_mod _) h)
  | succ n => exact (dif_neg h).trans rfl

/-! ## The region invariant, point by point -/

/-- Before position `n`: at the start the launch's invariant (the scratch at anything); afterwards the scratch owned at
    what the point before left in it, beside the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt V c n hn).2)) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt V c n hn).2)) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt V c (n - 1) (by omega)).2)) ∗ (∃ r, prngReg c r)) := by
  cases n with
  | zero => exact absurd rfl hz
  | succ n => rfl

/-! ## The pipeline's proof data -/

/-- The proof data on core `c`: the arrays at the entry contents; after the body at point `t` each input buffer at
    its block and the output buffer at `outsAt`'s first component; the invariant `PhiS`; the given shares of the input
    arrays; nothing owed. -/
def dat (q : Fin cfg0.W → PosShare TreeShare) (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => (outsAt V c t.val t.isLt).1
  Φ t := PhiS V c t.val (Nat.le_of_lt_succ t.isLt)
  q := q
  owed _ := 0

theorem A_eq (q : Fin cfg0.W → PosShare TreeShare) (c : Dev nD) (w : Fin cfg0.W) : (dat V q c).A w = V c (Pipeline.arrRef spec0 w) := by
  dsimp only [dat]

theorem PhiS_castSucc (q : Fin cfg0.W → PosShare TreeShare) (c : Dev nD) (t : Fin cfg0.N) :
    (dat V q c).Φ t.castSucc = PhiS V c t.val (Nat.le_of_lt t.isLt) := by
  dsimp only [dat]; simp only [Fin.coe_castSucc]

theorem after_0 (q : Fin cfg0.W → PosShare TreeShare) (c : Dev nD) (t : Fin cfg0.N) : (dat V q c).after 0 t = iblk V c 0 t := by dsimp only [dat]
theorem after_1 (q : Fin cfg0.W → PosShare TreeShare) (c : Dev nD) (t : Fin cfg0.N) : (dat V q c).after 1 t = iblk V c 1 t := by dsimp only [dat]
theorem after_2 (q : Fin cfg0.W → PosShare TreeShare) (c : Dev nD) (t : Fin cfg0.N) : (dat V q c).after 2 t = iblk V c 2 t := by dsimp only [dat]
theorem after_3 (q : Fin cfg0.W → PosShare TreeShare) (c : Dev nD) (t : Fin cfg0.N) : (dat V q c).after 3 t = iblk V c 3 t := by dsimp only [dat]
theorem after_4 (q : Fin cfg0.W → PosShare TreeShare) (c : Dev nD) (t : Fin cfg0.N) : (dat V q c).after 4 t = iblk V c 4 t := by dsimp only [dat]
theorem after_5 (q : Fin cfg0.W → PosShare TreeShare) (c : Dev nD) (t : Fin cfg0.N) : (dat V q c).after 5 t = (outsAt V c t.val t.isLt).1 := by dsimp only [dat]

theorem before_0 (q : Fin cfg0.W → PosShare TreeShare) (c : Dev nD) (t : Fin cfg0.N) (d) : (dat V q c).before 0 t d = iblk V c 0 t :=
  before0_0_of V (dat V q c) (A_eq V q c 0) (after_0 V q c) t d
theorem before_1 (q : Fin cfg0.W → PosShare TreeShare) (c : Dev nD) (t : Fin cfg0.N) (d) : (dat V q c).before 1 t d = iblk V c 1 t :=
  before0_1_of V (dat V q c) (A_eq V q c 1) (after_1 V q c) t d
theorem before_2 (q : Fin cfg0.W → PosShare TreeShare) (c : Dev nD) (t : Fin cfg0.N) (d) : (dat V q c).before 2 t d = iblk V c 2 t :=
  before0_2_of V (dat V q c) (A_eq V q c 2) (after_2 V q c) t d
theorem before_3 (q : Fin cfg0.W → PosShare TreeShare) (c : Dev nD) (t : Fin cfg0.N) (d) : (dat V q c).before 3 t d = iblk V c 3 t :=
  before0_3_of V (dat V q c) (A_eq V q c 3) (after_3 V q c) t d
theorem before_4 (q : Fin cfg0.W → PosShare TreeShare) (c : Dev nD) (t : Fin cfg0.N) (d) : (dat V q c).before 4 t d = iblk V c 4 t :=
  before0_4_of V (dat V q c) (A_eq V q c 4) (after_4 V q c) t d

/-! ## The body obligation, at a generic point -/

/-- What the body is called with at point `t`, the windows one by one, -/
def bodyPre (q : Fin cfg0.W → PosShare TreeShare) (c : Dev nD) (t : Fin cfg0.N) : sProp 𝕄 :=
  iprop((dat V q c).Φ t.castSucc ∗ (dat V q c).owesAt () t.castSucc
    ∗ (∃ d, owns (c : Thread nD τ) (ms0_0 t) fullShare ((dat V q c).before 0 t d))
    ∗ (∃ d, owns (c : Thread nD τ) (ms0_1 t) fullShare ((dat V q c).before 1 t d))
    ∗ (∃ d, owns (c : Thread nD τ) (ms0_2 t) fullShare ((dat V q c).before 2 t d))
    ∗ (∃ d, owns (c : Thread nD τ) (ms0_3 t) fullShare ((dat V q c).before 3 t d))
    ∗ (∃ d, owns (c : Thread nD τ) (ms0_4 t) fullShare ((dat V q c).before 4 t d))
    ∗ (∃ d, owns (c : Thread nD τ) (ms0_5 t) fullShare ((dat V q c).before 5 t d)))

/-- and what it returns (no window is ever idle). -/
def bodyPost (q : Fin cfg0.W → PosShare TreeShare) (c : Dev nD) (t : Fin cfg0.N) : sProp 𝕄 :=
  iprop((dat V q c).Φ t.succ ∗ (dat V q c).owesAt () t.succ
    ∗ owns (c : Thread nD τ) (ms0_0 t) fullShare ((dat V q c).after 0 t)
    ∗ owns (c : Thread nD τ) (ms0_1 t) fullShare ((dat V q c).after 1 t)
    ∗ owns (c : Thread nD τ) (ms0_2 t) fullShare ((dat V q c).after 2 t)
    ∗ owns (c : Thread nD τ) (ms0_3 t) fullShare ((dat V q c).after 3 t)
    ∗ owns (c : Thread nD τ) (ms0_4 t) fullShare ((dat V q c).after 4 t)
    ∗ owns (c : Thread nD τ) (ms0_5 t) fullShare ((dat V q c).after 5 t))

set_option maxHeartbeats 4800000 in
/-- The body at any point. The input buffers hold their blocks; the point's position modulo four says which case
    applies. Where the condition holds the invariant hands the scratch over at some contents (the launch's at the very
    first point, the previous point's afterwards, forgotten) and takes it back at the product just stored, which
    covers it. Where it fails the invariant hands the scratch over at what the point before left and takes it back
    unchanged. In both the output buffer comes back covered by the two half stores. -/
theorem sound_body (q : Fin cfg0.W → PosShare TreeShare) (c : Dev nD) (t : Fin cfg0.N) :
    bodyPre V q c t ⊢ wp frame (wpE (defs₀ (F := F)) Variants.none c none) Set.univ (bodyAt0 t) (fun _ => bodyPost V q c t) := by
  unfold bodyPre bodyPost bodyAt0
  simp only [before_0, before_1, before_2, before_3, before_4]
  rw [show (dat V q c).owesAt () t.succ = (dat V q c).owesAt () t.castSucc from rfl]
  rw [show (dat V q c).Φ t.succ = PhiS V c (t.val + 1) t.isLt from rfl, PhiS_succ]
  rw [after_0, after_1, after_2, after_3, after_4, after_5]
  have hN : t.val < 8 := lt_of_lt_of_eq t.isLt (show cfg0.N = 8 from N_0)
  by_cases h0 : t.val % 4 = 0
  · rw [outsAt_A V c t h0]
    unfold out_A_5 sout_A; (try dsimp only)
    by_cases hz : t.val = 0
    · rw [PhiS_castSucc V q c t, PhiS_zero V c _ _ hz, PhiA0_eq]
      iintro ⟨⟨HS0, Hg⟩, Ho, ⟨%d0, H0⟩, ⟨%d1, H1⟩, ⟨%d2, H2⟩, ⟨%d3, H3⟩, ⟨%d4, H4⟩, ⟨%d5, H5⟩⟩
      iapply ((kernelRunA c (grid0.coords t) _ _ _ _ _ _ _ _ _ _ _ _ _ _ ((hcond0_0 t).mpr h0) (iblk V c 0 t) (iblk V c 1 t) (iblk V c 2 t) (iblk V c 3 t) (iblk V c 4 t)).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [HS0 Hg]
      · isplitl [HS0]
        · unfold owns; iexists _; isplitr
          swap; · iexact HS0
          ipureintro; exact View.read_writes_of_cover _ _ _ _ _ (scover_A c _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover_A_5 c _ _ _ _ _ _ _ _ _ _ _ _ _ _ _ _ _ _ _ _ _)
    · rw [PhiS_castSucc V q c t, PhiS_pos V c _ _ hz]
      iintro ⟨⟨HS0, Hg⟩, Ho, ⟨%d0, H0⟩, ⟨%d1, H1⟩, ⟨%d2, H2⟩, ⟨%d3, H3⟩, ⟨%d4, H4⟩, ⟨%d5, H5⟩⟩
      iapply ((kernelRunA c (grid0.coords t) _ _ _ _ _ _ _ _ _ _ _ _ _ _ ((hcond0_0 t).mpr h0) (iblk V c 0 t) (iblk V c 1 t) (iblk V c 2 t) (iblk V c 3 t) (iblk V c 4 t)).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexists _; iexact HS0
      iintro ⟨H0, H1, H2, H3, H4, ⟨%e5, H5⟩, ⟨%es0, HS0⟩⟩
      isplitl [HS0 Hg]
      · isplitl [HS0]
        · unfold owns; iexists _; isplitr
          swap; · iexact HS0
          ipureintro; exact View.read_writes_of_cover _ _ _ _ _ (scover_A c _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover_A_5 c _ _ _ _ _ _ _ _ _ _ _ _ _ _ _ _ _ _ _ _ _)
  · rw [outsAt_B V c t h0]
    unfold out_B_5; (try dsimp only)
    by_cases hz : t.val = 0
    · exfalso; omega
    · rw [PhiS_castSucc V q c t, PhiS_pos V c _ _ hz]
      iintro ⟨⟨HS0, Hg⟩, Ho, ⟨%d0, H0⟩, ⟨%d1, H1⟩, ⟨%d2, H2⟩, ⟨%d3, H3⟩, ⟨%d4, H4⟩, ⟨%d5, H5⟩⟩
      iapply ((kernelRunB c (grid0.coords t) _ _ _ _ _ _ _ _ _ _ _ _ _ _ (fun h => h0 ((hcond0_0 t).mp h)) (iblk V c 0 t) (iblk V c 1 t) (iblk V c 2 t) (iblk V c 3 t) (iblk V c 4 t) (outsAt V c (t.val - 1) (Nat.lt_of_le_of_lt (Nat.sub_le _ _) t.isLt)).2).2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, HS0⟩
      isplitl [HS0 Hg]
      · isplitl [HS0]; · iexact HS0
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover_B_5 c _ _ _ _ _ _ _ _ _ _ _ _ _ _ _ _ _ _ _ _ _ _)

/-- The library's body obligation, at every point. -/
theorem body_obligation (q : Fin cfg0.W → PosShare TreeShare) (c : Dev nD) : BodyObligation (dat (F := F) V q c) (defs₀ (F := F)) Variants.none () Set.univ := fun t => by
  rw [bigSep_W0, bigSep_W0]
  exact sound_body V q c t

/-- What the launch hands the region is the invariant before the first point. -/
theorem hin (q : Fin cfg0.W → PosShare TreeShare) (c : Dev nD) : Pipeline.ΦA spec0 c ⊢ (dat V q c).Φ 0 := by
  rw [show (dat V q c).Φ 0 = PhiS V c 0 (Nat.zero_le _) from rfl, PhiS_zero V c 0 _ rfl]
  try exact Idealize.SL.BI.Entails.refl _

/-- After any point but the first the invariant gives the launch's back: the scratch's named contents are forgotten. -/
theorem Phi_out (q : Fin cfg0.W → PosShare TreeShare) (c : Dev nD) (t : Fin (cfg0.N + 1)) (ht : t.val ≠ 0) : (dat V q c).Φ t ⊢ Pipeline.ΦA spec0 c := by
  rw [show (dat V q c).Φ t = PhiS V c t.val (Nat.le_of_lt_succ t.isLt) from rfl, PhiS_pos V c _ _ ht, PhiA0_eq]
  iintro ⟨HS0, Hg⟩
  isplitl [HS0]
  · iexists _; iexact HS0
  iexact Hg

/-- The same after the last point. -/
theorem hout (q : Fin cfg0.W → PosShare TreeShare) (c : Dev nD) : (dat V q c).Φ (Fin.last cfg0.N) ⊢ Pipeline.ΦA spec0 c :=
  Phi_out V q c _ (by rw [Fin.val_last]; have : cfg0.N = 8 := N_0; omega)

end Region

end Cert.Kernel.Hand

end
-- ==== Proof.KB.Launch.lean ====
/-
  The launch of the one-region program, stated for any proof data of the region: the host reshape, then the
  region entered with the adjacency array's points-to cut in two halves, one per window that reads it, and
  the halves joined again when the region is left.
-/
import proofs.«107922_g2000603260507787_pallasbulk_1139_8_alg».proof.Proof.KB.Entry

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- The input shares: full for a window alone on its array, two complementary halves of the full share for the
    two windows that read the adjacency. -/
abbrev qK : Fin cfg0.W → PosShare TreeShare :=
  (fun | 0 => fullShare | 1 => fullShare | 2 => fullShare.left | 3 => fullShare.right | 4 => fullShare | 5 => fullShare
       | ⟨_ + 6, h⟩ => absurd h (Nat.not_lt.2 (Nat.le_add_left _ _)) : Fin 6 → PosShare TreeShare)

namespace Launch

/-! ## The windows' arrays and the buffers behind them -/

section Arrays

variable (c : Dev nD) (dat : Dat τ (Elt F) Unit ℕ (UR sig nD τ) ℕ cfg0 c) (hq : dat.q = qK)
  (V : (b : Ref sig .tc) → Buf (Elt F) ((c : Thread nD τ).loc b))
  (Fc : (w : Fin cfg0.W) → Buf (Elt F) ((cfg0.win w).arr.view.loc (c : Thread nD τ)))
  (hF : ∀ w, Fc w = V (Pipeline.arrRef spec0 w))

include hq in
/-- The share a window's array is held at: the full one for the output, the input's own otherwise. -/
theorem share_eq (w : Fin cfg0.W) : dat.share w = if (cfg0.win w).isOut then fullShare else qK w := by
  unfold Dat.share; rw [hq]

include hq hF in
/-- One window's array in the pipeline's terms is the whole buffer behind it, at the window's share and at the
    valuation's contents. -/
theorem win_eq (w : Fin cfg0.W) :
    ((cfg0.win w).arr.view.loc (c : Thread nD τ) ↦[(cfg0.win w).arr.view.set]{dat.share w} Fc w : sProp 𝕄)
      = (((c : Thread nD τ).loc (Pipeline.arrRef spec0 w)) ↦{if (cfg0.win w).isOut then fullShare else qK w} V (Pipeline.arrRef spec0 w)) := by
  rw [(arr_whole0 w).set_eq_univ, share_eq c dat hq w, hF w]

include hq hF in
/-- The five distinct buffers behind the six windows, each whole at the full share, are the pipeline's arrays:
    the adjacency's points-to is cut into its two halves, one per window reading it, and the halves join back. -/
theorem arrays_iff : (Pipeline.arrBufs spec0 c V : sProp 𝕄) ⊣⊢ dat.arrays Fc := by
  unfold Pipeline.arrBufs Dat.arrays
  rw [bigSep_W0, bigSep_eq_bigSepL_of_eq [main_arg0, main_arg2, main_arg1, main_v0, main_v1] (by decide) (by decide),
    win_eq c dat hq V Fc hF 0, win_eq c dat hq V Fc hF 1, win_eq c dat hq V Fc hF 2, win_eq c dat hq V Fc hF 3,
    win_eq c dat hq V Fc hF 4, win_eq c dat hq V Fc hF 5]
  show iprop((((c : Thread nD τ).loc main_arg0) ↦{fullShare} V main_arg0) ∗ (((c : Thread nD τ).loc main_arg2) ↦{fullShare} V main_arg2)
      ∗ (((c : Thread nD τ).loc main_arg1) ↦{fullShare} V main_arg1) ∗ (((c : Thread nD τ).loc main_v0) ↦{fullShare} V main_v0)
      ∗ (((c : Thread nD τ).loc main_v1) ↦{fullShare} V main_v1))
    ⊣⊢ (iprop((((c : Thread nD τ).loc main_arg0) ↦{fullShare} V main_arg0) ∗ (((c : Thread nD τ).loc main_arg2) ↦{fullShare} V main_arg2)
      ∗ (((c : Thread nD τ).loc main_arg1) ↦{fullShare.left} V main_arg1) ∗ (((c : Thread nD τ).loc main_arg1) ↦{fullShare.right} V main_arg1)
      ∗ (((c : Thread nD τ).loc main_v0) ↦{fullShare} V main_v0) ∗ (((c : Thread nD τ).loc main_v1) ↦{fullShare} V main_v1)) : sProp 𝕄)
  constructor
  · iintro ⟨H0, H2, H1, Hv0, Hv1⟩
    ihave H1' := (pointsTo_share (PosShare.mem_left_op_right fullShare)).1 $$ H1
    icases H1' with ⟨H1l, H1r⟩
    isplitl [H0]; · iexact H0
    isplitl [H2]; · iexact H2
    isplitl [H1l]; · iexact H1l
    isplitl [H1r]; · iexact H1r
    isplitl [Hv0]; · iexact Hv0
    iexact Hv1
  · iintro ⟨H0, H2, H1l, H1r, Hv0, Hv1⟩
    isplitl [H0]; · iexact H0
    isplitl [H2]; · iexact H2
    isplitl [H1l H1r]
    · iapply (pointsTo_share (PosShare.mem_left_op_right fullShare)).2
      isplitl [H1l] <;> iassumption
    isplitl [Hv0]; · iexact Hv0
    iexact Hv1

end Arrays

/-! ## The buffer contents at the region's exit -/

section Run

variable (ρ : Dev nD → PrngReg) (dat : (c : Dev nD) → Dat τ (Elt F) Unit ℕ (UR sig nD τ) ℕ cfg0 c)

/-- At the region's exit only the output array has changed: it holds what the write-backs of all the points leave. -/
def W2 (c : Dev nD) : Valuation τ sig (Elt F) :=
  Function.update (W1 m c) (Proc.devRef .tc main_v1) ((dat c).arrAt 5 cfg0.N)
/-- The same read at the TensorCore's references. -/
abbrev V2 : (c : Dev nD) → (b : Ref sig .tc) → Buf (Elt F) ((c : Thread nD τ).loc b) := fun c b => W2 m dat c b

theorem W2_v1 (c : Dev nD) : W2 m dat c (Proc.devRef .tc main_v1) = (dat c).arrAt 5 cfg0.N := by
  unfold W2; exact Function.update_self _ _ _
theorem W2_of_ne (c : Dev nD) (b : Ref sig .tc) (hb : b ≠ main_v1) :
    W2 m dat c (Proc.devRef .tc b) = W1 m c (Proc.devRef .tc b) := by
  unfold W2; exact Function.update_of_ne (StableHlo.devRef_ne_of_ne hb) _ _

/-- The host reshape writes its result row only: every other buffer is as launched. -/
theorem W1_of_ne (c : Dev nD) (b : Ref sig .tc) (hb : b ≠ main_v0) :
    W1 m c (Proc.devRef .tc b) = m ((c : Thread nD τ).loc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne hb))

variable (hA : ∀ c w, (dat c).A w = V1 m c (Pipeline.arrRef spec0 w))

include hA in
/-- An input window's array is never written: at the exit it holds what the region found, which is also what the
    exit valuation says of its buffer. -/
theorem arrAt_in_eq (c : Dev nD) (w : Fin cfg0.W) (hw : (cfg0.win w).isOut = false) (hne : Pipeline.arrRef spec0 w ≠ main_v1) :
    (dat c).arrAt w cfg0.N = V2 m dat c (Pipeline.arrRef spec0 w) :=
  ((dat c).arrAt_in w hw _).trans ((hA c w).trans (W2_of_ne m dat c _ hne).symm)

include hA in
/-- Every window's array at the exit is the exit valuation's contents of its buffer. -/
theorem hF2 (c : Dev nD) : ∀ w : Fin cfg0.W, (dat c).arrAt w cfg0.N = V2 m dat c (Pipeline.arrRef spec0 w) :=
  (fun
    | 0 => arrAt_in_eq m dat hA c 0 rfl (by decide)
    | 1 => arrAt_in_eq m dat hA c 1 rfl (by decide)
    | 2 => arrAt_in_eq m dat hA c 2 rfl (by decide)
    | 3 => arrAt_in_eq m dat hA c 3 rfl (by decide)
    | 4 => arrAt_in_eq m dat hA c 4 rfl (by decide)
    | 5 => (W2_v1 m dat c).symm
    | ⟨_ + 6, h⟩ => absurd h (Nat.not_lt.2 (Nat.le_add_left _ _)) : ∀ w : Fin 6, (dat c).arrAt w cfg0.N = V2 m dat c (Pipeline.arrRef spec0 w))

/-! ## The proof data family and the thread state -/

/-- The prefetched tables' admissible contents: the pipeline has no table. -/
abbrev adm : (p : Fin 1) → (pcfgs (F := F) p).Adm := fun p => (cfgs p).toPCfg_adm
/-- The one pipeline's proof data, as the family the several-regions launch takes. -/
def pdats : (p : Fin 1) → (c : Dev nD) → Dat τ (Elt F) Unit ℕ (UR sig nD τ) ℕ (Pipeline.pin (pcfgs (F := F)) adm p) c
  | ⟨0, _⟩ => fun c => dat c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through the host stretch: the core's generator register at some state and its
    `owes` at nothing, no pair recorded yet. -/
abbrev R (c : Dev nD) : sProp 𝕄 :=
  iprop((∃ r, prngReg c r) ∗ owes (c : Thread nD τ) (0 : CellTallies nD τ sig Unit) ∅)
/-- The host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The reshape allocates no buffer. -/
theorem hostOps0_fresh : (hostOps0 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the exit contents, the generator register
    at some state. -/
abbrev Tₙ (c : Dev nD) : sProp 𝕄 := iprop(StableHlo.held (c : Thread nD τ) (Pipeline.ucRefs τ sig) (W2 m dat c) ∗ ∃ r, prngReg c r)

/-! ## The region as a segment -/

variable (hq : ∀ c, (dat c).q = qK) (howed : ∀ c t, (dat c).owed t = 0)
  (hbody : ∀ c, BodyObligation (dat c) (defs₀ (F := F)) Variants.none () Set.univ)
  (hin : ∀ c, Pipeline.ΦA spec0 c ⊢ (dat c).Φ 0) (hout : ∀ c, (dat c).Φ (Fin.last cfg0.N) ⊢ Pipeline.ΦA spec0 c)

include hA hq in
/-- ENTRY, the arrays' part: every unscoped buffer at the entry contents is the pipeline's arrays at the proof
    data's entry contents (the adjacency's buffer cut in its two shares) and the one buffer no window reads. -/
theorem entry_arrays (c : Dev nD) :
    (StableHlo.held (c : Thread nD τ) (Pipeline.ucRefs τ sig) (W1 m c) : sProp 𝕄)
      ⊢ iprop((dat c).arrays ((dat c).arrAt · 0) ∗ Pipeline.unscopedRest (Ix := Unit) (Name := ℕ) (U := UR sig nD τ) (Lvl := ℕ) spec0 c (V1 m c)) := by
  have hub := Pipeline.unscopedBufs_split₀ cfgs (0 : Fin 1) winFacts₀0.arr_unscoped c (V1 m c) (Ix := Unit) (Name := ℕ) (U := UR sig nD τ) (Lvl := ℕ) (Val := Elt F)
  rw [Pipeline.unscopedBufs_held c (W1 m c)] at hub
  rw [hub]
  exact sep_mono (arrays_iff c (dat c) (hq c) (V1 m c) ((dat c).arrAt · 0) (fun w => hA c w)).1 .rfl

include hA hq in
/-- EXIT, the arrays' part: the arrays at what the pipeline leaves (the two halves of the adjacency at the same
    contents join) and the bypassed buffer make every unscoped buffer at the exit contents. -/
theorem exit_arrays (c : Dev nD) :
    iprop((dat c).arrays ((dat c).arrAt · cfg0.N) ∗ Pipeline.unscopedRest (Ix := Unit) (Name := ℕ) (U := UR sig nD τ) (Lvl := ℕ) spec0 c (V1 m c))
      ⊢ (StableHlo.held (c : Thread nD τ) (Pipeline.ucRefs τ sig) (W2 m dat c) : sProp 𝕄) := by
  have hub := Pipeline.unscopedBufs_split₀ cfgs (0 : Fin 1) winFacts₀0.arr_unscoped c (V2 m dat c) (Ix := Unit) (Name := ℕ) (U := UR sig nD τ) (Lvl := ℕ) (Val := Elt F)
  rw [Pipeline.unscopedBufs_held c (W2 m dat c)] at hub
  have hrest : (Pipeline.unscopedRest (Ix := Unit) (Name := ℕ) (U := UR sig nD τ) (Lvl := ℕ) spec0 c (V1 m c) : sProp 𝕄)
      = Pipeline.unscopedRest spec0 c (V2 m dat c) := by
    rw [unscopedRest0_eq, unscopedRest0_eq, show V2 m dat c main_arg3 = V1 m c main_arg3 from W2_of_ne m dat c main_arg3 (by decide)]
  rw [hub, hrest]
  exact sep_mono (arrays_iff c (dat c) (hq c) (V2 m dat c) ((dat c).arrAt · cfg0.N) (hF2 m dat hA c)).2 .rfl

include howed in
/-- The core's `owes` at nothing with no pair recorded is the proof data's at the first point. -/
theorem owes_entry (c : Dev nD) :
    (owes (c : Thread nD τ) (0 : CellTallies nD τ sig Unit) ∅ : sProp 𝕄) ⊢ (pdats dat 0 c).owesAt () 0 := by
  unfold Pipeline.Dat.owesAt Pipeline.owesWithin
  rw [show (pdats dat 0 c).owed 0 = 0 from howed c 0]
  iintro HO; iexists ∅; isplitr; · ipureintro; simp
  iexact HO

include howed in
/-- The proof data's `owes` at the last point is the core owing nothing. -/
theorem owes_exit (c : Dev nD) :
    ((pdats dat 0 c).owesAt () (Fin.last (Pipeline.pin (pcfgs (F := F)) adm 0).N) : sProp 𝕄)
      ⊢ ∃ W, owes (c : Thread nD τ) (0 : CellTallies nD τ sig Unit) W := by
  unfold Pipeline.Dat.owesAt Pipeline.owesWithin
  rw [show (pdats dat 0 c).owed (Fin.last (Pipeline.pin (pcfgs (F := F)) adm 0).N) = 0 from howed c _]
  iintro ⟨%W, -, HO⟩; iexists W; iexact HO

include hA hq howed hbody hin hout in
set_option backward.isDefEq.respectTransparency.types false in
/-- THE REGION over the thread state: entered from every unscoped buffer at the contents after the reshape, left
    at the exit contents. Its arrays are split out of the unscoped buffers (the adjacency's in two shares) and put
    back; the generator register goes into the invariant and comes out; nothing owed; no semaphore of its own. -/
def reg0 : Pipeline.RegionSeg (pcfgs (F := F)) adm (pdats dat) () defs₀ 𝒱₀ L lv 0 where
  win := winFacts₀0
  block_pos := block_pos0
  stage_whole := stage_whole0
  K := PEmpty
  osem k := k.elim
  ho := Pipeline.OwnSemFacts.none _
  hbody c := (hbody c).loose
  hwaits := Pipeline.hwaits_of_owed_zero _ _ _ _ L lv 0 howed
  pre c := iprop(StableHlo.held (c : Thread nD τ) (Pipeline.ucRefs τ sig) (W1 m c) ∗ R c)
  post c := iprop(Tₙ m dat c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit : (StableHlo.held (c : Thread nD τ) (Pipeline.ucRefs τ sig) (W1 m c) : sProp 𝕄)
        ⊢ iprop((pdats dat 0 c).arrays ((pdats dat 0 c).arrAt · 0)
            ∗ Pipeline.unscopedRest (Ix := Unit) (Name := ℕ) (U := UR sig nD τ) (Lvl := ℕ) spec0 c (V1 m c)) := entry_arrays m dat hA hq c
    have hO := owes_entry dat howed c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply hO; iexact HO
    isplitl [Hp]; · iexact Hp
    iexact Hrest
  hin c := by
    refine BIBase.Entails.trans ?_ (hin c)
    unfold Pipeline.ΦA
    iintro ⟨Hp, -, Hr⟩
    isplitl [Hr]; · iexact Hr
    iexact Hp
  hout c := by
    rw [Pipeline.ownSems0_none]
    refine BIBase.Entails.trans (hout c) ?_
    unfold Pipeline.ΦA
    iintro ⟨Hr, Hp⟩
    isplitl [Hp]; · iexact Hp
    isplitr; · iempintro
    iexact Hr
  hexit c := by
    have hjoin : iprop((pdats dat 0 c).arrays ((pdats dat 0 c).arrAt · (Pipeline.pin (pcfgs (F := F)) adm 0).N)
          ∗ Pipeline.unscopedRest (Ix := Unit) (Name := ℕ) (U := UR sig nD τ) (Lvl := ℕ) spec0 c (V1 m c))
        ⊢ (StableHlo.held (c : Thread nD τ) (Pipeline.ucRefs τ sig) (W2 m dat c) : sProp 𝕄) := exit_arrays m dat hA hq c
    have hO := owes_exit dat howed c
    iintro ⟨Ha, HO, HY, Hrest⟩
    imodintro
    isplitl [Ha Hrest HY]
    · isplitl [Ha Hrest]
      · iapply hjoin; isplitl [Ha] <;> iassumption
      iexact HY
    iapply hO; iexact HO

/-! ## @main as segments, and the launch -/

/-- @main's two segments: the host reshape from the launch contents, then the region. -/
abbrev segs : List (Pipeline.Seg (pcfgs (F := F)) adm (pdats dat) () defs₀ 𝒱₀ L lv) :=
  [ .host (hseg hostOps0 hostOps0_sub hostOps0_fresh (W0 m)),
    .region (reg0 m dat hA hq howed hbody hin hout) ]
/-- @main is the run of the segments. -/
theorem main_run (c : Dev nD) : main (F := F) c = Pipeline.Seg.run (segs m dat hA hq howed hbody hin hout) :=
  (main_chain c).trans (by chain_rfl)

end Run

end Launch

open Launch in
set_option backward.isDefEq.respectTransparency.types false in
/-- THE LAUNCH, for any proof data of the region whose arrays are the contents after the reshape, whose input shares
    are `qK`, which owes nothing and whose invariant is entered from and left to the class's: from any memory with
    zero counters every weakly fair execution of @main on the TensorCores terminates, nothing faulting, and every
    final state has the result array at what the proof data's write-backs leave and the four arguments as launched. -/
theorem run_main_of (ρ : Dev nD → PrngReg) (dat : (c : Dev nD) → Dat τ (Elt F) Unit ℕ (UR sig nD τ) ℕ cfg0 c)
    (hA : ∀ c w, (dat c).A w = V1 m c (Pipeline.arrRef spec0 w)) (hq : ∀ c, (dat c).q = qK) (howed : ∀ c t, (dat c).owed t = 0)
    (hbody : ∀ c, BodyObligation (dat c) (defs₀ (F := F)) Variants.none () Set.univ)
    (hin : ∀ c, Pipeline.ΦA spec0 c ⊢ (dat c).Φ 0) (hout : ∀ c, (dat c).Φ (Fin.last cfg0.N) ⊢ Pipeline.ΦA spec0 c) :
    θ_run defs (onTc (τ := τ) (main (F := F))) ⟨m, fun _ => 0, ρ⟩ (fun r => ∀ c : Dev nD,
      r.2.mem ((c.tc : Thread nD τ).loc main_v1) = (dat c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats dat) () cellOf_inj emb₁ defs₀ 𝒱₀ L lv m ρ main (segs m dat hA hq howed hbody hin hout)
    (fun c Q => by rw [main_run m dat hA hq howed hbody hin hout c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m dat)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexact HO)
    (QY := fun c s => ∀ b ∈ Pipeline.ucRefs τ sig, s.mem (((c : Thread nD τ)).1, b) = W2 m dat c b)
    (hfin := fun c s' => by
      iintro ⟨⟨Hh, -⟩, HSI⟩
      unfold StableHlo.held
      imodintro
      iapply (pointsTo_read_all (Pipeline.ucRefs τ sig) (fun b => (((c : Thread nD τ)).1, b)) (W2 m dat c) s')
      isplitl [Hh] <;> iassumption)
    (hQ := fun s h c =>
      ⟨(h c _ (mem_uc main_v1 (by decide))).trans (W2_v1 m dat c),
       (h c _ (mem_uc main_arg0 (by decide))).trans ((W2_of_ne m dat c main_arg0 (by decide)).trans (W1_of_ne m c main_arg0 (by decide))),
       (h c _ (mem_uc main_arg1 (by decide))).trans ((W2_of_ne m dat c main_arg1 (by decide)).trans (W1_of_ne m c main_arg1 (by decide))),
       (h c _ (mem_uc main_arg2 (by decide))).trans ((W2_of_ne m dat c main_arg2 (by decide)).trans (W1_of_ne m c main_arg2 (by decide))),
       (h c _ (mem_uc main_arg3 (by decide))).trans ((W2_of_ne m dat c main_arg3 (by decide)).trans (W1_of_ne m c main_arg3 (by decide)))⟩)

/-- info: 'Cert.Kernel.Hand.run_main_of' depends on axioms: [propext, Classical.choice, Quot.sound] -/
#guard_msgs in #print axioms run_main_of

end Cert.Kernel.Hand

end
-- ==== Proof.KI.Entry.lean ====
/-
  What the one kernel region finds in the device's arrays when it is entered: the launch memory after the single
  host operation that precedes the region (the bias reshaped from [256] to a [1, 256] row). Every later module
  states the region's proof data, its launch and its value at these contents.
-/
import proofs.«107922_g2000603260507787_pallasbulk_1139_8_alg».proof.Proof.Gen.KernelIdeal.Launch
import proofs.«107922_g2000603260507787_pallasbulk_1139_8_alg».proof.Proof.Gen.KernelIdeal.Skeleton
import proofs.«107922_g2000603260507787_pallasbulk_1139_8_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ)

/-- Core `c`'s buffers at launch. -/
abbrev W0 : Dev nD → Valuation τ sig (Elt F) := fun c b => m ((c : Dev nD), b)
/-- After the host operation before the region: the region's entry contents, as a valuation. -/
abbrev W1 : Dev nD → Valuation τ sig (Elt F) := fun c => StableHlo.after hostOps0 (W0 m c)
/-- The same read at the TensorCore's references: what the region's proof data take as the arrays. -/
abbrev V1 : (c : Dev nD) → (b : Ref sig .tc) → Buf (Elt F) ((c : Thread nD τ).loc b) := fun c b => W1 m c b

end Cert.KernelIdeal.Hand

end
-- ==== Proof.KI.Base.lean ====
/-
  The one kernel region of the fused graph-convolution program, first part: what every later module of the region
  is stated over. The region is entered with the device's arrays at some contents `V` (a parameter throughout).
  Here: each window's block of its array at a grid point; the fact that an input window's staging buffer holds
  that block when the body runs, whether the block was fetched at this point or is still there from an earlier one;
  the body's single branch condition in closed form over the eight grid points; names for the staging memrefs the
  body is called with and for the scratch buffer the body carries from point to point; and the region invariant
  with that scratch buffer spelled as an owned memref.
-/
import proofs.«107922_g2000603260507787_pallasbulk_1139_8_alg».proof.Proof.KI.Entry

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region

-- the TensorCore's buffer contents when the region is entered
variable (V : (c : Dev nD) → (b : Ref sig .tc) → Buf (Elt F) ((c : Thread nD τ).loc b))

/-! ## The windows' blocks -/

/-- Window `w`'s block at grid point `t`, read off its array at the entry contents `V`. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each of the five input windows finds its block in its staging buffer at every point: windows 0, 1, 4 (node
    features, weights, bias row) are whole arrays fetched once, and their block index never moves; windows 2 and 3
    (two row blocks of the adjacency) are fetched at every point. For any proof data over the entry contents whose
    body leaves input blocks in place, one lemma covers both kinds. -/

theorem before0_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's branch condition -/

/-- The condition of the body's one conditional: the second grid coordinate is zero. -/
abbrev cond0_0 (i : grid0.Coords) : Prop := (Scalar.cmpi .ne (Scalar.extui (Scalar.cmpi .eq (BitVec.ofNat 32 (i 1).val) 0#32)) 0#32) = 1#1
/-- Over the row-major order of the 2 × 4 grid it holds exactly at the points that are multiples of four. -/
theorem hcond0_0 : ∀ t : Fin cfg0.N, cond0_0 (grid0.coords t) ↔ t.val % 4 = 0 :=
  (by decide +kernel : ∀ t : Fin grid0.N, cond0_0 (grid0.coords t) ↔ t.val % 4 = 0)

/-! ## The memrefs the body is called with -/

/-- One staging buffer of the output window, through which its contents are stated (which one does not matter:
    pieces that cover a buffer read back the same through any whole view). -/
abbrev VO0_5 : View sig .tc .vmem S512x256 .f32 := (Memref.whole cc0_stg5_0 : Memref sig .tc .vmem S512x256 .f32).view
/-- Each window's current staging memref at point `t`, and that it is a whole buffer. -/
abbrev ms0_0 (t : Fin cfg0.N) : Memref sig .tc .vmem S4096x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x4096 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x4096 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x256 .f32 := win0_5.stage (cfg0.slots t 5)
abbrev hs0_5 (t : Fin cfg0.N) : (ms0_5 t).IsWhole := hstage0_5 ((cfg0.slots t 5).cast nbuf0_5)
/-- The scratch operand: a whole scoped buffer of the kernel's own, which holds the product of the node features
    and the weights from the point that computes it to the points that read it. -/
abbrev scM0_0 : Memref sig .tc .vmem S4096x256 .f32 := Memref.whole cc0_scratch0
/-- The same as a view: what the scratch holds is stated through it. -/
abbrev VS0_0 : View sig .tc .vmem S4096x256 .f32 := scM0_0.view

/-- The region's invariant as the launch hands it over, with the scratch buffer as a memref owned at some contents:
    this is what the body is given at the first point and what is given back after the last. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Region

end Cert.KernelIdeal.Hand

end
-- ==== Proof.KI.RunA.lean ====
/-
  The kernel body run whole at a grid point where its condition holds (the first point of each row of the grid):
  it loads the node features and the weights, stores their product over the whole scratch buffer, and then, as at
  every point, stores the two halves of its output block, each the product of one adjacency row block with the
  scratch plus the broadcast bias row. Stated as a weakest-precondition triple on any whole memrefs: the five
  inputs come in and go out at their contents, the output buffer and the scratch come in at anything and go out
  with the stores' pieces written over what they held. The piece lists are found by running the body symbolically.
-/
import proofs.«107922_g2000603260507787_pallasbulk_1139_8_alg».proof.Proof.KI.Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- (the run's proof term is large)
set_option maxHeartbeats 4000000 in
/-- The pieces the body's stores leave in the output buffer (`.1`) and in the scratch (`.2.1`) at a point where the
    condition holds, with the proof (`.2.2`) that from the inputs owned at `x0 … x4`, the output buffer and the
    scratch owned at anything, the body runs to any continuation that accepts the inputs as they were and the two
    written buffers with those pieces laid over their former contents. -/
noncomputable def kernelRunA (c : Dev nD) (i : grid0.Coords) (arg2 : Memref sig .tc .vmem S4096x256 .f32) (harg2 : arg2.IsWhole) (arg3 : Memref sig .tc .vmem S256x256 .f32) (harg3 : arg3.IsWhole) (arg4 : Memref sig .tc .vmem S256x4096 .f32) (harg4 : arg4.IsWhole) (arg5 : Memref sig .tc .vmem S256x4096 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S4096x256 .f32) (harg8 : arg8.IsWhole) (hc0 : cond0_0 i)
    (x0 : Vec F S4096x256 .f32) (x1 : Vec F S256x256 .f32) (x2 : Vec F S256x4096 .f32) (x3 : Vec F S256x4096 .f32) (x4 : Vec F S1x256 .f32) :
    Σ' (L5 : List (View.Piece (Elt F) S512x256 .f32)), { LS0 : List (View.Piece (Elt F) S4096x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f LS0)) -∗ K ⟨⟩))
          ⊢ wp frame (wpE (defs₀ (F := F)) Variants.none c none) E (cc0__fused_body i arg2 harg2 arg3 harg3 arg4 harg4 arg5 harg5 arg6 harg6 arg7 harg7 arg8 harg8) K } := by
  refine ⟨?_, ?_, fun E K => ?run⟩
  case run =>
    simp only [cc0__fused_body_eq_skeleton]; unfold cc0__fused_body_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, Hk⟩
    obtain rfl := harg2.eq_unread hf0; obtain rfl := harg3.eq_unread hf1; obtain rfl := harg4.eq_unread hf2
    obtain rfl := harg5.eq_unread hf3; obtain rfl := harg6.eq_unread hf4
    sl_exec (disch := exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.KernelIdeal.Hand

end
-- ==== Proof.KI.RunB.lean ====
/-
  The kernel body run whole at a grid point where its condition fails (the other three points of each row of the
  grid): it leaves the scratch buffer alone and only reads it, storing the two halves of its output block, each the
  product of one adjacency row block with the scratch plus the broadcast bias row. Stated as a
  weakest-precondition triple on any whole memrefs: the five inputs and the scratch come in and go out at their
  contents, the output buffer comes in at anything and goes out with the two stores' pieces written over what it
  held. The piece list is found by running the body symbolically.
-/
import proofs.«107922_g2000603260507787_pallasbulk_1139_8_alg».proof.Proof.KI.RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- (the run's proof term is large)
set_option maxHeartbeats 4000000 in
/-- The pieces the body's stores leave in the output buffer (`.1`) at a point where the condition fails, with the
    proof (`.2`) that from the inputs owned at `x0 … x4`, the scratch owned at `xs` and the output buffer owned at
    anything, the body runs to any continuation that accepts the inputs and the scratch as they were and the output
    buffer with those pieces laid over its former contents. -/
noncomputable def kernelRunB (c : Dev nD) (i : grid0.Coords) (arg2 : Memref sig .tc .vmem S4096x256 .f32) (harg2 : arg2.IsWhole) (arg3 : Memref sig .tc .vmem S256x256 .f32) (harg3 : arg3.IsWhole) (arg4 : Memref sig .tc .vmem S256x4096 .f32) (harg4 : arg4.IsWhole) (arg5 : Memref sig .tc .vmem S256x4096 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S4096x256 .f32) (harg8 : arg8.IsWhole) (hc0 : ¬cond0_0 i)
    (x0 : Vec F S4096x256 .f32) (x1 : Vec F S256x256 .f32) (x2 : Vec F S256x4096 .f32) (x3 : Vec F S256x4096 .f32) (x4 : Vec F S1x256 .f32) (xs : Vec F S4096x256 .f32) :
    { L5 : List (View.Piece (Elt F) S512x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ d, owns (c : Thread nD τ) arg7 fullShare d) ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ (∃ f, arg7.view.loc (c : Thread nD τ) ↦[arg7.view.set]{fullShare} arg7.view.writes (Elt F) f L5)
                ∗ owns (c : Thread nD τ) arg8 fullShare xs) -∗ K ⟨⟩))
          ⊢ wp frame (wpE (defs₀ (F := F)) Variants.none c none) E (cc0__fused_body i arg2 harg2 arg3 harg3 arg4 harg4 arg5 harg5 arg6 harg6 arg7 harg7 arg8 harg8) K } := by
  refine ⟨?_, fun E K => ?run⟩
  case run =>
    simp only [cc0__fused_body_eq_skeleton]; unfold cc0__fused_body_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg8.eq_unread hfs0
    sl_exec (disch := exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; isplitr; · ipureintro; exact harg8.read_unread _
    iexact HS0

end Cert.KernelIdeal.Hand

end
-- ==== Proof.KI.Frame.lean ====
/-
  The one kernel region of the fused graph-convolution program, last part: the proof data of the pipeline and the
  body obligation, at any entry contents `V` of the device's arrays and any shares `q` of the input arrays.

  What the body leaves: at a point where its condition holds it overwrites the whole scratch buffer (one piece that
  covers it) and the whole output block (two half-height pieces that tile it); at a point where the condition fails
  it leaves the scratch as it found it and again overwrites the whole output block. So the contents of the output
  buffer and of the scratch after each point are defined by recursion on the point: the scratch after a point of the
  second kind is the scratch after the point before. The region invariant carries the scratch at exactly those
  contents from one point to the next; before the first point and after the last it is the launch's own invariant
  (the scratch at anything).
-/
import proofs.«107922_g2000603260507787_pallasbulk_1139_8_alg».proof.Proof.KI.RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region

-- the TensorCore's buffer contents when the region is entered
variable (V : (c : Dev nD) → (b : Ref sig .tc) → Buf (Elt F) ((c : Thread nD τ).loc b))

/-! ## What each case leaves, read back -/

/-- Where the condition holds, the two output stores are half-height blocks that tile the output block, so they cover it. -/
theorem cover_A_5 (c : Dev nD) (i : grid0.Coords) (arg2 : Memref sig .tc .vmem S4096x256 .f32) (harg2 : arg2.IsWhole) (arg3 : Memref sig .tc .vmem S256x256 .f32) (harg3 : arg3.IsWhole) (arg4 : Memref sig .tc .vmem S256x4096 .f32) (harg4 : arg4.IsWhole) (arg5 : Memref sig .tc .vmem S256x4096 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S4096x256 .f32) (harg8 : arg8.IsWhole) (hc0 : cond0_0 i)
    (x0 : Vec F S4096x256 .f32) (x1 : Vec F S256x256 .f32) (x2 : Vec F S256x4096 .f32) (x3 : Vec F S256x4096 .f32) (x4 : Vec F S1x256 .f32) (y : S512x256.Idx) :
    ∃ pc ∈ (kernelRunA c i arg2 harg2 arg3 harg3 arg4 harg4 arg5 harg5 arg6 harg6 arg7 harg7 arg8 harg8 hc0 x0 x1 x2 x3 x4).1, y ∈ pc.1.set :=
  View.cover_of_tiledL (kernelRunA c i arg2 harg2 arg3 harg3 arg4 harg4 arg5 harg5 arg6 harg6 arg7 harg7 arg8 harg8 hc0 x0 x1 x2 x3 x4).1 S256x256.size (by sl_kernel_rfl) y

/-- What the output buffer holds after the body where the condition holds: the stores' pieces read back over junk. -/
def out_A_5 (c : Dev nD) (i : grid0.Coords) (arg2 : Memref sig .tc .vmem S4096x256 .f32) (harg2 : arg2.IsWhole) (arg3 : Memref sig .tc .vmem S256x256 .f32) (harg3 : arg3.IsWhole) (arg4 : Memref sig .tc .vmem S256x4096 .f32) (harg4 : arg4.IsWhole) (arg5 : Memref sig .tc .vmem S256x4096 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S4096x256 .f32) (harg8 : arg8.IsWhole) (hc0 : cond0_0 i)
    (x0 : Vec F S4096x256 .f32) (x1 : Vec F S256x256 .f32) (x2 : Vec F S256x4096 .f32) (x3 : Vec F S256x4096 .f32) (x4 : Vec F S1x256 .f32) : Vec F S512x256 .f32 :=
  VO0_5.read (Elt F) (VO0_5.writes (Elt F) VO0_5.junk (kernelRunA c i arg2 harg2 arg3 harg3 arg4 harg4 arg5 harg5 arg6 harg6 arg7 harg7 arg8 harg8 hc0 x0 x1 x2 x3 x4).1)

/-- Where the condition holds, the one scratch store is the whole buffer, so it covers it. -/
theorem scover_A (c : Dev nD) (i : grid0.Coords) (arg2 : Memref sig .tc .vmem S4096x256 .f32) (harg2 : arg2.IsWhole) (arg3 : Memref sig .tc .vmem S256x256 .f32) (harg3 : arg3.IsWhole) (arg4 : Memref sig .tc .vmem S256x4096 .f32) (harg4 : arg4.IsWhole) (arg5 : Memref sig .tc .vmem S256x4096 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S4096x256 .f32) (harg8 : arg8.IsWhole) (hc0 : cond0_0 i)
    (x0 : Vec F S4096x256 .f32) (x1 : Vec F S256x256 .f32) (x2 : Vec F S256x4096 .f32) (x3 : Vec F S256x4096 .f32) (x4 : Vec F S1x256 .f32) (y : S4096x256.Idx) :
    ∃ pc ∈ (kernelRunA c i arg2 harg2 arg3 harg3 arg4 harg4 arg5 harg5 arg6 harg6 arg7 harg7 arg8 harg8 hc0 x0 x1 x2 x3 x4).2.1, y ∈ pc.1.set :=
  View.cover_of_tiledL (kernelRunA c i arg2 harg2 arg3 harg3 arg4 harg4 arg5 harg5 arg6 harg6 arg7 harg7 arg8 harg8 hc0 x0 x1 x2 x3 x4).2.1 S4096x256.size (by sl_kernel_rfl) y

/-- What the scratch holds after the body where the condition holds: the store's piece read back over junk. -/
def sout_A (c : Dev nD) (i : grid0.Coords) (arg2 : Memref sig .tc .vmem S4096x256 .f32) (harg2 : arg2.IsWhole) (arg3 : Memref sig .tc .vmem S256x256 .f32) (harg3 : arg3.IsWhole) (arg4 : Memref sig .tc .vmem S256x4096 .f32) (harg4 : arg4.IsWhole) (arg5 : Memref sig .tc .vmem S256x4096 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S4096x256 .f32) (harg8 : arg8.IsWhole) (hc0 : cond0_0 i)
    (x0 : Vec F S4096x256 .f32) (x1 : Vec F S256x256 .f32) (x2 : Vec F S256x4096 .f32) (x3 : Vec F S256x4096 .f32) (x4 : Vec F S1x256 .f32) : Vec F S4096x256 .f32 :=
  VS0_0.read (Elt F) (VS0_0.writes (Elt F) VS0_0.junk (kernelRunA c i arg2 harg2 arg3 harg3 arg4 harg4 arg5 harg5 arg6 harg6 arg7 harg7 arg8 harg8 hc0 x0 x1 x2 x3 x4).2.1)

/-- Where the condition fails, the two output stores tile the output block all the same. -/
theorem cover_B_5 (c : Dev nD) (i : grid0.Coords) (arg2 : Memref sig .tc .vmem S4096x256 .f32) (harg2 : arg2.IsWhole) (arg3 : Memref sig .tc .vmem S256x256 .f32) (harg3 : arg3.IsWhole) (arg4 : Memref sig .tc .vmem S256x4096 .f32) (harg4 : arg4.IsWhole) (arg5 : Memref sig .tc .vmem S256x4096 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S4096x256 .f32) (harg8 : arg8.IsWhole) (hc0 : ¬cond0_0 i)
    (x0 : Vec F S4096x256 .f32) (x1 : Vec F S256x256 .f32) (x2 : Vec F S256x4096 .f32) (x3 : Vec F S256x4096 .f32) (x4 : Vec F S1x256 .f32) (xs : Vec F S4096x256 .f32) (y : S512x256.Idx) :
    ∃ pc ∈ (kernelRunB c i arg2 harg2 arg3 harg3 arg4 harg4 arg5 harg5 arg6 harg6 arg7 harg7 arg8 harg8 hc0 x0 x1 x2 x3 x4 xs).1, y ∈ pc.1.set :=
  View.cover_of_tiledL (kernelRunB c i arg2 harg2 arg3 harg3 arg4 harg4 arg5 harg5 arg6 harg6 arg7 harg7 arg8 harg8 hc0 x0 x1 x2 x3 x4 xs).1 S256x256.size (by sl_kernel_rfl) y

/-- What the output buffer holds after the body where the condition fails, the scratch being at `xs`. -/
def out_B_5 (c : Dev nD) (i : grid0.Coords) (arg2 : Memref sig .tc .vmem S4096x256 .f32) (harg2 : arg2.IsWhole) (arg3 : Memref sig .tc .vmem S256x256 .f32) (harg3 : arg3.IsWhole) (arg4 : Memref sig .tc .vmem S256x4096 .f32) (harg4 : arg4.IsWhole) (arg5 : Memref sig .tc .vmem S256x4096 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S4096x256 .f32) (harg8 : arg8.IsWhole) (hc0 : ¬cond0_0 i)
    (x0 : Vec F S4096x256 .f32) (x1 : Vec F S256x256 .f32) (x2 : Vec F S256x4096 .f32) (x3 : Vec F S256x4096 .f32) (x4 : Vec F S1x256 .f32) (xs : Vec F S4096x256 .f32) : Vec F S512x256 .f32 :=
  VO0_5.read (Elt F) (VO0_5.writes (Elt F) VO0_5.junk (kernelRunB c i arg2 harg2 arg3 harg3 arg4 harg4 arg5 harg5 arg6 harg6 arg7 harg7 arg8 harg8 hc0 x0 x1 x2 x3 x4 xs).1)

/-! ## What the output buffer and the scratch hold after each point -/

/-- The pair (output buffer, scratch) after the body at position `n` of the grid's order: at a multiple of four the
    first case's contents at the point's input blocks; elsewhere the second case's output over the scratch the point
    before left, and that same scratch. -/
def outsAt (c : Dev nD) : (n : ℕ) → n < cfg0.N → Vec F S512x256 .f32 × Vec F S4096x256 .f32
  | 0, hn => (out_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (iblk V c 0 ⟨0, hn⟩) (iblk V c 1 ⟨0, hn⟩) (iblk V c 2 ⟨0, hn⟩) (iblk V c 3 ⟨0, hn⟩) (iblk V c 4 ⟨0, hn⟩), sout_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (iblk V c 0 ⟨0, hn⟩) (iblk V c 1 ⟨0, hn⟩) (iblk V c 2 ⟨0, hn⟩) (iblk V c 3 ⟨0, hn⟩) (iblk V c 4 ⟨0, hn⟩))
  | n + 1, hn =>
    if h0 : (n + 1) % 4 = 0 then
      (out_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (iblk V c 0 ⟨n + 1, hn⟩) (iblk V c 1 ⟨n + 1, hn⟩) (iblk V c 2 ⟨n + 1, hn⟩) (iblk V c 3 ⟨n + 1, hn⟩) (iblk V c 4 ⟨n + 1, hn⟩), sout_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (iblk V c 0 ⟨n + 1, hn⟩) (iblk V c 1 ⟨n + 1, hn⟩) (iblk V c 2 ⟨n + 1, hn⟩) (iblk V c 3 ⟨n + 1, hn⟩) (iblk V c 4 ⟨n + 1, hn⟩))
    else
      (out_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt c n (Nat.lt_of_succ_lt hn)).2, (outsAt c n (Nat.lt_of_succ_lt hn)).2)

/-- `outsAt` at a point where the condition holds. -/
theorem outsAt_A (c : Dev nD) (t : Fin cfg0.N) (h : t.val % 4 = 0) :
    outsAt V c t.val t.isLt = (out_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h) (iblk V c 0 t) (iblk V c 1 t) (iblk V c 2 t) (iblk V c 3 t) (iblk V c 4 t), sout_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h) (iblk V c 0 t) (iblk V c 1 t) (iblk V c 2 t) (iblk V c 3 t) (iblk V c 4 t)) := by
  obtain ⟨n, hn⟩ := t
  cases n with
  | zero => exact rfl
  | succ n => exact (dif_pos h).trans rfl

/-- `outsAt` at a point where the condition fails: over the scratch the point before left, which stays. -/
theorem outsAt_B (c : Dev nD) (t : Fin cfg0.N) (h : ¬t.val % 4 = 0) :
    outsAt V c t.val t.isLt = (out_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h' => h ((hcond0_0 t).mp h')) (iblk V c 0 t) (iblk V c 1 t) (iblk V c 2 t) (iblk V c 3 t) (iblk V c 4 t) (outsAt V c (t.val - 1) (Nat.lt_of_le_of_lt (Nat.sub_le _ _) t.isLt)).2, (outsAt V c (t.val - 1) (Nat.lt_of_le_of_lt (Nat.sub_le _ _) t.isLt)).2) := by
  obtain ⟨n, hn⟩ := t
  cases n with
  | zero => exact (by exfalso; (try dsimp only at h); exact absurd (Nat.zero_mod _) h)
  | succ n => exact (dif_neg h).trans rfl

/-! ## The region invariant, point by point -/

/-- Before position `n`: at the start the launch's invariant (the scratch at anything); afterwards the scratch owned at
    what the point before left in it, beside the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt V c n hn).2)) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt V c n hn).2)) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt V c (n - 1) (by omega)).2)) ∗ (∃ r, prngReg c r)) := by
  cases n with
  | zero => exact absurd rfl hz
  | succ n => rfl

/-! ## The pipeline's proof data -/

/-- The proof data on core `c`: the arrays at the entry contents; after the body at point `t` each input buffer at
    its block and the output buffer at `outsAt`'s first component; the invariant `PhiS`; the given shares of the input
    arrays; nothing owed. -/
def dat (q : Fin cfg0.W → PosShare TreeShare) (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => (outsAt V c t.val t.isLt).1
  Φ t := PhiS V c t.val (Nat.le_of_lt_succ t.isLt)
  q := q
  owed _ := 0

theorem A_eq (q : Fin cfg0.W → PosShare TreeShare) (c : Dev nD) (w : Fin cfg0.W) : (dat V q c).A w = V c (Pipeline.arrRef spec0 w) := by
  dsimp only [dat]

theorem PhiS_castSucc (q : Fin cfg0.W → PosShare TreeShare) (c : Dev nD) (t : Fin cfg0.N) :
    (dat V q c).Φ t.castSucc = PhiS V c t.val (Nat.le_of_lt t.isLt) := by
  dsimp only [dat]; simp only [Fin.coe_castSucc]

theorem after_0 (q : Fin cfg0.W → PosShare TreeShare) (c : Dev nD) (t : Fin cfg0.N) : (dat V q c).after 0 t = iblk V c 0 t := by dsimp only [dat]
theorem after_1 (q : Fin cfg0.W → PosShare TreeShare) (c : Dev nD) (t : Fin cfg0.N) : (dat V q c).after 1 t = iblk V c 1 t := by dsimp only [dat]
theorem after_2 (q : Fin cfg0.W → PosShare TreeShare) (c : Dev nD) (t : Fin cfg0.N) : (dat V q c).after 2 t = iblk V c 2 t := by dsimp only [dat]
theorem after_3 (q : Fin cfg0.W → PosShare TreeShare) (c : Dev nD) (t : Fin cfg0.N) : (dat V q c).after 3 t = iblk V c 3 t := by dsimp only [dat]
theorem after_4 (q : Fin cfg0.W → PosShare TreeShare) (c : Dev nD) (t : Fin cfg0.N) : (dat V q c).after 4 t = iblk V c 4 t := by dsimp only [dat]
theorem after_5 (q : Fin cfg0.W → PosShare TreeShare) (c : Dev nD) (t : Fin cfg0.N) : (dat V q c).after 5 t = (outsAt V c t.val t.isLt).1 := by dsimp only [dat]

theorem before_0 (q : Fin cfg0.W → PosShare TreeShare) (c : Dev nD) (t : Fin cfg0.N) (d) : (dat V q c).before 0 t d = iblk V c 0 t :=
  before0_0_of V (dat V q c) (A_eq V q c 0) (after_0 V q c) t d
theorem before_1 (q : Fin cfg0.W → PosShare TreeShare) (c : Dev nD) (t : Fin cfg0.N) (d) : (dat V q c).before 1 t d = iblk V c 1 t :=
  before0_1_of V (dat V q c) (A_eq V q c 1) (after_1 V q c) t d
theorem before_2 (q : Fin cfg0.W → PosShare TreeShare) (c : Dev nD) (t : Fin cfg0.N) (d) : (dat V q c).before 2 t d = iblk V c 2 t :=
  before0_2_of V (dat V q c) (A_eq V q c 2) (after_2 V q c) t d
theorem before_3 (q : Fin cfg0.W → PosShare TreeShare) (c : Dev nD) (t : Fin cfg0.N) (d) : (dat V q c).before 3 t d = iblk V c 3 t :=
  before0_3_of V (dat V q c) (A_eq V q c 3) (after_3 V q c) t d
theorem before_4 (q : Fin cfg0.W → PosShare TreeShare) (c : Dev nD) (t : Fin cfg0.N) (d) : (dat V q c).before 4 t d = iblk V c 4 t :=
  before0_4_of V (dat V q c) (A_eq V q c 4) (after_4 V q c) t d

/-! ## The body obligation, at a generic point -/

/-- What the body is called with at point `t`, the windows one by one, -/
def bodyPre (q : Fin cfg0.W → PosShare TreeShare) (c : Dev nD) (t : Fin cfg0.N) : sProp 𝕄 :=
  iprop((dat V q c).Φ t.castSucc ∗ (dat V q c).owesAt () t.castSucc
    ∗ (∃ d, owns (c : Thread nD τ) (ms0_0 t) fullShare ((dat V q c).before 0 t d))
    ∗ (∃ d, owns (c : Thread nD τ) (ms0_1 t) fullShare ((dat V q c).before 1 t d))
    ∗ (∃ d, owns (c : Thread nD τ) (ms0_2 t) fullShare ((dat V q c).before 2 t d))
    ∗ (∃ d, owns (c : Thread nD τ) (ms0_3 t) fullShare ((dat V q c).before 3 t d))
    ∗ (∃ d, owns (c : Thread nD τ) (ms0_4 t) fullShare ((dat V q c).before 4 t d))
    ∗ (∃ d, owns (c : Thread nD τ) (ms0_5 t) fullShare ((dat V q c).before 5 t d)))

/-- and what it returns (no window is ever idle). -/
def bodyPost (q : Fin cfg0.W → PosShare TreeShare) (c : Dev nD) (t : Fin cfg0.N) : sProp 𝕄 :=
  iprop((dat V q c).Φ t.succ ∗ (dat V q c).owesAt () t.succ
    ∗ owns (c : Thread nD τ) (ms0_0 t) fullShare ((dat V q c).after 0 t)
    ∗ owns (c : Thread nD τ) (ms0_1 t) fullShare ((dat V q c).after 1 t)
    ∗ owns (c : Thread nD τ) (ms0_2 t) fullShare ((dat V q c).after 2 t)
    ∗ owns (c : Thread nD τ) (ms0_3 t) fullShare ((dat V q c).after 3 t)
    ∗ owns (c : Thread nD τ) (ms0_4 t) fullShare ((dat V q c).after 4 t)
    ∗ owns (c : Thread nD τ) (ms0_5 t) fullShare ((dat V q c).after 5 t))

set_option maxHeartbeats 4800000 in
/-- The body at any point. The input buffers hold their blocks; the point's position modulo four says which case
    applies. Where the condition holds the invariant hands the scratch over at some contents (the launch's at the very
    first point, the previous point's afterwards, forgotten) and takes it back at the product just stored, which
    covers it. Where it fails the invariant hands the scratch over at what the point before left and takes it back
    unchanged. In both the output buffer comes back covered by the two half stores. -/
theorem sound_body (q : Fin cfg0.W → PosShare TreeShare) (c : Dev nD) (t : Fin cfg0.N) :
    bodyPre V q c t ⊢ wp frame (wpE (defs₀ (F := F)) Variants.none c none) Set.univ (bodyAt0 t) (fun _ => bodyPost V q c t) := by
  unfold bodyPre bodyPost bodyAt0
  simp only [before_0, before_1, before_2, before_3, before_4]
  rw [show (dat V q c).owesAt () t.succ = (dat V q c).owesAt () t.castSucc from rfl]
  rw [show (dat V q c).Φ t.succ = PhiS V c (t.val + 1) t.isLt from rfl, PhiS_succ]
  rw [after_0, after_1, after_2, after_3, after_4, after_5]
  have hN : t.val < 8 := lt_of_lt_of_eq t.isLt (show cfg0.N = 8 from N_0)
  by_cases h0 : t.val % 4 = 0
  · rw [outsAt_A V c t h0]
    unfold out_A_5 sout_A; (try dsimp only)
    by_cases hz : t.val = 0
    · rw [PhiS_castSucc V q c t, PhiS_zero V c _ _ hz, PhiA0_eq]
      iintro ⟨⟨HS0, Hg⟩, Ho, ⟨%d0, H0⟩, ⟨%d1, H1⟩, ⟨%d2, H2⟩, ⟨%d3, H3⟩, ⟨%d4, H4⟩, ⟨%d5, H5⟩⟩
      iapply ((kernelRunA c (grid0.coords t) _ _ _ _ _ _ _ _ _ _ _ _ _ _ ((hcond0_0 t).mpr h0) (iblk V c 0 t) (iblk V c 1 t) (iblk V c 2 t) (iblk V c 3 t) (iblk V c 4 t)).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [HS0 Hg]
      · isplitl [HS0]
        · unfold owns; iexists _; isplitr
          swap; · iexact HS0
          ipureintro; exact View.read_writes_of_cover _ _ _ _ _ (scover_A c _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover_A_5 c _ _ _ _ _ _ _ _ _ _ _ _ _ _ _ _ _ _ _ _ _)
    · rw [PhiS_castSucc V q c t, PhiS_pos V c _ _ hz]
      iintro ⟨⟨HS0, Hg⟩, Ho, ⟨%d0, H0⟩, ⟨%d1, H1⟩, ⟨%d2, H2⟩, ⟨%d3, H3⟩, ⟨%d4, H4⟩, ⟨%d5, H5⟩⟩
      iapply ((kernelRunA c (grid0.coords t) _ _ _ _ _ _ _ _ _ _ _ _ _ _ ((hcond0_0 t).mpr h0) (iblk V c 0 t) (iblk V c 1 t) (iblk V c 2 t) (iblk V c 3 t) (iblk V c 4 t)).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexists _; iexact HS0
      iintro ⟨H0, H1, H2, H3, H4, ⟨%e5, H5⟩, ⟨%es0, HS0⟩⟩
      isplitl [HS0 Hg]
      · isplitl [HS0]
        · unfold owns; iexists _; isplitr
          swap; · iexact HS0
          ipureintro; exact View.read_writes_of_cover _ _ _ _ _ (scover_A c _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover_A_5 c _ _ _ _ _ _ _ _ _ _ _ _ _ _ _ _ _ _ _ _ _)
  · rw [outsAt_B V c t h0]
    unfold out_B_5; (try dsimp only)
    by_cases hz : t.val = 0
    · exfalso; omega
    · rw [PhiS_castSucc V q c t, PhiS_pos V c _ _ hz]
      iintro ⟨⟨HS0, Hg⟩, Ho, ⟨%d0, H0⟩, ⟨%d1, H1⟩, ⟨%d2, H2⟩, ⟨%d3, H3⟩, ⟨%d4, H4⟩, ⟨%d5, H5⟩⟩
      iapply ((kernelRunB c (grid0.coords t) _ _ _ _ _ _ _ _ _ _ _ _ _ _ (fun h => h0 ((hcond0_0 t).mp h)) (iblk V c 0 t) (iblk V c 1 t) (iblk V c 2 t) (iblk V c 3 t) (iblk V c 4 t) (outsAt V c (t.val - 1) (Nat.lt_of_le_of_lt (Nat.sub_le _ _) t.isLt)).2).2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, HS0⟩
      isplitl [HS0 Hg]
      · isplitl [HS0]; · iexact HS0
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover_B_5 c _ _ _ _ _ _ _ _ _ _ _ _ _ _ _ _ _ _ _ _ _ _)

/-- The library's body obligation, at every point. -/
theorem body_obligation (q : Fin cfg0.W → PosShare TreeShare) (c : Dev nD) : BodyObligation (dat (F := F) V q c) (defs₀ (F := F)) Variants.none () Set.univ := fun t => by
  rw [bigSep_W0, bigSep_W0]
  exact sound_body V q c t

/-- What the launch hands the region is the invariant before the first point. -/
theorem hin (q : Fin cfg0.W → PosShare TreeShare) (c : Dev nD) : Pipeline.ΦA spec0 c ⊢ (dat V q c).Φ 0 := by
  rw [show (dat V q c).Φ 0 = PhiS V c 0 (Nat.zero_le _) from rfl, PhiS_zero V c 0 _ rfl]
  try exact Idealize.SL.BI.Entails.refl _

/-- After any point but the first the invariant gives the launch's back: the scratch's named contents are forgotten. -/
theorem Phi_out (q : Fin cfg0.W → PosShare TreeShare) (c : Dev nD) (t : Fin (cfg0.N + 1)) (ht : t.val ≠ 0) : (dat V q c).Φ t ⊢ Pipeline.ΦA spec0 c := by
  rw [show (dat V q c).Φ t = PhiS V c t.val (Nat.le_of_lt_succ t.isLt) from rfl, PhiS_pos V c _ _ ht, PhiA0_eq]
  iintro ⟨HS0, Hg⟩
  isplitl [HS0]
  · iexists _; iexact HS0
  iexact Hg

/-- The same after the last point. -/
theorem hout (q : Fin cfg0.W → PosShare TreeShare) (c : Dev nD) : (dat V q c).Φ (Fin.last cfg0.N) ⊢ Pipeline.ΦA spec0 c :=
  Phi_out V q c _ (by rw [Fin.val_last]; have : cfg0.N = 8 := N_0; omega)

end Region

end Cert.KernelIdeal.Hand

end
-- ==== Proof.KI.Launch.lean ====
/-
  The launch of the one-region program, stated for any proof data of the region: the host reshape, then the
  region entered with the adjacency array's points-to cut in two halves, one per window that reads it, and
  the halves joined again when the region is left.
-/
import proofs.«107922_g2000603260507787_pallasbulk_1139_8_alg».proof.Proof.KI.Entry

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- The input shares: full for a window alone on its array, two complementary halves of the full share for the
    two windows that read the adjacency. -/
abbrev qK : Fin cfg0.W → PosShare TreeShare :=
  (fun | 0 => fullShare | 1 => fullShare | 2 => fullShare.left | 3 => fullShare.right | 4 => fullShare | 5 => fullShare
       | ⟨_ + 6, h⟩ => absurd h (Nat.not_lt.2 (Nat.le_add_left _ _)) : Fin 6 → PosShare TreeShare)

namespace Launch

/-! ## The windows' arrays and the buffers behind them -/

section Arrays

variable (c : Dev nD) (dat : Dat τ (Elt F) Unit ℕ (UR sig nD τ) ℕ cfg0 c) (hq : dat.q = qK)
  (V : (b : Ref sig .tc) → Buf (Elt F) ((c : Thread nD τ).loc b))
  (Fc : (w : Fin cfg0.W) → Buf (Elt F) ((cfg0.win w).arr.view.loc (c : Thread nD τ)))
  (hF : ∀ w, Fc w = V (Pipeline.arrRef spec0 w))

include hq in
/-- The share a window's array is held at: the full one for the output, the input's own otherwise. -/
theorem share_eq (w : Fin cfg0.W) : dat.share w = if (cfg0.win w).isOut then fullShare else qK w := by
  unfold Dat.share; rw [hq]

include hq hF in
/-- One window's array in the pipeline's terms is the whole buffer behind it, at the window's share and at the
    valuation's contents. -/
theorem win_eq (w : Fin cfg0.W) :
    ((cfg0.win w).arr.view.loc (c : Thread nD τ) ↦[(cfg0.win w).arr.view.set]{dat.share w} Fc w : sProp 𝕄)
      = (((c : Thread nD τ).loc (Pipeline.arrRef spec0 w)) ↦{if (cfg0.win w).isOut then fullShare else qK w} V (Pipeline.arrRef spec0 w)) := by
  rw [(arr_whole0 w).set_eq_univ, share_eq c dat hq w, hF w]

include hq hF in
/-- The five distinct buffers behind the six windows, each whole at the full share, are the pipeline's arrays:
    the adjacency's points-to is cut into its two halves, one per window reading it, and the halves join back. -/
theorem arrays_iff : (Pipeline.arrBufs spec0 c V : sProp 𝕄) ⊣⊢ dat.arrays Fc := by
  unfold Pipeline.arrBufs Dat.arrays
  rw [bigSep_W0, bigSep_eq_bigSepL_of_eq [main_arg0, main_arg2, main_arg1, main_v0, main_v1] (by decide) (by decide),
    win_eq c dat hq V Fc hF 0, win_eq c dat hq V Fc hF 1, win_eq c dat hq V Fc hF 2, win_eq c dat hq V Fc hF 3,
    win_eq c dat hq V Fc hF 4, win_eq c dat hq V Fc hF 5]
  show iprop((((c : Thread nD τ).loc main_arg0) ↦{fullShare} V main_arg0) ∗ (((c : Thread nD τ).loc main_arg2) ↦{fullShare} V main_arg2)
      ∗ (((c : Thread nD τ).loc main_arg1) ↦{fullShare} V main_arg1) ∗ (((c : Thread nD τ).loc main_v0) ↦{fullShare} V main_v0)
      ∗ (((c : Thread nD τ).loc main_v1) ↦{fullShare} V main_v1))
    ⊣⊢ (iprop((((c : Thread nD τ).loc main_arg0) ↦{fullShare} V main_arg0) ∗ (((c : Thread nD τ).loc main_arg2) ↦{fullShare} V main_arg2)
      ∗ (((c : Thread nD τ).loc main_arg1) ↦{fullShare.left} V main_arg1) ∗ (((c : Thread nD τ).loc main_arg1) ↦{fullShare.right} V main_arg1)
      ∗ (((c : Thread nD τ).loc main_v0) ↦{fullShare} V main_v0) ∗ (((c : Thread nD τ).loc main_v1) ↦{fullShare} V main_v1)) : sProp 𝕄)
  constructor
  · iintro ⟨H0, H2, H1, Hv0, Hv1⟩
    ihave H1' := (pointsTo_share (PosShare.mem_left_op_right fullShare)).1 $$ H1
    icases H1' with ⟨H1l, H1r⟩
    isplitl [H0]; · iexact H0
    isplitl [H2]; · iexact H2
    isplitl [H1l]; · iexact H1l
    isplitl [H1r]; · iexact H1r
    isplitl [Hv0]; · iexact Hv0
    iexact Hv1
  · iintro ⟨H0, H2, H1l, H1r, Hv0, Hv1⟩
    isplitl [H0]; · iexact H0
    isplitl [H2]; · iexact H2
    isplitl [H1l H1r]
    · iapply (pointsTo_share (PosShare.mem_left_op_right fullShare)).2
      isplitl [H1l] <;> iassumption
    isplitl [Hv0]; · iexact Hv0
    iexact Hv1

end Arrays

/-! ## The buffer contents at the region's exit -/

section Run

variable (ρ : Dev nD → PrngReg) (dat : (c : Dev nD) → Dat τ (Elt F) Unit ℕ (UR sig nD τ) ℕ cfg0 c)

/-- At the region's exit only the output array has changed: it holds what the write-backs of all the points leave. -/
def W2 (c : Dev nD) : Valuation τ sig (Elt F) :=
  Function.update (W1 m c) (Proc.devRef .tc main_v1) ((dat c).arrAt 5 cfg0.N)
/-- The same read at the TensorCore's references. -/
abbrev V2 : (c : Dev nD) → (b : Ref sig .tc) → Buf (Elt F) ((c : Thread nD τ).loc b) := fun c b => W2 m dat c b

theorem W2_v1 (c : Dev nD) : W2 m dat c (Proc.devRef .tc main_v1) = (dat c).arrAt 5 cfg0.N := by
  unfold W2; exact Function.update_self _ _ _
theorem W2_of_ne (c : Dev nD) (b : Ref sig .tc) (hb : b ≠ main_v1) :
    W2 m dat c (Proc.devRef .tc b) = W1 m c (Proc.devRef .tc b) := by
  unfold W2; exact Function.update_of_ne (StableHlo.devRef_ne_of_ne hb) _ _

/-- The host reshape writes its result row only: every other buffer is as launched. -/
theorem W1_of_ne (c : Dev nD) (b : Ref sig .tc) (hb : b ≠ main_v0) :
    W1 m c (Proc.devRef .tc b) = m ((c : Thread nD τ).loc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne hb))

variable (hA : ∀ c w, (dat c).A w = V1 m c (Pipeline.arrRef spec0 w))

include hA in
/-- An input window's array is never written: at the exit it holds what the region found, which is also what the
    exit valuation says of its buffer. -/
theorem arrAt_in_eq (c : Dev nD) (w : Fin cfg0.W) (hw : (cfg0.win w).isOut = false) (hne : Pipeline.arrRef spec0 w ≠ main_v1) :
    (dat c).arrAt w cfg0.N = V2 m dat c (Pipeline.arrRef spec0 w) :=
  ((dat c).arrAt_in w hw _).trans ((hA c w).trans (W2_of_ne m dat c _ hne).symm)

include hA in
/-- Every window's array at the exit is the exit valuation's contents of its buffer. -/
theorem hF2 (c : Dev nD) : ∀ w : Fin cfg0.W, (dat c).arrAt w cfg0.N = V2 m dat c (Pipeline.arrRef spec0 w) :=
  (fun
    | 0 => arrAt_in_eq m dat hA c 0 rfl (by decide)
    | 1 => arrAt_in_eq m dat hA c 1 rfl (by decide)
    | 2 => arrAt_in_eq m dat hA c 2 rfl (by decide)
    | 3 => arrAt_in_eq m dat hA c 3 rfl (by decide)
    | 4 => arrAt_in_eq m dat hA c 4 rfl (by decide)
    | 5 => (W2_v1 m dat c).symm
    | ⟨_ + 6, h⟩ => absurd h (Nat.not_lt.2 (Nat.le_add_left _ _)) : ∀ w : Fin 6, (dat c).arrAt w cfg0.N = V2 m dat c (Pipeline.arrRef spec0 w))

/-! ## The proof data family and the thread state -/

/-- The prefetched tables' admissible contents: the pipeline has no table. -/
abbrev adm : (p : Fin 1) → (pcfgs (F := F) p).Adm := fun p => (cfgs p).toPCfg_adm
/-- The one pipeline's proof data, as the family the several-regions launch takes. -/
def pdats : (p : Fin 1) → (c : Dev nD) → Dat τ (Elt F) Unit ℕ (UR sig nD τ) ℕ (Pipeline.pin (pcfgs (F := F)) adm p) c
  | ⟨0, _⟩ => fun c => dat c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through the host stretch: the core's generator register at some state and its
    `owes` at nothing, no pair recorded yet. -/
abbrev R (c : Dev nD) : sProp 𝕄 :=
  iprop((∃ r, prngReg c r) ∗ owes (c : Thread nD τ) (0 : CellTallies nD τ sig Unit) ∅)
/-- The host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The reshape allocates no buffer. -/
theorem hostOps0_fresh : (hostOps0 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the exit contents, the generator register
    at some state. -/
abbrev Tₙ (c : Dev nD) : sProp 𝕄 := iprop(StableHlo.held (c : Thread nD τ) (Pipeline.ucRefs τ sig) (W2 m dat c) ∗ ∃ r, prngReg c r)

/-! ## The region as a segment -/

variable (hq : ∀ c, (dat c).q = qK) (howed : ∀ c t, (dat c).owed t = 0)
  (hbody : ∀ c, BodyObligation (dat c) (defs₀ (F := F)) Variants.none () Set.univ)
  (hin : ∀ c, Pipeline.ΦA spec0 c ⊢ (dat c).Φ 0) (hout : ∀ c, (dat c).Φ (Fin.last cfg0.N) ⊢ Pipeline.ΦA spec0 c)

include hA hq in
/-- ENTRY, the arrays' part: every unscoped buffer at the entry contents is the pipeline's arrays at the proof
    data's entry contents (the adjacency's buffer cut in its two shares) and the one buffer no window reads. -/
theorem entry_arrays (c : Dev nD) :
    (StableHlo.held (c : Thread nD τ) (Pipeline.ucRefs τ sig) (W1 m c) : sProp 𝕄)
      ⊢ iprop((dat c).arrays ((dat c).arrAt · 0) ∗ Pipeline.unscopedRest (Ix := Unit) (Name := ℕ) (U := UR sig nD τ) (Lvl := ℕ) spec0 c (V1 m c)) := by
  have hub := Pipeline.unscopedBufs_split₀ cfgs (0 : Fin 1) winFacts₀0.arr_unscoped c (V1 m c) (Ix := Unit) (Name := ℕ) (U := UR sig nD τ) (Lvl := ℕ) (Val := Elt F)
  rw [Pipeline.unscopedBufs_held c (W1 m c)] at hub
  rw [hub]
  exact sep_mono (arrays_iff c (dat c) (hq c) (V1 m c) ((dat c).arrAt · 0) (fun w => hA c w)).1 .rfl

include hA hq in
/-- EXIT, the arrays' part: the arrays at what the pipeline leaves (the two halves of the adjacency at the same
    contents join) and the bypassed buffer make every unscoped buffer at the exit contents. -/
theorem exit_arrays (c : Dev nD) :
    iprop((dat c).arrays ((dat c).arrAt · cfg0.N) ∗ Pipeline.unscopedRest (Ix := Unit) (Name := ℕ) (U := UR sig nD τ) (Lvl := ℕ) spec0 c (V1 m c))
      ⊢ (StableHlo.held (c : Thread nD τ) (Pipeline.ucRefs τ sig) (W2 m dat c) : sProp 𝕄) := by
  have hub := Pipeline.unscopedBufs_split₀ cfgs (0 : Fin 1) winFacts₀0.arr_unscoped c (V2 m dat c) (Ix := Unit) (Name := ℕ) (U := UR sig nD τ) (Lvl := ℕ) (Val := Elt F)
  rw [Pipeline.unscopedBufs_held c (W2 m dat c)] at hub
  have hrest : (Pipeline.unscopedRest (Ix := Unit) (Name := ℕ) (U := UR sig nD τ) (Lvl := ℕ) spec0 c (V1 m c) : sProp 𝕄)
      = Pipeline.unscopedRest spec0 c (V2 m dat c) := by
    rw [unscopedRest0_eq, unscopedRest0_eq, show V2 m dat c main_arg3 = V1 m c main_arg3 from W2_of_ne m dat c main_arg3 (by decide)]
  rw [hub, hrest]
  exact sep_mono (arrays_iff c (dat c) (hq c) (V2 m dat c) ((dat c).arrAt · cfg0.N) (hF2 m dat hA c)).2 .rfl

include howed in
/-- The core's `owes` at nothing with no pair recorded is the proof data's at the first point. -/
theorem owes_entry (c : Dev nD) :
    (owes (c : Thread nD τ) (0 : CellTallies nD τ sig Unit) ∅ : sProp 𝕄) ⊢ (pdats dat 0 c).owesAt () 0 := by
  unfold Pipeline.Dat.owesAt Pipeline.owesWithin
  rw [show (pdats dat 0 c).owed 0 = 0 from howed c 0]
  iintro HO; iexists ∅; isplitr; · ipureintro; simp
  iexact HO

include howed in
/-- The proof data's `owes` at the last point is the core owing nothing. -/
theorem owes_exit (c : Dev nD) :
    ((pdats dat 0 c).owesAt () (Fin.last (Pipeline.pin (pcfgs (F := F)) adm 0).N) : sProp 𝕄)
      ⊢ ∃ W, owes (c : Thread nD τ) (0 : CellTallies nD τ sig Unit) W := by
  unfold Pipeline.Dat.owesAt Pipeline.owesWithin
  rw [show (pdats dat 0 c).owed (Fin.last (Pipeline.pin (pcfgs (F := F)) adm 0).N) = 0 from howed c _]
  iintro ⟨%W, -, HO⟩; iexists W; iexact HO

include hA hq howed hbody hin hout in
set_option backward.isDefEq.respectTransparency.types false in
/-- THE REGION over the thread state: entered from every unscoped buffer at the contents after the reshape, left
    at the exit contents. Its arrays are split out of the unscoped buffers (the adjacency's in two shares) and put
    back; the generator register goes into the invariant and comes out; nothing owed; no semaphore of its own. -/
def reg0 : Pipeline.RegionSeg (pcfgs (F := F)) adm (pdats dat) () defs₀ 𝒱₀ L lv 0 where
  win := winFacts₀0
  block_pos := block_pos0
  stage_whole := stage_whole0
  K := PEmpty
  osem k := k.elim
  ho := Pipeline.OwnSemFacts.none _
  hbody c := (hbody c).loose
  hwaits := Pipeline.hwaits_of_owed_zero _ _ _ _ L lv 0 howed
  pre c := iprop(StableHlo.held (c : Thread nD τ) (Pipeline.ucRefs τ sig) (W1 m c) ∗ R c)
  post c := iprop(Tₙ m dat c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit : (StableHlo.held (c : Thread nD τ) (Pipeline.ucRefs τ sig) (W1 m c) : sProp 𝕄)
        ⊢ iprop((pdats dat 0 c).arrays ((pdats dat 0 c).arrAt · 0)
            ∗ Pipeline.unscopedRest (Ix := Unit) (Name := ℕ) (U := UR sig nD τ) (Lvl := ℕ) spec0 c (V1 m c)) := entry_arrays m dat hA hq c
    have hO := owes_entry dat howed c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply hO; iexact HO
    isplitl [Hp]; · iexact Hp
    iexact Hrest
  hin c := by
    refine BIBase.Entails.trans ?_ (hin c)
    unfold Pipeline.ΦA
    iintro ⟨Hp, -, Hr⟩
    isplitl [Hr]; · iexact Hr
    iexact Hp
  hout c := by
    rw [Pipeline.ownSems0_none]
    refine BIBase.Entails.trans (hout c) ?_
    unfold Pipeline.ΦA
    iintro ⟨Hr, Hp⟩
    isplitl [Hp]; · iexact Hp
    isplitr; · iempintro
    iexact Hr
  hexit c := by
    have hjoin : iprop((pdats dat 0 c).arrays ((pdats dat 0 c).arrAt · (Pipeline.pin (pcfgs (F := F)) adm 0).N)
          ∗ Pipeline.unscopedRest (Ix := Unit) (Name := ℕ) (U := UR sig nD τ) (Lvl := ℕ) spec0 c (V1 m c))
        ⊢ (StableHlo.held (c : Thread nD τ) (Pipeline.ucRefs τ sig) (W2 m dat c) : sProp 𝕄) := exit_arrays m dat hA hq c
    have hO := owes_exit dat howed c
    iintro ⟨Ha, HO, HY, Hrest⟩
    imodintro
    isplitl [Ha Hrest HY]
    · isplitl [Ha Hrest]
      · iapply hjoin; isplitl [Ha] <;> iassumption
      iexact HY
    iapply hO; iexact HO

/-! ## @main as segments, and the launch -/

/-- @main's two segments: the host reshape from the launch contents, then the region. -/
abbrev segs : List (Pipeline.Seg (pcfgs (F := F)) adm (pdats dat) () defs₀ 𝒱₀ L lv) :=
  [ .host (hseg hostOps0 hostOps0_sub hostOps0_fresh (W0 m)),
    .region (reg0 m dat hA hq howed hbody hin hout) ]
/-- @main is the run of the segments. -/
theorem main_run (c : Dev nD) : main (F := F) c = Pipeline.Seg.run (segs m dat hA hq howed hbody hin hout) :=
  (main_chain c).trans (by chain_rfl)

end Run

end Launch

open Launch in
set_option backward.isDefEq.respectTransparency.types false in
/-- THE LAUNCH, for any proof data of the region whose arrays are the contents after the reshape, whose input shares
    are `qK`, which owes nothing and whose invariant is entered from and left to the class's: from any memory with
    zero counters every weakly fair execution of @main on the TensorCores terminates, nothing faulting, and every
    final state has the result array at what the proof data's write-backs leave and the four arguments as launched. -/
theorem run_main_of (ρ : Dev nD → PrngReg) (dat : (c : Dev nD) → Dat τ (Elt F) Unit ℕ (UR sig nD τ) ℕ cfg0 c)
    (hA : ∀ c w, (dat c).A w = V1 m c (Pipeline.arrRef spec0 w)) (hq : ∀ c, (dat c).q = qK) (howed : ∀ c t, (dat c).owed t = 0)
    (hbody : ∀ c, BodyObligation (dat c) (defs₀ (F := F)) Variants.none () Set.univ)
    (hin : ∀ c, Pipeline.ΦA spec0 c ⊢ (dat c).Φ 0) (hout : ∀ c, (dat c).Φ (Fin.last cfg0.N) ⊢ Pipeline.ΦA spec0 c) :
    θ_run defs (onTc (τ := τ) (main (F := F))) ⟨m, fun _ => 0, ρ⟩ (fun r => ∀ c : Dev nD,
      r.2.mem ((c.tc : Thread nD τ).loc main_v1) = (dat c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats dat) () cellOf_inj emb₁ defs₀ 𝒱₀ L lv m ρ main (segs m dat hA hq howed hbody hin hout)
    (fun c Q => by rw [main_run m dat hA hq howed hbody hin hout c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m dat)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexact HO)
    (QY := fun c s => ∀ b ∈ Pipeline.ucRefs τ sig, s.mem (((c : Thread nD τ)).1, b) = W2 m dat c b)
    (hfin := fun c s' => by
      iintro ⟨⟨Hh, -⟩, HSI⟩
      unfold StableHlo.held
      imodintro
      iapply (pointsTo_read_all (Pipeline.ucRefs τ sig) (fun b => (((c : Thread nD τ)).1, b)) (W2 m dat c) s')
      isplitl [Hh] <;> iassumption)
    (hQ := fun s h c =>
      ⟨(h c _ (mem_uc main_v1 (by decide))).trans (W2_v1 m dat c),
       (h c _ (mem_uc main_arg0 (by decide))).trans ((W2_of_ne m dat c main_arg0 (by decide)).trans (W1_of_ne m c main_arg0 (by decide))),
       (h c _ (mem_uc main_arg1 (by decide))).trans ((W2_of_ne m dat c main_arg1 (by decide)).trans (W1_of_ne m c main_arg1 (by decide))),
       (h c _ (mem_uc main_arg2 (by decide))).trans ((W2_of_ne m dat c main_arg2 (by decide)).trans (W1_of_ne m c main_arg2 (by decide))),
       (h c _ (mem_uc main_arg3 (by decide))).trans ((W2_of_ne m dat c main_arg3 (by decide)).trans (W1_of_ne m c main_arg3 (by decide)))⟩)

/-- info: 'Cert.KernelIdeal.Hand.run_main_of' depends on axioms: [propext, Classical.choice, Quot.sound] -/
#guard_msgs in #print axioms run_main_of

end Cert.KernelIdeal.Hand

end
-- ==== Proof.FramesKernel.lean ====
/-
  The kernel program's frames, at both instances, from its launch.

  The launch theorem says: from any memory with zero counters every weakly fair execution of the program ends, and
  in the final memory the result array holds what the eight write-backs of the output window leave while the four
  argument arrays hold their launch contents. Dropping the first conjunct gives the frame. The word-level program
  and its idealization have the same text, so each has its own instance of the same modules.
-/
import proofs.«107922_g2000603260507787_pallasbulk_1139_8_alg».proof.Defs
import proofs.«107922_g2000603260507787_pallasbulk_1139_8_alg».proof.Proof.Gen.Kernel
import proofs.«107922_g2000603260507787_pallasbulk_1139_8_alg».proof.Proof.Gen.KernelIdeal
import proofs.«107922_g2000603260507787_pallasbulk_1139_8_alg».proof.Proof.Gen.Pre_finite_inputs
import proofs.«107922_g2000603260507787_pallasbulk_1139_8_alg».proof.Proof.KB.Frame
import proofs.«107922_g2000603260507787_pallasbulk_1139_8_alg».proof.Proof.KB.Launch
import proofs.«107922_g2000603260507787_pallasbulk_1139_8_alg».proof.Proof.KI.Frame
import proofs.«107922_g2000603260507787_pallasbulk_1139_8_alg».proof.Proof.KI.Launch

noncomputable section

namespace Cert.Proof

open Idealize.ShloMosaic Idealize.SL.Sem

/-- The word-level kernel's launch at the proof data of its one region. -/
theorem run_kernel (m : (ℓ : Loc Cert.Kernel.nD Cert.Kernel.τ Cert.Kernel.sig) → Buf (Elt Bits) ℓ) (ρ : Dev Cert.Kernel.nD → PrngReg) :
    θ_run (Cert.Kernel.defs (F := Bits)) (onTc (τ := Cert.Kernel.τ) (Cert.Kernel.main (F := Bits))) ⟨m, fun _ => 0, ρ⟩ (fun r => ∀ c : Dev Cert.Kernel.nD,
      r.2.mem ((c.tc : Thread Cert.Kernel.nD Cert.Kernel.τ).loc Cert.Kernel.main_v1) = (Cert.Kernel.Hand.dat (F := Bits) (Cert.Kernel.Hand.V1 m) Cert.Kernel.Hand.qK c).arrAt 5 Cert.Kernel.cfg0.N
      ∧ r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)) :=
  Cert.Kernel.Hand.run_main_of (F := Bits) m ρ
    (fun c => Cert.Kernel.Hand.dat (Cert.Kernel.Hand.V1 m) Cert.Kernel.Hand.qK c)
    (fun c w => Cert.Kernel.Hand.A_eq (Cert.Kernel.Hand.V1 m) Cert.Kernel.Hand.qK c w) (fun _ => rfl) (fun _ _ => rfl)
    (fun c => Cert.Kernel.Hand.body_obligation (Cert.Kernel.Hand.V1 m) Cert.Kernel.Hand.qK c)
    (fun c => Cert.Kernel.Hand.hin (Cert.Kernel.Hand.V1 m) Cert.Kernel.Hand.qK c)
    (fun c => Cert.Kernel.Hand.hout (Cert.Kernel.Hand.V1 m) Cert.Kernel.Hand.qK c)

/-- The word-level kernel runs to the end and leaves its four arguments as launched. -/
theorem frame_kernel : Cert.frame_Kernel (hKernel := Cert.Kernel.Gen.facts) (hPre_finite_inputs := Cert.Pre_finite_inputs.Gen.facts) :=
  fun m ρ _ => (θ_run Cert.Kernel.defs _ _).mono (fun _ h c => (h c).2) (run_kernel m ρ)

/-- The idealized kernel's launch at the proof data of its one region: the result array ends at what the eight
    write-backs leave, the arguments as launched. -/
theorem run_kernelIdeal (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v1) = (Cert.KernelIdeal.Hand.dat (F := Ideal) (Cert.KernelIdeal.Hand.V1 m) Cert.KernelIdeal.Hand.qK c).arrAt 5 Cert.KernelIdeal.cfg0.N
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)) :=
  Cert.KernelIdeal.Hand.run_main_of (F := Ideal) m ρ
    (fun c => Cert.KernelIdeal.Hand.dat (Cert.KernelIdeal.Hand.V1 m) Cert.KernelIdeal.Hand.qK c)
    (fun c w => Cert.KernelIdeal.Hand.A_eq (Cert.KernelIdeal.Hand.V1 m) Cert.KernelIdeal.Hand.qK c w) (fun _ => rfl) (fun _ _ => rfl)
    (fun c => Cert.KernelIdeal.Hand.body_obligation (Cert.KernelIdeal.Hand.V1 m) Cert.KernelIdeal.Hand.qK c)
    (fun c => Cert.KernelIdeal.Hand.hin (Cert.KernelIdeal.Hand.V1 m) Cert.KernelIdeal.Hand.qK c)
    (fun c => Cert.KernelIdeal.Hand.hout (Cert.KernelIdeal.Hand.V1 m) Cert.KernelIdeal.Hand.qK c)

/-- The idealized kernel runs to the end and leaves its four arguments as launched. -/
theorem frame_kernelIdeal : Cert.frame_KernelIdeal (hKernelIdeal := Cert.KernelIdeal.Gen.facts) (hPre_finite_inputs := Cert.Pre_finite_inputs.Gen.facts) :=
  fun m ρ _ => (θ_run Cert.KernelIdeal.defs _ _).mono (fun _ h c => (h c).2) (run_kernelIdeal m ρ)

end Cert.Proof

end
-- ==== Proof.RI.Entry.lean ====
/-
  What each of the two kernel regions finds in the device's arrays when it is entered. The first region (the
  support matrix) is entered after the host operations that write the padded copies of the four arguments; the
  second (the aggregation) is entered straight after the first, so it finds the same contents except that the
  support array holds what the first region wrote back, `s9`.
-/
import proofs.«107922_g2000603260507787_pallasbulk_1139_8_alg».proof.Proof.Gen.ReferenceIdeal.Launch
import proofs.«107922_g2000603260507787_pallasbulk_1139_8_alg».proof.Proof.Gen.ReferenceIdeal.Skeleton
import proofs.«107922_g2000603260507787_pallasbulk_1139_8_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

variable (m : (ℓ : Loc nD τ sig) → Buf (Elt F) ℓ)

/-- Core `c`'s buffers at launch. -/
abbrev W0 : Dev nD → Valuation τ sig (Elt F) := fun c b => m ((c : Dev nD), b)
/-- After the host operations before the first region: that region's entry contents, as a valuation. -/
abbrev W1 : Dev nD → Valuation τ sig (Elt F) := fun c => StableHlo.after hostOps0 (W0 m c)
/-- The same read at the TensorCore's references: what the first region's proof data take as the arrays. -/
abbrev V1 : (c : Dev nD) → (b : Ref sig .tc) → Buf (Elt F) ((c : Thread nD τ).loc b) := fun c b => W1 m c b
/-- At the first region's exit, which is the second region's entry: as before, but the support array `main_v9`
    at the contents `s9` the first region's write-backs left. -/
abbrev W2 (s9 : (c : Dev nD) → Buf (Elt F) ((c : Thread nD τ).loc main_v9)) : Dev nD → Valuation τ sig (Elt F) :=
  fun c => Function.update (W1 m c) (Proc.devRef .tc main_v9) (s9 c)
/-- The same read at the TensorCore's references: what the second region's proof data take as the arrays. -/
abbrev V2 (s9 : (c : Dev nD) → Buf (Elt F) ((c : Thread nD τ).loc main_v9)) :
    (c : Dev nD) → (b : Ref sig .tc) → Buf (Elt F) ((c : Thread nD τ).loc b) := fun c b => W2 m s9 c b

end Cert.ReferenceIdeal.Hand

end
-- ==== Proof.RI.Frame0.lean ====
/-
  The first kernel region of the reference program: the support matrix, sixteen row blocks of 256 rows, each
  block the product of that row block of the padded node features with the whole padded weight matrix, added to
  a zero accumulator. Stated at a parameter `V`, the contents of the device's arrays when the region is entered:
  each window's block at a grid point, what the body leaves in the output window's buffer (one store that covers
  it), the body's triple, the region's proof data, and the obligation the body meets at every grid point.
-/
import proofs.«107922_g2000603260507787_pallasbulk_1139_8_alg».proof.Proof.RI.Entry
import proofs.«107922_g2000603260507787_pallasbulk_1139_8_alg».proof.Proof.Gen.ReferenceIdeal.Launch
import proofs.«107922_g2000603260507787_pallasbulk_1139_8_alg».proof.Proof.Gen.ReferenceIdeal.Skeleton
import proofs.«107922_g2000603260507787_pallasbulk_1139_8_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

-- the device's array contents when the region is entered: everything below is stated at it
variable (V : (c : Dev nD) → (b : Ref sig .tc) → Buf (Elt F) ((c : Thread nD τ).loc b))

/-! ## The windows' blocks -/

/-- Window `w`'s block at grid point `t`, read off its array as the region finds it: for window 0 the
    `t`-th block of 256 rows of the padded features, for window 1 the whole padded weights, for window 2 the
    `t`-th block of 256 rows of the support array. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature window's current buffer holds its row block at every point, for any proof data whose array is
    `V`'s and whose body leaves the block in place: the block index moves at every point, so it is fetched at
    every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight window's buffer holds the whole weight matrix at every point: it is fetched at the first point
    only, its block index never moves, and the body leaves it in place, so what the first fetch put there is
    still there at every later point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The one rectangle the body loads and stores through: the whole 256 by 256 buffer. -/
abbrev r0_0 : Rect S256x256 := Rect.unit (s := S256x256) ![0, 0] S256x256.size inb_S256x256_S256x256_0_0

/-! ## What the body leaves in the output window's buffer -/

/-- The output window's buffer after the body, from the two input blocks: its one store, whose payload is the
    product of the feature block `x0` and the weights `x1` on a zero accumulator. -/
def out0_2 (x0 x1 : Vec F S256x256 .f32) : Vec F S256x256 .f32 :=
  View.canon [⟨r0_0, k0_pay1 (View.ld x0 r0_0) (View.ld x1 r0_0)⟩]

/-- The one store's rectangle is the whole buffer, so it covers it. -/
theorem cover0_2 (p0 : Vec F S256x256 .f32) (y : S256x256.Idx) :
    ∃ pc ∈ ([⟨r0_0, p0⟩] : List (View.Piece (Elt F) S256x256 .f32)), y ∈ pc.1.set :=
  View.cover_of_tiled [⟨r0_0, p0⟩] S256x256.size (by rfl) y

/-! ## The body's triple -/

set_option maxHeartbeats 1000000 in
/-- The body on whole buffers, the two inputs' at read contents `x0`, `x1` and the output's at anything,
    runs to the continuation holding the inputs' as they were and the output's at `out0_2 x0 x1`: it loads the
    two inputs, loads the output buffer (a value it never uses), and stores the product over the whole output
    buffer. -/
theorem sound_kernel0 (c : Dev nD) (E : Set ℕ) (i : grid0.Coords)
    (arg1 : Memref sig .tc .vmem S256x256 .f32) (harg1 : arg1.IsWhole) (arg2 : Memref sig .tc .vmem S256x256 .f32) (harg2 : arg2.IsWhole)
    (arg3 : Memref sig .tc .vmem S256x256 .f32) (harg3 : arg3.IsWhole)
    (x0 : Vec F S256x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__support_kernel i arg1 harg1 arg2 harg2 arg3 harg3) K := by
  simp only [cc0__support_kernel_eq_skeleton]; unfold cc0__support_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The region's proof data -/

/-- The proof data of the region on core `c`: the arrays as the region finds them; after the body at point
    `t` each input's buffer still at its block and the output's at `out0_2` of the two input blocks; the
    invariant the one of a body that keeps nothing between points (the scoped rest and the generator register,
    untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation the launch theorems take, at every point. -/
theorem body_obligation0 (c : Dev nD) : BodyObligation (dat0 (F := F) V c) (defs₀ (F := F)) Variants.none () Set.univ := fun t => by
  rw [bigSep_W0, bigSep_W0]
  exact sound_body0 V c t

end Cert.ReferenceIdeal.Hand

end
-- ==== Proof.RI.Base1.lean ====
/-
  The aggregation region (the second kernel, on the grid of 16 row blocks by 8 column blocks, point t = 8·i + k),
  at an arbitrary assignment `V` of contents to the device's arrays on entry: what the later modules of the
  region share. The blocks of the four windows read off `V`; the fact that an input window's staging buffer holds
  its block at every point, fetched there or not; the two conditions of the body (k = 0: reset the accumulator;
  k = 7: add the bias row and store the output block) in closed form over the point's number; where the output
  window is idle (exactly where k ≠ 7, and there it is not written back); names for the staging buffers the body
  is called with and for the accumulator scratch; and the region invariant with the scratch split off.
-/
import proofs.«107922_g2000603260507787_pallasbulk_1139_8_alg».proof.Proof.RI.Entry

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The adjacency window's staging buffer holds block (i, k) of the adjacency at every point, for any proof data
    whose array is `V`'s and whose body leaves the block in place: the window is an input, uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the support window: block (k, 0) of the support array at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The same for the bias row, fetched at the first point only: its one block index never moves, so the buffer
    holds the row at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions -/

/-- The first condition of the body, from the grid coordinates: the column-block coordinate k is 0. -/
abbrev cond1_0 (i : grid1.Coords) : Prop := (Scalar.cmpi .ne (Scalar.extui (Scalar.cmpi .eq (BitVec.ofNat 32 (i 1).val) 0#32)) 0#32) = 1#1
/-- It holds at the points t with t mod 8 = 0 (t = 8·i + k): decided over the 128 points. -/
theorem hcond1_0 : ∀ t : Fin cfg1.N, cond1_0 (grid1.coords t) ↔ t.val % 8 = 0 :=
  (by decide +kernel : ∀ t : Fin grid1.N, cond1_0 (grid1.coords t) ↔ t.val % 8 = 0)

/-- The second condition of the body: the column-block coordinate k is 7. -/
abbrev cond1_1 (i : grid1.Coords) : Prop := k1_cond2 i = 1#1
/-- It holds at the points t with t mod 8 = 7: decided over the 128 points. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

/-- The three inputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Where k = 0 the output window is idle: the body stores nothing into it there, -/
theorem idleAt1_3_A : ∀ t : Fin cfg1.N, cond1_0 (grid1.coords t) → ¬cond1_1 (grid1.coords t) → cfg1.idle 3 (grid1.coords t) = true := by decide +kernel
/-- and the block is not written back there. -/
theorem noFlush1_3_A : ∀ t : Fin cfg1.N, cond1_0 (grid1.coords t) → ¬cond1_1 (grid1.coords t) → (cfg1.win 3).flush t = false := by decide +kernel
/-- Where 0 < k < 7 likewise: idle, -/
theorem idleAt1_3_B : ∀ t : Fin cfg1.N, ¬cond1_0 (grid1.coords t) → ¬cond1_1 (grid1.coords t) → cfg1.idle 3 (grid1.coords t) = true := by decide +kernel
/-- and not written back. -/
theorem noFlush1_3_B : ∀ t : Fin cfg1.N, ¬cond1_0 (grid1.coords t) → ¬cond1_1 (grid1.coords t) → (cfg1.win 3).flush t = false := by decide +kernel
/-- Where k = 7 the output window is live: the body stores the whole block. -/
theorem liveAt1_3_C : ∀ t : Fin cfg1.N, ¬cond1_0 (grid1.coords t) → cond1_1 (grid1.coords t) → cfg1.idle 3 (grid1.coords t) = false := by decide +kernel

/-! ## The memrefs the body is called with -/

/-- One staging buffer of the output window, through which its contents are stated (which one does not matter:
    pieces that cover the block read back the same through either). -/
abbrev VO1_3 : View sig .tc .vmem S256x256 .f32 := (Memref.whole cc1_stg3_0 : Memref sig .tc .vmem S256x256 .f32).view
/-- Each window's current staging memref at point `t`, spelled as the pipeline passes it to the body, and its wholeness. -/
abbrev ms1_0 (t : Fin cfg1.N) : Memref sig .tc .vmem S256x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x256 .f32 := win1_3.stage (cfg1.slots t 3)
abbrev hs1_3 (t : Fin cfg1.N) : (ms1_3 t).IsWhole := hstage1_3 ((cfg1.slots t 3).cast nbuf1_3)
/-- The accumulator: a whole scoped buffer of the kernel's own, passed beside the windows and carried from point to point. -/
abbrev scM1_0 : Memref sig .tc .vmem S256x256 .f32 := Memref.whole cc1_scratch0
/-- The accumulator as a view: what it holds is stated through it. -/
abbrev VS1_0 : View sig .tc .vmem S256x256 .f32 := scM1_0.view

/-! ## The region invariant, the accumulator split off -/

/-- The core's scoped buffers that this region neither stages through nor accumulates in (the first kernel's five
    staging buffers), each at some contents, beside a resource `S` for the accumulator. -/
abbrev others1 (c : Dev nD) (S : sProp 𝕄) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ S)

/-- The invariant the launch hands the region: those five buffers, the accumulator owned at some contents, and the
    generator register at some state. -/
theorem PhiA1_eq (c : Dev nD) :
    (Pipeline.ΦA spec1 c : sProp 𝕄)
      = iprop(others1 c (iprop(∃ d, owns (c : Thread nD τ) scM1_0 fullShare d)) ∗ (∃ r, prngReg c r)) := by
  unfold Pipeline.ΦA; rw [scopedRest1_eq]; simp only [scM1_0, owns_whole]; try rfl

end Cert.ReferenceIdeal.Hand

end
-- ==== Proof.RI.Run1A.lean ====
/-
  The aggregation kernel's body run as a whole where k = 0 (the first condition holds, the second fails).
  There the body stores zeros over the whole accumulator, reads them back with the adjacency block and the support
  block, and stores the sum of the zeros and the product of the two blocks over the whole accumulator; it stores
  nothing into the output block. The run is a pair of piece lists (the output's: empty; the accumulator's: the two
  whole stores, last first) with the proof that from the three inputs at given contents, the output buffer at any
  contents and the accumulator at any contents, the body reaches the continuation with the inputs and the output
  as they were and the accumulator with those pieces written. The pieces are found by symbolic execution of the
  body's memory operations.
-/
import proofs.«107922_g2000603260507787_pallasbulk_1139_8_alg».proof.Proof.RI.Base1

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body where k = 0: no piece for the output block (handed back untouched at `xi3`), two whole-buffer pieces
    for the accumulator, whose earlier contents are not read into anything kept. -/
noncomputable def kernelRun1_A (c : Dev nD) (i : grid1.Coords) (arg2 : Memref sig .tc .vmem S256x512 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S256x256 .f32) (harg6 : arg6.IsWhole) (hc0 : cond1_0 i) (hc1 : ¬cond1_1 i)
    (x0 : Vec F S256x512 .f32) (x1 : Vec F S512x256 .f32) (x2 : Vec F S1x256 .f32) :
    Σ' (L3 : List (View.Piece (Elt F) S256x256 .f32)), { LS0 : List (View.Piece (Elt F) S256x256 .f32) //
      ∀ (xi3 : Vec F S256x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__aggregate_kernel i arg2 harg2 arg3 harg3 arg4 harg4 arg5 harg5 arg6 harg6) K } := by
  refine ⟨[], ?_, fun xi3 E K => ?run⟩
  case run =>
    simp only [cc1__aggregate_kernel_eq_skeleton]; unfold cc1__aggregate_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

/-- The two whole-buffer pieces stored into the accumulator where k = 0 cover it. -/
theorem scover1_A (c : Dev nD) (i : grid1.Coords) (arg2 : Memref sig .tc .vmem S256x512 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S256x256 .f32) (harg6 : arg6.IsWhole) (hc0 : cond1_0 i) (hc1 : ¬cond1_1 i)
    (x0 : Vec F S256x512 .f32) (x1 : Vec F S512x256 .f32) (x2 : Vec F S1x256 .f32) (y : S256x256.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S256x256.size (by sl_kernel_rfl) y

/-- Where k = 0 nothing is stored into the output block: no pieces, read back over arbitrary contents. A placeholder
    nothing consults: at these points the window is neither written back nor read at the next point. -/
def out1_A_3 (c : Dev nD) (i : grid1.Coords) (arg2 : Memref sig .tc .vmem S256x512 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S256x256 .f32) (harg6 : arg6.IsWhole) (hc0 : cond1_0 i) (hc1 : ¬cond1_1 i)
    (x0 : Vec F S256x512 .f32) (x1 : Vec F S512x256 .f32) (x2 : Vec F S1x256 .f32) : Vec F S256x256 .f32 :=
  VO1_3.read (Elt F) (VO1_3.writes (Elt F) VO1_3.junk (kernelRun1_A c i arg2 harg2 arg3 harg3 arg4 harg4 arg5 harg5 arg6 harg6 hc0 hc1 x0 x1 x2).1)

/-- What the body leaves in the accumulator where k = 0: its pieces read back (they cover it, so over anything). -/
def sout1_A (c : Dev nD) (i : grid1.Coords) (arg2 : Memref sig .tc .vmem S256x512 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S256x256 .f32) (harg6 : arg6.IsWhole) (hc0 : cond1_0 i) (hc1 : ¬cond1_1 i)
    (x0 : Vec F S256x512 .f32) (x1 : Vec F S512x256 .f32) (x2 : Vec F S1x256 .f32) : Vec F S256x256 .f32 :=
  VS1_0.read (Elt F) (VS1_0.writes (Elt F) VS1_0.junk (kernelRun1_A c i arg2 harg2 arg3 harg3 arg4 harg4 arg5 harg5 arg6 harg6 hc0 hc1 x0 x1 x2).2.1)

end Cert.ReferenceIdeal.Hand

end
-- ==== Proof.RI.Run1B.lean ====
/-
  The aggregation kernel's body run as a whole where 0 < k < 7 (both conditions fail). There the body reads the
  accumulator, the adjacency block and the support block and stores the accumulator plus the product of the two
  blocks over the whole accumulator; it stores nothing into the output block. Stated as for k = 0, except that the
  accumulator is taken at the given contents `xs0` the point before left, since the sum reads them.
-/
import proofs.«107922_g2000603260507787_pallasbulk_1139_8_alg».proof.Proof.RI.Run1A

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body where 0 < k < 7: no piece for the output block (handed back untouched at `xi3`), one whole-buffer
    piece for the accumulator, computed from its contents `xs0` before the point. -/
noncomputable def kernelRun1_B (c : Dev nD) (i : grid1.Coords) (arg2 : Memref sig .tc .vmem S256x512 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S256x256 .f32) (harg6 : arg6.IsWhole) (hc0 : ¬cond1_0 i) (hc1 : ¬cond1_1 i)
    (x0 : Vec F S256x512 .f32) (x1 : Vec F S512x256 .f32) (x2 : Vec F S1x256 .f32) (xs0 : Vec F S256x256 .f32) :
    Σ' (L3 : List (View.Piece (Elt F) S256x256 .f32)), { LS0 : List (View.Piece (Elt F) S256x256 .f32) //
      ∀ (xi3 : Vec F S256x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__aggregate_kernel i arg2 harg2 arg3 harg3 arg4 harg4 arg5 harg5 arg6 harg6) K } := by
  refine ⟨[], ?_, fun xi3 E K => ?run⟩
  case run =>
    simp only [cc1__aggregate_kernel_eq_skeleton]; unfold cc1__aggregate_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

/-- The whole-buffer piece stored into the accumulator where 0 < k < 7 covers it. -/
theorem scover1_B (c : Dev nD) (i : grid1.Coords) (arg2 : Memref sig .tc .vmem S256x512 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S256x256 .f32) (harg6 : arg6.IsWhole) (hc0 : ¬cond1_0 i) (hc1 : ¬cond1_1 i)
    (x0 : Vec F S256x512 .f32) (x1 : Vec F S512x256 .f32) (x2 : Vec F S1x256 .f32) (xs0 : Vec F S256x256 .f32) (y : S256x256.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S256x256.size (by sl_kernel_rfl) y

/-- Where 0 < k < 7 nothing is stored into the output block: no pieces, read back over arbitrary contents. A
    placeholder nothing consults: at these points the window is neither written back nor read at the next point. -/
def out1_B_3 (c : Dev nD) (i : grid1.Coords) (arg2 : Memref sig .tc .vmem S256x512 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S256x256 .f32) (harg6 : arg6.IsWhole) (hc0 : ¬cond1_0 i) (hc1 : ¬cond1_1 i)
    (x0 : Vec F S256x512 .f32) (x1 : Vec F S512x256 .f32) (x2 : Vec F S1x256 .f32) (xs0 : Vec F S256x256 .f32) : Vec F S256x256 .f32 :=
  VO1_3.read (Elt F) (VO1_3.writes (Elt F) VO1_3.junk (kernelRun1_B c i arg2 harg2 arg3 harg3 arg4 harg4 arg5 harg5 arg6 harg6 hc0 hc1 x0 x1 x2 xs0).1)

/-- What the body leaves in the accumulator where 0 < k < 7: its piece read back. -/
def sout1_B (c : Dev nD) (i : grid1.Coords) (arg2 : Memref sig .tc .vmem S256x512 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S256x256 .f32) (harg6 : arg6.IsWhole) (hc0 : ¬cond1_0 i) (hc1 : ¬cond1_1 i)
    (x0 : Vec F S256x512 .f32) (x1 : Vec F S512x256 .f32) (x2 : Vec F S1x256 .f32) (xs0 : Vec F S256x256 .f32) : Vec F S256x256 .f32 :=
  VS1_0.read (Elt F) (VS1_0.writes (Elt F) VS1_0.junk (kernelRun1_B c i arg2 harg2 arg3 harg3 arg4 harg4 arg5 harg5 arg6 harg6 hc0 hc1 x0 x1 x2 xs0).2.1)

end Cert.ReferenceIdeal.Hand

end
-- ==== Proof.RI.Run1C.lean ====
/-
  The aggregation kernel's body run as a whole where k = 7 (the first condition fails, the second holds). There the
  body updates the accumulator as at the middle points, then reads it back with the bias row and stores their sum
  (the row broadcast down the 256 rows) over the whole output block. The output buffer is taken at any contents and
  handed back with one whole-buffer piece written; the accumulator is taken at the contents `xs0` the point before
  left and handed back with its one piece written.
-/
import proofs.«107922_g2000603260507787_pallasbulk_1139_8_alg».proof.Proof.RI.Run1B

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body where k = 7: one whole-buffer piece for the output block, one for the accumulator. -/
noncomputable def kernelRun1_C (c : Dev nD) (i : grid1.Coords) (arg2 : Memref sig .tc .vmem S256x512 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S256x256 .f32) (harg6 : arg6.IsWhole) (hc0 : ¬cond1_0 i) (hc1 : cond1_1 i)
    (x0 : Vec F S256x512 .f32) (x1 : Vec F S512x256 .f32) (x2 : Vec F S1x256 .f32) (xs0 : Vec F S256x256 .f32) :
    Σ' (L3 : List (View.Piece (Elt F) S256x256 .f32)), { LS0 : List (View.Piece (Elt F) S256x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__aggregate_kernel i arg2 harg2 arg3 harg3 arg4 harg4 arg5 harg5 arg6 harg6) K } := by
  refine ⟨?_, ?_, fun E K => ?run⟩
  case run =>
    simp only [cc1__aggregate_kernel_eq_skeleton]; unfold cc1__aggregate_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

/-- The whole-buffer piece stored into the output block where k = 7 covers it. -/
theorem cover1_C_3 (c : Dev nD) (i : grid1.Coords) (arg2 : Memref sig .tc .vmem S256x512 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S256x256 .f32) (harg6 : arg6.IsWhole) (hc0 : ¬cond1_0 i) (hc1 : cond1_1 i)
    (x0 : Vec F S256x512 .f32) (x1 : Vec F S512x256 .f32) (x2 : Vec F S1x256 .f32) (xs0 : Vec F S256x256 .f32) (y : S256x256.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S256x256.size (by sl_kernel_rfl) y

/-- What the body leaves in the output block's staging buffer where k = 7: its piece read back. -/
def out1_C_3 (c : Dev nD) (i : grid1.Coords) (arg2 : Memref sig .tc .vmem S256x512 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S256x256 .f32) (harg6 : arg6.IsWhole) (hc0 : ¬cond1_0 i) (hc1 : cond1_1 i)
    (x0 : Vec F S256x512 .f32) (x1 : Vec F S512x256 .f32) (x2 : Vec F S1x256 .f32) (xs0 : Vec F S256x256 .f32) : Vec F S256x256 .f32 :=
  VO1_3.read (Elt F) (VO1_3.writes (Elt F) VO1_3.junk (kernelRun1_C c i arg2 harg2 arg3 harg3 arg4 harg4 arg5 harg5 arg6 harg6 hc0 hc1 x0 x1 x2 xs0).1)

/-- The whole-buffer piece stored into the accumulator where k = 7 covers it. -/
theorem scover1_C (c : Dev nD) (i : grid1.Coords) (arg2 : Memref sig .tc .vmem S256x512 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S256x256 .f32) (harg6 : arg6.IsWhole) (hc0 : ¬cond1_0 i) (hc1 : cond1_1 i)
    (x0 : Vec F S256x512 .f32) (x1 : Vec F S512x256 .f32) (x2 : Vec F S1x256 .f32) (xs0 : Vec F S256x256 .f32) (y : S256x256.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S256x256.size (by sl_kernel_rfl) y

/-- What the body leaves in the accumulator where k = 7: its piece read back. -/
def sout1_C (c : Dev nD) (i : grid1.Coords) (arg2 : Memref sig .tc .vmem S256x512 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S256x256 .f32) (harg6 : arg6.IsWhole) (hc0 : ¬cond1_0 i) (hc1 : cond1_1 i)
    (x0 : Vec F S256x512 .f32) (x1 : Vec F S512x256 .f32) (x2 : Vec F S1x256 .f32) (xs0 : Vec F S256x256 .f32) : Vec F S256x256 .f32 :=
  VS1_0.read (Elt F) (VS1_0.writes (Elt F) VS1_0.junk (kernelRun1_C c i arg2 harg2 arg3 harg3 arg4 harg4 arg5 harg5 arg6 harg6 hc0 hc1 x0 x1 x2 xs0).2.1)

end Cert.ReferenceIdeal.Hand

end
-- ==== Proof.RI.Frame1.lean ====
/-
  The aggregation region's proof data and body obligation, at an arbitrary assignment `V` of contents to the
  device's arrays on entry. What the output block's staging buffer and the accumulator hold after each of the 128
  points is defined by recursion on the point's number: at a point with k = 0 the run for k = 0 on the point's
  adjacency and support blocks; at a later point of the row the run for 0 < k < 7 or for k = 7 on the point's
  blocks and on what the point before left in the accumulator. The region invariant names the accumulator's
  contents after every point (before the first point it is the launch's: the accumulator at anything). The proof
  data put the three inputs' buffers at their blocks and the output's at the recursion's first component; the body
  obligation follows by cases on k from the three runs, the output buffer handed back untouched where k ≠ 7.
-/
import proofs.«107922_g2000603260507787_pallasbulk_1139_8_alg».proof.Proof.RI.Run1C

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the output buffer and the accumulator hold after each point -/

/-- After the body at the point numbered `n`: the output window's staging buffer and the accumulator. The case is
    the one the closed forms of the two conditions select at `n`; the accumulator the later cases read is what this
    very function leaves at `n - 1`. No point has both k = 0 and k = 7. -/
def outsAt1 (c : Dev nD) : (n : ℕ) → n < cfg1.N → Vec F S256x256 .f32 × Vec F S256x256 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 8 = 0 then
      if h1 : (n + 1) % 8 = 7 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 8 = 7 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- `outsAt1` at a point with k = 0: the contents the run for k = 0 leaves. -/
theorem outsAt1_A (c : Dev nD) (t : Fin cfg1.N) (h0 : t.val % 8 = 0) (h1 : ¬t.val % 8 = 7) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- `outsAt1` at a point with 0 < k < 7: the contents that run leaves, over the accumulator of the point before. -/
theorem outsAt1_B (c : Dev nD) (t : Fin cfg1.N) (h0 : ¬t.val % 8 = 0) (h1 : ¬t.val % 8 = 7) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point with k = 7: the contents that run leaves, over the accumulator of the point before. -/
theorem outsAt1_C (c : Dev nD) (t : Fin cfg1.N) (h0 : ¬t.val % 8 = 0) (h1 : t.val % 8 = 7) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before the point numbered `n`: at the first point what the launch hands over (the accumulator at anything);
    afterwards the same with the accumulator at what the point before left in it. -/
def PhiS1 (c : Dev nD) : (n : ℕ) → n ≤ cfg1.N → sProp 𝕄
  | 0, _ => Pipeline.ΦA spec1 c
  | n + 1, hn => iprop(others1 c (owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the accumulator at that point's contents. -/
theorem PhiS1_succ (c : Dev nD) (n : ℕ) (hn : n < cfg1.N) :
    PhiS1 V c (n + 1) hn = iprop(others1 c (owns (c : Thread nD τ) scM1_0 fullShare ((outsAt1 V c n hn).2)) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(others1 c (owns (c : Thread nD τ) scM1_0 fullShare ((outsAt1 V c (n - 1) (by omega)).2)) ∗ (∃ r, prngReg c r)) := by
  cases n with
  | zero => exact absurd rfl hz
  | succ n => rfl

/-! ## The proof data -/

/-- The region's proof data on core `c`: the arrays as the region finds them (`V`); after the body at point `t` each
    input's buffer at its block and the output's at `outsAt1`'s first component; the invariant `PhiS1`; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at the point's number. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' buffers hold their blocks; the closed forms of the two conditions say which
    of the three runs applies; the invariant hands the body the accumulator at what the point before left (at
    anything at the very first point, and the run for k = 0 needs no more at any point) and takes it back at this
    point's contents, the run's pieces covering it; where k ≠ 7 the output buffer comes back as it was handed
    over, where k = 7 at the run's covering piece; nothing is owed throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 8 = 0
  · by_cases h1 : t.val % 8 = 7
    · exfalso; omega
    · rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A; (try dsimp only)
      by_cases hz : t.val = 0
      · rw [PhiS1_castSucc V c t, PhiS1_zero V c _ _ hz, PhiA1_eq]
        unfold others1
        iintro ⟨⟨⟨HA0, HA1, HA2, HA3, HA4, HS0⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HA0 HA1 HA2 HA3 HA4 HS0 Hg]
        · isplitl [HA0 HA1 HA2 HA3 HA4 HS0]
          · isplitl [HA0]; · iexact HA0
            isplitl [HA1]; · iexact HA1
            isplitl [HA2]; · iexact HA2
            isplitl [HA3]; · iexact HA3
            isplitl [HA4]; · iexact HA4
            unfold owns; iexists _; isplitr
            swap; · iexact HS0
            ipureintro; exact View.read_writes_of_cover _ _ _ _ _ (scover1_A c _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        unfold others1
        iintro ⟨⟨⟨HA0, HA1, HA2, HA3, HA4, HS0⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HA0 HA1 HA2 HA3 HA4 HS0 Hg]
        · isplitl [HA0 HA1 HA2 HA3 HA4 HS0]
          · isplitl [HA0]; · iexact HA0
            isplitl [HA1]; · iexact HA1
            isplitl [HA2]; · iexact HA2
            isplitl [HA3]; · iexact HA3
            isplitl [HA4]; · iexact HA4
            unfold owns; iexists _; isplitr
            swap; · iexact HS0
            ipureintro; exact View.read_writes_of_cover _ _ _ _ _ (scover1_A c _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · by_cases h1 : t.val % 8 = 7
    · rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C; (try dsimp only)
      have hz : t.val ≠ 0 := by omega
      rw [PhiS1_castSucc V c t, PhiS1_pos V c _ _ hz]
      unfold others1
      iintro ⟨⟨⟨HA0, HA1, HA2, HA3, HA4, HS0⟩, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HA0 HA1 HA2 HA3 HA4 HS0 Hg]
      · isplitl [HA0 HA1 HA2 HA3 HA4 HS0]
        · isplitl [HA0]; · iexact HA0
          isplitl [HA1]; · iexact HA1
          isplitl [HA2]; · iexact HA2
          isplitl [HA3]; · iexact HA3
          isplitl [HA4]; · iexact HA4
          unfold owns; iexists _; isplitr
          swap; · iexact HS0
          ipureintro; exact View.read_writes_of_cover _ _ _ _ _ (scover1_C c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _)
    · rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B; (try dsimp only)
      have hz : t.val ≠ 0 := by omega
      rw [PhiS1_castSucc V c t, PhiS1_pos V c _ _ hz]
      unfold others1
      iintro ⟨⟨⟨HA0, HA1, HA2, HA3, HA4, HS0⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HA0 HA1 HA2 HA3 HA4 HS0 Hg]
      · isplitl [HA0 HA1 HA2 HA3 HA4 HS0]
        · isplitl [HA0]; · iexact HA0
          isplitl [HA1]; · iexact HA1
          isplitl [HA2]; · iexact HA2
          isplitl [HA3]; · iexact HA3
          isplitl [HA4]; · iexact HA4
          unfold owns; iexists _; isplitr
          swap; · iexact HS0
          ipureintro; exact View.read_writes_of_cover _ _ _ _ _ (scover1_B c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch's back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HA0, HA1, HA2, HA3, HA4, HS0⟩, Hg⟩
  isplitl [HA0 HA1 HA2 HA3 HA4 HS0]
  · isplitl [HA0]; · iexact HA0
    isplitl [HA1]; · iexact HA1
    isplitl [HA2]; · iexact HA2
    isplitl [HA3]; · iexact HA3
    isplitl [HA4]; · iexact HA4
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 128 := N_1; omega)

end Cert.ReferenceIdeal.Hand

end
-- ==== Proof.RI.Launch.lean ====
/-
  The whole run of the reference program, from the launch to the return, for ANY proof data of its two kernel
  regions that meet the hypotheses listed at `run_main_of`: the entry contents of each region's arrays are what the
  device holds when the region is entered, every array is held whole, nothing is owed, each body meets its
  obligation, and the region invariant's two ends are the scoped buffers no window stages beside the generator
  register. The program is a line of host operations and then the two regions, one straight after the other:
  between two of these the core holds every unscoped buffer at a known valuation, and the valuations are
    at launch            the launch memory,
    after the host line  the line's result on it,
    after region 0       the same, the support array at what region 0's write-backs leave,
    after region 1       the same, the output array at what region 1's write-backs leave.
  At the return the output array and the four argument arrays are read off the last valuation; no host operation and
  no region writes an argument, so each holds its launch contents.
-/
import proofs.«107922_g2000603260507787_pallasbulk_1139_8_alg».proof.Proof.RI.Entry
import proofs.«107922_g2000603260507787_pallasbulk_1139_8_alg».proof.Proof.Gen.ReferenceIdeal.Regions

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

variable (m : (ℓ : Loc nD τ sig) → Buf (Elt F) ℓ)
variable (dat0 : (c : Dev nD) → Dat τ (Elt F) Unit ℕ (UR sig nD τ) ℕ cfg0 c)
variable (dat1 : (c : Dev nD) → Dat τ (Elt F) Unit ℕ (UR sig nD τ) ℕ cfg1 c)

/-! ## The valuations at the two regions' exits -/

/-- What the first region's write-backs leave in the support array. -/
abbrev s9 : (c : Dev nD) → Buf (Elt F) ((c : Thread nD τ).loc main_v9) := fun c => (dat0 c).arrAt 2 cfg0.N
/-- What the second region's write-backs leave in the output array. -/
abbrev s10 : (c : Dev nD) → Buf (Elt F) ((c : Thread nD τ).loc main_v10) := fun c => (dat1 c).arrAt 3 cfg1.N

/-- At the second region's exit, which is the return: as at its entry, but the output array `main_v10` at `s10`. -/
abbrev W3 : Dev nD → Valuation τ sig (Elt F) :=
  fun c => Function.update (W2 m (s9 dat0) c) (Proc.devRef .tc main_v10) (s10 dat1 c)
/-- The same read at the TensorCore's references. -/
abbrev V3 : (c : Dev nD) → (b : Ref sig .tc) → Buf (Elt F) ((c : Thread nD τ).loc b) := fun c b => W3 m dat0 dat1 c b

/-- A buffer other than the support array is not changed by the first region. -/
theorem W2_of_ne (s : (c : Dev nD) → Buf (Elt F) ((c : Thread nD τ).loc main_v9)) (c : Dev nD) (r : Ref sig .tc)
    (h : r ≠ main_v9) : W2 m s c (Proc.devRef .tc r) = W1 m c (Proc.devRef .tc r) :=
  Function.update_of_ne (StableHlo.devRef_ne_of_ne h) _ _
/-- A buffer other than the output array is not changed by the second region. -/
theorem W3_of_ne (c : Dev nD) (r : Ref sig .tc) (h : r ≠ main_v10) :
    W3 m dat0 dat1 c (Proc.devRef .tc r) = W2 m (s9 dat0) c (Proc.devRef .tc r) :=
  Function.update_of_ne (StableHlo.devRef_ne_of_ne h) _ _
/-- A buffer that neither region changes and no host operation writes holds its launch contents at the return. -/
theorem W3_launch (c : Dev nD) (r : Ref sig .tc) (h10 : r ≠ main_v10) (h9 : r ≠ main_v9) (hr : r ∉ hostOps0_W) :
    W3 m dat0 dat1 c (Proc.devRef .tc r) = m ((c : Thread nD τ).loc r) :=
  (W3_of_ne m dat0 dat1 c r h10).trans <| (W2_of_ne m (s9 dat0) c r h9).trans <| (Gen.V1_of m c r hr).trans rfl

/-- The first region's arrays at its exit: the two inputs as entered (an input is never written back, and neither is
    the support array), the support array at `s9`. -/
theorem hF0 (hA0 : ∀ c w, (dat0 c).A w = V1 m c (Pipeline.arrRef spec0 w)) (c : Dev nD) :
    ∀ w : Fin cfg0.W, (dat0 c).arrAt w cfg0.N = V2 m (s9 dat0) c (Pipeline.arrRef spec0 w)
  | 0 => ((dat0 c).arrAt_in 0 rfl _).trans ((hA0 c 0).trans (W2_of_ne m (s9 dat0) c (Pipeline.arrRef spec0 0) (by decide)).symm)
  | 1 => ((dat0 c).arrAt_in 1 rfl _).trans ((hA0 c 1).trans (W2_of_ne m (s9 dat0) c (Pipeline.arrRef spec0 1) (by decide)).symm)
  | 2 => (Function.update_self (Proc.devRef .tc main_v9 : DevRef τ sig) (s9 dat0 c) (W1 m c)).symm
  | ⟨_ + 3, h⟩ => absurd h (Nat.not_lt.2 (Nat.le_add_left _ _))
/-- Every buffer that is none of the first region's arrays is as entered. -/
theorem hrest0 (c : Dev nD) : ∀ b, b ∉ Finset.univ.image (Pipeline.arrRef spec0) → V2 m (s9 dat0) c b = V1 m c b :=
  fun b hb => W2_of_ne m (s9 dat0) c b fun e => hb (Finset.mem_image.mpr ⟨2, Finset.mem_univ _, e.symm⟩)

/-- The second region's arrays at its exit: the three inputs as entered, the output array at `s10`. -/
theorem hF1 (hA1 : ∀ c w, (dat1 c).A w = V2 m (s9 dat0) c (Pipeline.arrRef spec1 w)) (c : Dev nD) :
    ∀ w : Fin cfg1.W, (dat1 c).arrAt w cfg1.N = V3 m dat0 dat1 c (Pipeline.arrRef spec1 w)
  | 0 => ((dat1 c).arrAt_in 0 rfl _).trans ((hA1 c 0).trans (W3_of_ne m dat0 dat1 c (Pipeline.arrRef spec1 0) (by decide)).symm)
  | 1 => ((dat1 c).arrAt_in 1 rfl _).trans ((hA1 c 1).trans (W3_of_ne m dat0 dat1 c (Pipeline.arrRef spec1 1) (by decide)).symm)
  | 2 => ((dat1 c).arrAt_in 2 rfl _).trans ((hA1 c 2).trans (W3_of_ne m dat0 dat1 c (Pipeline.arrRef spec1 2) (by decide)).symm)
  | 3 => (Function.update_self (Proc.devRef .tc main_v10 : DevRef τ sig) (s10 dat1 c) (W2 m (s9 dat0) c)).symm
  | ⟨_ + 4, h⟩ => absurd h (Nat.not_lt.2 (Nat.le_add_left _ _))
/-- Every buffer that is none of the second region's arrays is as entered. -/
theorem hrest1 (c : Dev nD) : ∀ b, b ∉ Finset.univ.image (Pipeline.arrRef spec1) → V3 m dat0 dat1 c b = V2 m (s9 dat0) c b :=
  fun b hb => W3_of_ne m dat0 dat1 c b fun e => hb (Finset.mem_image.mpr ⟨3, Finset.mem_univ _, e.symm⟩)

/-! ## The proof data as a family, and what rides beside the buffers -/

/-- Both pipelines' proof data, a literal case split on the pipeline's index so that the index at a numeral reduces
    to the region's own configuration. -/
def pdats : (p : Fin 2) → (c : Dev nD) → Dat τ (Elt F) Unit ℕ (UR sig nD τ) ℕ (Pipeline.pin (pcfgs (F := F)) adm p) c
  | ⟨0, _⟩ => dat0
  | ⟨1, _⟩ => dat1
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state (each region's
    invariant takes it in and gives it back) and the core owing nothing. -/
abbrev R (c : Dev nD) : sProp 𝕄 := iprop((∃ r, prngReg c r) ∗ ∃ W, owes (c : Thread nD τ) (0 : CellTallies nD τ sig Unit) W)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the return's valuation, the generator
    register at some state. -/
abbrev Tₙ (c : Dev nD) : sProp 𝕄 := iprop(StableHlo.held (c : Thread nD τ) (Pipeline.ucRefs τ sig) (W3 m dat0 dat1 c) ∗ ∃ r, prngReg c r)

/-- A core owing nothing, whatever pairs its waits have recorded, owes what proof data that owe nothing at point `t`
    and bound the recorded pairs by everything say. -/
theorem owesAt_of_nothing {cfg : Cfg sig Λ₀} (c : Dev nD) (dat : Dat τ (Elt F) Unit ℕ (UR sig nD τ) ℕ cfg c) (t : Fin (cfg.N + 1))
    (ho : dat.owed t = 0) (hr : dat.recorded t = Set.univ) :
    (iprop(∃ W, owes (c : Thread nD τ) (0 : CellTallies nD τ sig Unit) W) : sProp 𝕄) ⊢ dat.owesAt () t := by
  unfold Pipeline.Dat.owesAt Pipeline.owesWithin
  rw [ho]
  iintro ⟨%W, HO⟩; iexists W; isplitr
  · ipureintro; exact fun _ _ => Or.inl (by rw [hr]; exact Set.mem_univ _)
  iexact HO
/-- And back: what such proof data say is owed at point `t` is nothing. -/
theorem nothing_of_owesAt {cfg : Cfg sig Λ₀} (c : Dev nD) (dat : Dat τ (Elt F) Unit ℕ (UR sig nD τ) ℕ cfg c) (t : Fin (cfg.N + 1))
    (ho : dat.owed t = 0) :
    dat.owesAt () t ⊢ (iprop(∃ W, owes (c : Thread nD τ) (0 : CellTallies nD τ sig Unit) W) : sProp 𝕄) := by
  unfold Pipeline.Dat.owesAt Pipeline.owesWithin
  rw [ho]
  iintro ⟨%W, -, HO⟩; iexists W; iexact HO

/-- What the run needs of the first region's proof data: the arrays' entry contents are the device's after the host
    line, every array is held whole, nothing is owed and no recorded pair is excluded, the body meets its
    obligation, and the invariant's two ends are the class's. -/
structure Hyp0 : Prop where
  hA : ∀ c w, (dat0 c).A w = V1 m c (Pipeline.arrRef spec0 w)
  hq : ∀ c w, (dat0 c).q w = fullShare
  howed : ∀ c t, (dat0 c).owed t = 0
  hrec : ∀ c, (dat0 c).recorded 0 = Set.univ
  hbody : ∀ c, BodyObligation (dat0 c) (defs₀ (F := F)) Variants.none () Set.univ
  hin : ∀ c, Pipeline.ΦA spec0 c ⊢ (dat0 c).Φ 0
  hout : ∀ c, (dat0 c).Φ (Fin.last cfg0.N) ⊢ Pipeline.ΦA spec0 c

/-- The same of the second region's, its entry contents being the first region's exit contents. -/
structure Hyp1 : Prop where
  hA : ∀ c w, (dat1 c).A w = V2 m (s9 dat0) c (Pipeline.arrRef spec1 w)
  hq : ∀ c w, (dat1 c).q w = fullShare
  howed : ∀ c t, (dat1 c).owed t = 0
  hrec : ∀ c, (dat1 c).recorded 0 = Set.univ
  hbody : ∀ c, BodyObligation (dat1 c) (defs₀ (F := F)) Variants.none () Set.univ
  hin : ∀ c, Pipeline.ΦA spec1 c ⊢ (dat1 c).Φ 0
  hout : ∀ c, (dat1 c).Φ (Fin.last cfg1.N) ⊢ Pipeline.ΦA spec1 c

/-- The class's region invariant from what a region's entry hands it: the generator register at some state, the
    scoped buffers no window stages, and anything else (dropped: these kernels take no prefetched table). -/
theorem ΦA_in {gr W : Nat} (win : Fin W → Pipeline.WinSpec sig gr) (c : Dev nD) (P : sProp 𝕄) :
    (iprop((∃ r, prngReg c r) ∗ P ∗ Pipeline.scopedRest win c) : sProp 𝕄) ⊢ Pipeline.ΦA win c := by
  unfold Pipeline.ΦA
  iintro ⟨Hp, -, Hr⟩
  isplitl [Hr]; · iexact Hr
  iexact Hp
/-- And what it gives back at the exit: the register, no semaphore of the kernel's own, those scoped buffers. -/
theorem ΦA_out {gr W : Nat} (win : Fin W → Pipeline.WinSpec sig gr) (c : Dev nD) :
    (Pipeline.ΦA win c : sProp 𝕄) ⊢ iprop((∃ r, prngReg c r) ∗ BI.emp ∗ Pipeline.scopedRest win c) := by
  unfold Pipeline.ΦA
  iintro ⟨Hr, Hp⟩
  isplitl [Hp]; · iexact Hp
  isplitr; · iempintro
  iexact Hr

/-! ## The two regions as items of the run -/

-- the configuration of pipeline `p` at a numeral must reduce to the region's own configuration inside the type of
-- an unknown being solved for: unification is allowed to unfold plain definitions there
set_option backward.isDefEq.respectTransparency.types false in
/-- THE FIRST REGION over the thread state: entered from every unscoped buffer at the host line's result, left with
    the support array at `s9`. Its three arrays are split out of the unscoped buffers at entry and put back at exit;
    the generator register goes into the invariant and comes back; nothing is owed; the kernel has no semaphore of
    its own. -/
def reg0 (h0 : Hyp0 m dat0) : Pipeline.RegionSeg (pcfgs (F := F)) adm (pdats dat0 dat1) () defs₀ 𝒱₀ L lv 0 where
  win := launch0.win.to₀
  block_pos := launch0.block_pos
  stage_whole := launch0.stage_whole
  K := PEmpty
  osem k := k.elim
  ho := Pipeline.OwnSemFacts.none _
  hbody c := (h0.hbody c).loose
  hwaits := Pipeline.hwaits_of_owed_zero _ _ _ _ L lv 0 h0.howed
  pre c := iprop(StableHlo.held (c : Thread nD τ) (Pipeline.ucRefs τ sig) (W1 m c) ∗ R c)
  post c := iprop(StableHlo.held (c : Thread nD τ) (Pipeline.ucRefs τ sig) (W2 m (s9 dat0) c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats dat0 dat1) launch0.win launch0.arr_whole c
      ((pdats dat0 dat1 0 c).share_full (h0.hq c)) (V1 m c) (h0.hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_of_nothing c (dat0 c) 0 (h0.howed c 0) (h0.hrec c)); iexact HO
    isplitl [Hp]; · iexact Hp
    iexact Hrest
  hin c := (ΦA_in spec0 c _).trans (h0.hin c)
  hout c := by
    rw [Pipeline.ownSems0_none]
    exact (h0.hout c).trans (ΦA_out spec0 c)
  hexit c := by
    have hjoin := Pipeline.unscopedBufs_of_arrays (p := 0) (pcfgs (F := F)) adm (Ix := Unit) (Name := ℕ) (U := UR sig nD τ) (Lvl := ℕ)
      launch0.win launch0.arr_whole c (pdats dat0 dat1) ((pdats dat0 dat1 0 c).share_full (h0.hq c))
      (V1 m c) (V2 m (s9 dat0) c) ((pdats dat0 dat1 0 c).arrAt · cfg0.N) (hF0 m dat0 h0.hA c) (hrest0 m dat0 c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (nothing_of_owesAt c (dat0 c) (Fin.last cfg0.N) (h0.howed c _)); iexact HO

set_option backward.isDefEq.respectTransparency.types false in
/-- THE SECOND REGION over the thread state: entered from what the first left, left with the output array at `s10`,
    which is what the return reads. Its four arrays are split out and put back as the first region's. -/
def reg1 (h1 : Hyp1 m dat0 dat1) : Pipeline.RegionSeg (pcfgs (F := F)) adm (pdats dat0 dat1) () defs₀ 𝒱₀ L lv 1 where
  win := launch1.win.to₀
  block_pos := launch1.block_pos
  stage_whole := launch1.stage_whole
  K := PEmpty
  osem k := k.elim
  ho := Pipeline.OwnSemFacts.none _
  hbody c := (h1.hbody c).loose
  hwaits := Pipeline.hwaits_of_owed_zero _ _ _ _ L lv 1 h1.howed
  pre c := iprop(StableHlo.held (c : Thread nD τ) (Pipeline.ucRefs τ sig) (W2 m (s9 dat0) c) ∗ R c)
  post c := iprop(Tₙ m dat0 dat1 c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m (s9 dat0) c)
  hentry c := by
    rw [Pipeline.ownSems0_none]
    have hsplit := Pipeline.arrays_of_unscopedBufs (p := 1) (pcfgs (F := F)) adm (pdats dat0 dat1) launch1.win launch1.arr_whole c
      ((pdats dat0 dat1 1 c).share_full (h1.hq c)) (V2 m (s9 dat0) c) (h1.hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_of_nothing c (dat1 c) 0 (h1.howed c 0) (h1.hrec c)); iexact HO
    isplitl [Hp]; · iexact Hp
    iexact Hrest
  hin c := (ΦA_in spec1 c _).trans (h1.hin c)
  hout c := by
    rw [Pipeline.ownSems0_none]
    exact (h1.hout c).trans (ΦA_out spec1 c)
  hexit c := by
    have hjoin := Pipeline.unscopedBufs_of_arrays (p := 1) (pcfgs (F := F)) adm (Ix := Unit) (Name := ℕ) (U := UR sig nD τ) (Lvl := ℕ)
      launch1.win launch1.arr_whole c (pdats dat0 dat1) ((pdats dat0 dat1 1 c).share_full (h1.hq c))
      (V2 m (s9 dat0) c) (V3 m dat0 dat1 c) ((pdats dat0 dat1 1 c).arrAt · cfg1.N) (hF1 m dat0 dat1 h1.hA c) (hrest1 m dat0 dat1 c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    iapply (nothing_of_owesAt c (dat1 c) (Fin.last cfg1.N) (h1.howed c _)); iexact HO

/-! ## The run -/

/-- The program's three items in order: the host line from the launch contents, then the two regions. -/
abbrev segs (h0 : Hyp0 m dat0) (h1 : Hyp1 m dat0 dat1) :
    List (Pipeline.Seg (pcfgs (F := F)) adm (pdats dat0 dat1) () defs₀ 𝒱₀ L lv) :=
  [ .host (seg0 m 𝒱₀ L lv fun _ => R),
    .region (reg0 m dat0 dat1 h0),
    .region (reg1 m dat0 dat1 h1) ]

set_option backward.isDefEq.respectTransparency.types false in
/-- THE RUN, from the two regions' proof data bundled. From any memory with zero counters every weakly fair execution
    of the program terminates, nothing faulting, and in every final state the output array holds what the second
    region's write-backs leave and the four argument arrays hold their launch contents: the launch makes the first
    thread state on each core by itself, the items chain because consecutive thread states are the same assertion,
    and the last thread state is read against the final memory. -/
theorem run_main_of' (ρ : Dev nD → PrngReg) (h0 : Hyp0 m dat0) (h1 : Hyp1 m dat0 dat1) :
    θ_run defs (onTc (τ := τ) (main (F := F))) ⟨m, fun _ => 0, ρ⟩ (fun r => ∀ c : Dev nD,
      r.2.mem ((c.tc : Thread nD τ).loc main_v10) = (dat1 c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats dat0 dat1) () cellOf_inj emb₁ defs₀ 𝒱₀ L lv m ρ main (segs m dat0 dat1 h0 h1)
    (fun c Q => by
      rewrite [main_chain c, Pipeline.Seg.run_eq_chain,
        show (segs m dat0 dat1 h0 h1).map Pipeline.Seg.prog = [
          StableHlo.seq hostOps0,
          Prog.lift (.customCall (Pipeline.entry 0) ()),
          Prog.lift (.customCall (Pipeline.entry 1) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m dat0 dat1)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m dat0 dat1 c b)
    (hfin := fun c s' => by
      iintro ⟨⟨Hh, -⟩, HSI⟩
      unfold StableHlo.held
      imodintro
      iapply (pointsTo_read_all (Pipeline.ucRefs τ sig) (fun b => (((c : Thread nD τ)).1, b)) (W3 m dat0 dat1 c) s')
      isplitl [Hh] <;> iassumption)
    (hQ := fun s h c =>
      ⟨(h c _ (mem_uc main_v10 (by decide))).trans (Function.update_self (Proc.devRef .tc main_v10 : DevRef τ sig) (s10 dat1 c) (W2 m (s9 dat0) c)),
       (h c _ (mem_uc main_arg0 (by decide))).trans (W3_launch m dat0 dat1 c main_arg0 (by decide) (by decide) (by decide)),
       (h c _ (mem_uc main_arg1 (by decide))).trans (W3_launch m dat0 dat1 c main_arg1 (by decide) (by decide) (by decide)),
       (h c _ (mem_uc main_arg2 (by decide))).trans (W3_launch m dat0 dat1 c main_arg2 (by decide) (by decide) (by decide)),
       (h c _ (mem_uc main_arg3 (by decide))).trans (W3_launch m dat0 dat1 c main_arg3 (by decide) (by decide) (by decide))⟩)

/-- THE RUN, the hypotheses listed one by one. -/
theorem run_main_of (ρ : Dev nD → PrngReg)
    (hA0 : ∀ c w, (dat0 c).A w = V1 m c (Pipeline.arrRef spec0 w))
    (hA1 : ∀ c w, (dat1 c).A w = V2 m (fun c => (dat0 c).arrAt 2 cfg0.N) c (Pipeline.arrRef spec1 w))
    (hq0 : ∀ c w, (dat0 c).q w = fullShare) (hq1 : ∀ c w, (dat1 c).q w = fullShare)
    (howed0 : ∀ c t, (dat0 c).owed t = 0) (howed1 : ∀ c t, (dat1 c).owed t = 0)
    (hrec0 : ∀ c, (dat0 c).recorded 0 = Set.univ) (hrec1 : ∀ c, (dat1 c).recorded 0 = Set.univ)
    (hbody0 : ∀ c, BodyObligation (dat0 c) (defs₀ (F := F)) Variants.none () Set.univ)
    (hbody1 : ∀ c, BodyObligation (dat1 c) (defs₀ (F := F)) Variants.none () Set.univ)
    (hin0 : ∀ c, Pipeline.ΦA spec0 c ⊢ (dat0 c).Φ 0) (hout0 : ∀ c, (dat0 c).Φ (Fin.last cfg0.N) ⊢ Pipeline.ΦA spec0 c)
    (hin1 : ∀ c, Pipeline.ΦA spec1 c ⊢ (dat1 c).Φ 0) (hout1 : ∀ c, (dat1 c).Φ (Fin.last cfg1.N) ⊢ Pipeline.ΦA spec1 c) :
    θ_run defs (onTc (τ := τ) (main (F := F))) ⟨m, fun _ => 0, ρ⟩ (fun r => ∀ c : Dev nD,
      r.2.mem ((c.tc : Thread nD τ).loc main_v10) = (dat1 c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  run_main_of' m dat0 dat1 ρ ⟨hA0, hq0, howed0, hrec0, hbody0, hin0, hout0⟩ ⟨hA1, hq1, howed1, hrec1, hbody1, hin1, hout1⟩

/-- info: 'Cert.ReferenceIdeal.Hand.run_main_of' depends on axioms: [propext, Classical.choice, Quot.sound] -/
#guard_msgs in #print axioms run_main_of

end Cert.ReferenceIdeal.Hand

end
-- ==== Proof.FramesReference.lean ====
/-
  The reference program's launch and frame.

  The reference runs two kernel regions after its host operations: the first writes the support matrix, the second
  reads it back, accumulates the adjacency times the support block by block and adds the bias. Each region's proof
  data is taken at the contents the region finds when it is entered: the first at the launch memory after the host
  operations, the second at those contents with the support array at what the first region's write-backs left. The
  launch theorem then says the program ends with the result array at what the second region's write-backs leave and
  the four arguments as launched; dropping the first conjunct gives the frame.
-/
import proofs.«107922_g2000603260507787_pallasbulk_1139_8_alg».proof.Defs
import proofs.«107922_g2000603260507787_pallasbulk_1139_8_alg».proof.Proof.Gen.ReferenceIdeal
import proofs.«107922_g2000603260507787_pallasbulk_1139_8_alg».proof.Proof.Gen.Pre_finite_inputs
import proofs.«107922_g2000603260507787_pallasbulk_1139_8_alg».proof.Proof.RI.Frame0
import proofs.«107922_g2000603260507787_pallasbulk_1139_8_alg».proof.Proof.RI.Frame1
import proofs.«107922_g2000603260507787_pallasbulk_1139_8_alg».proof.Proof.RI.Launch

noncomputable section

namespace Cert.Proof

open Idealize.ShloMosaic Idealize.SL.Sem

/-- The first region's proof data at the contents it is entered at. -/
abbrev refDat0 (m : (ℓ : Loc Cert.ReferenceIdeal.nD Cert.ReferenceIdeal.τ Cert.ReferenceIdeal.sig) → Buf (Elt Ideal) ℓ) (c : Dev Cert.ReferenceIdeal.nD) :=
  Cert.ReferenceIdeal.Hand.dat0 (F := Ideal) (Cert.ReferenceIdeal.Hand.V1 m) c

/-- What the first region leaves in the support array. -/
abbrev refSupport (m : (ℓ : Loc Cert.ReferenceIdeal.nD Cert.ReferenceIdeal.τ Cert.ReferenceIdeal.sig) → Buf (Elt Ideal) ℓ) (c : Dev Cert.ReferenceIdeal.nD) :=
  (refDat0 m c).arrAt 2 Cert.ReferenceIdeal.cfg0.N

/-- The second region's proof data at the contents it is entered at: the first region's, with the support array at
    what that region left. -/
abbrev refDat1 (m : (ℓ : Loc Cert.ReferenceIdeal.nD Cert.ReferenceIdeal.τ Cert.ReferenceIdeal.sig) → Buf (Elt Ideal) ℓ) (c : Dev Cert.ReferenceIdeal.nD) :=
  Cert.ReferenceIdeal.Hand.dat1 (F := Ideal) (Cert.ReferenceIdeal.Hand.V2 m (refSupport m)) c

/-- The reference's launch: it runs to the end, the result array holds what the second region's write-backs leave,
    the four arguments are as launched. -/
theorem run_referenceIdeal (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v10) = (refDat1 m c).arrAt 3 Cert.ReferenceIdeal.cfg1.N
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)) :=
  Cert.ReferenceIdeal.Hand.run_main_of (F := Ideal) m (refDat0 m) (refDat1 m) ρ
    (fun c w => Cert.ReferenceIdeal.Hand.A_eq0 (Cert.ReferenceIdeal.Hand.V1 m) c w)
    (fun c w => Cert.ReferenceIdeal.Hand.A_eq1 (Cert.ReferenceIdeal.Hand.V2 m (refSupport m)) c w)
    (fun _ _ => rfl) (fun _ _ => rfl) (fun _ _ => rfl) (fun _ _ => rfl) (fun _ => rfl) (fun _ => rfl)
    (fun c => Cert.ReferenceIdeal.Hand.body_obligation0 (Cert.ReferenceIdeal.Hand.V1 m) c)
    (fun c => Cert.ReferenceIdeal.Hand.body_obligation1 (Cert.ReferenceIdeal.Hand.V2 m (refSupport m)) c)
    (fun _ => .rfl) (fun _ => .rfl)
    (fun c => Cert.ReferenceIdeal.Hand.hin1 (Cert.ReferenceIdeal.Hand.V2 m (refSupport m)) c)
    (fun c => Cert.ReferenceIdeal.Hand.hout1 (Cert.ReferenceIdeal.Hand.V2 m (refSupport m)) c)

/-- The reference runs to the end and leaves its four arguments as launched. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (run_referenceIdeal m ρ)

end Cert.Proof

end
-- ==== Proof.KI.Pieces.lean ====
/-
  What the kernel body's stores leave, as values. The body writes its [512, 256] output block as two [256, 256] halves
  (rows 0 … 255, then rows 256 … 511) and, at the first point of each group of four, first writes the whole
  [4096, 256] carried buffer. Here each list of stored pieces is read back as ONE function of the block index: the
  carried buffer is the support product of the node features and the weight; the output block is the upper-half value
  on rows below 256 and the lower-half value on the rest, both computed from the carried buffer (the one just written
  where it is written, the one left by the point before elsewhere).
-/
import proofs.«107922_g2000603260507787_pallasbulk_1139_8_alg».proof.Proof.KI.RunA
import proofs.«107922_g2000603260507787_pallasbulk_1139_8_alg».proof.Proof.KI.RunB
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx
open scoped BigOperators

variable {F : FTy → Type} [FloatOps F]

/-- The literal zero offsets are the zero function. -/
theorem hz2 : (![0, 0] : Fin 2 → Nat) = fun _ => 0 := funext fun a => by fin_cases a <;> rfl

/-! ## A block of 512 rows from its two halves of 256 -/

/-- Rows 0 … 255 from `top`, rows 256 … 511 from `bot` (at row − 256). -/
def halves {α : Type} (top bot : S256x256.Idx → α) : S512x256.Idx → α := fun y =>
  if h : (y 0).val < 256 then top (ix2 (⟨(y 0).val, h⟩ : Fin 256) (y 1 : Fin 256))
  else bot (ix2 (⟨(y 0).val - 256, by have h5 : (y 0).val < 512 := (y 0).isLt; omega⟩ : Fin 256) (y 1 : Fin 256))

/-- An upper row reads the upper half. -/
theorem halves_top_apply {α : Type} (top bot : S256x256.Idx → α) (p : Fin 256) (q' : Fin 256) (r : Fin 512) (hr : r.val = p.val) :
    halves top bot (ix2 r q') = top (ix2 p q') := by
  unfold halves
  have h : ((ix2 r q' : S512x256.Idx) 0).val < 256 := by show r.val < 256; rw [hr]; exact p.isLt
  rw [dif_pos h]
  exact congrArg top (funext fun a => Fin.ext (by
    match a with
    | ⟨0, _⟩ => exact hr
    | ⟨1, _⟩ => rfl))

/-- A lower row reads the lower half at row − 256. -/
theorem halves_bot_apply {α : Type} (top bot : S256x256.Idx → α) (p : Fin 256) (q' : Fin 256) (r : Fin 512) (hr : r.val = 256 + p.val) :
    halves top bot (ix2 r q') = bot (ix2 p q') := by
  unfold halves
  have h : ¬((ix2 r q' : S512x256.Idx) 0).val < 256 := by show ¬r.val < 256; rw [hr]; omega
  rw [dif_neg h]
  exact congrArg bot (funext fun a => Fin.ext (by
    match a with
    | ⟨0, _⟩ => show r.val - 256 = p.val; omega
    | ⟨1, _⟩ => rfl))

/-- The upper half-height rectangle's element x sits at row x₀, column x₁ of the block. -/
theorem halves_emb_top {α : Type} (top bot : S256x256.Idx → α)
    (inb : ∀ a, (![0, 0] : Fin 2 → Nat) a + S256x256.size a ≤ S512x256.size a) (x : S256x256.Idx) :
    halves top bot ((Rect.unit (s := S512x256) ![0, 0] S256x256.size inb).emb x) = top x := by
  have h0 : (((Rect.unit (s := S512x256) ![0, 0] S256x256.size inb).emb x) 0).val = (x 0).val := by
    rw [Rect.emb_apply]; show 0 + 1 * (x 0).val = _; omega
  have h1 : (((Rect.unit (s := S512x256) ![0, 0] S256x256.size inb).emb x) 1).val = (x 1).val := by
    rw [Rect.emb_apply]; show 0 + 1 * (x 1).val = _; omega
  unfold halves
  have hx : (x 0).val < 256 := (x 0).isLt
  rw [dif_pos (by rw [h0]; exact hx)]
  exact congrArg top (funext fun a => Fin.ext (by
    match a with
    | ⟨0, _⟩ => exact h0
    | ⟨1, _⟩ => exact h1))

/-- The lower half-height rectangle's element x sits at row 256 + x₀, column x₁ of the block. -/
theorem halves_emb_bot {α : Type} (top bot : S256x256.Idx → α)
    (inb : ∀ a, (![256, 0] : Fin 2 → Nat) a + S256x256.size a ≤ S512x256.size a) (x : S256x256.Idx) :
    halves top bot ((Rect.unit (s := S512x256) ![256, 0] S256x256.size inb).emb x) = bot x := by
  have h0 : (((Rect.unit (s := S512x256) ![256, 0] S256x256.size inb).emb x) 0).val = 256 + (x 0).val := by
    rw [Rect.emb_apply]; show 256 + 1 * (x 0).val = _; omega
  have h1 : (((Rect.unit (s := S512x256) ![256, 0] S256x256.size inb).emb x) 1).val = (x 1).val := by
    rw [Rect.emb_apply]; show 0 + 1 * (x 1).val = _; omega
  unfold halves
  rw [dif_neg (by rw [h0]; omega)]
  exact congrArg bot (funext fun a => Fin.ext (by
    match a with
    | ⟨0, _⟩ => show _ - 256 = (x 0).val; rw [h0]; omega
    | ⟨1, _⟩ => exact h1))

/-- Two stores, the lower half last and the upper half before it, that together cover the block leave `halves`. -/
theorem canon_halves (top bot : Vec F S256x256 .f32)
    (inb0 : ∀ a, (![0, 0] : Fin 2 → Nat) a + S256x256.size a ≤ S512x256.size a) (inb256 : ∀ a, (![256, 0] : Fin 2 → Nat) a + S256x256.size a ≤ S512x256.size a)
    (hcover : ∀ y : S512x256.Idx, ∃ p ∈ ([⟨Rect.unit ![256, 0] S256x256.size inb256, bot⟩, ⟨Rect.unit ![0, 0] S256x256.size inb0, top⟩] : List (View.Piece (Elt F) S512x256 .f32)), y ∈ p.1.set) :
    View.canon ([⟨Rect.unit ![256, 0] S256x256.size inb256, bot⟩, ⟨Rect.unit ![0, 0] S256x256.size inb0, top⟩] : List (View.Piece (Elt F) S512x256 .f32))
      = halves top bot := by
  funext y
  refine View.canon_apply_of_pieces (halves top bot) _ (fun p hp x => ?_) y (hcover y)
  rcases List.mem_cons.mp hp with rfl | hp'
  · exact (halves_emb_bot top bot inb256 x).symm
  · rcases List.mem_cons.mp hp' with rfl | hp''
    · exact (halves_emb_top top bot inb0 x).symm
    · exact absurd hp'' List.not_mem_nil

/-! ## The three piece lists, read back -/

/-- Where the condition holds, the carried buffer is left at the support product of the two loaded inputs. -/
theorem spieces_A (c : Dev nD) (i : grid0.Coords) (arg2 : Memref sig .tc .vmem S4096x256 .f32) (harg2 : arg2.IsWhole) (arg3 : Memref sig .tc .vmem S256x256 .f32) (harg3 : arg3.IsWhole) (arg4 : Memref sig .tc .vmem S256x4096 .f32) (harg4 : arg4.IsWhole) (arg5 : Memref sig .tc .vmem S256x4096 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S4096x256 .f32) (harg8 : arg8.IsWhole) (hc0 : cond0_0 i) (x0 : Vec F S4096x256 .f32) (x1 : Vec F S256x256 .f32) (x2 : Vec F S256x4096 .f32) (x3 : Vec F S256x4096 .f32) (x4 : Vec F S1x256 .f32) :
    View.canon (kernelRunA c i arg2 harg2 arg3 harg3 arg4 harg4 arg5 harg5 arg6 harg6 arg7 harg7 arg8 harg8 hc0 x0 x1 x2 x3 x4).2.1 = k0_pay1 x0 x1 := by
  unfold kernelRunA
  dsimp only
  sl_unfold_words
  rw [View.canon_unit_zero hz2]
  simp only [View.readAt_eq_ld, harg2.read_unread, harg3.read_unread, View.ld_unit_zero (S := S4096x256) hz2, View.ld_unit_zero (S := S256x256) hz2]

/-- Where the condition holds, the output block is left at the two halves computed from the carried buffer just
    written (the later loads of it read the store back). -/
theorem pieces_A (c : Dev nD) (i : grid0.Coords) (arg2 : Memref sig .tc .vmem S4096x256 .f32) (harg2 : arg2.IsWhole) (arg3 : Memref sig .tc .vmem S256x256 .f32) (harg3 : arg3.IsWhole) (arg4 : Memref sig .tc .vmem S256x4096 .f32) (harg4 : arg4.IsWhole) (arg5 : Memref sig .tc .vmem S256x4096 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S4096x256 .f32) (harg8 : arg8.IsWhole) (hc0 : cond0_0 i) (x0 : Vec F S4096x256 .f32) (x1 : Vec F S256x256 .f32) (x2 : Vec F S256x4096 .f32) (x3 : Vec F S256x4096 .f32) (x4 : Vec F S1x256 .f32)
    (hcover : ∀ y : S512x256.Idx, ∃ pc ∈ (kernelRunA c i arg2 harg2 arg3 harg3 arg4 harg4 arg5 harg5 arg6 harg6 arg7 harg7 arg8 harg8 hc0 x0 x1 x2 x3 x4).1, y ∈ pc.1.set) :
    View.canon (kernelRunA c i arg2 harg2 arg3 harg3 arg4 harg4 arg5 harg5 arg6 harg6 arg7 harg7 arg8 harg8 hc0 x0 x1 x2 x3 x4).1
      = halves (k0_pay2 x2 (k0_pay1 x0 x1) x4) (k0_pay3 x3 (k0_pay1 x0 x1) x4) := by
  revert hcover
  unfold kernelRunA
  dsimp only
  sl_unfold_words
  intro hcover
  rw [canon_halves _ _ _ _ hcover]
  simp only [View.readAt_eq_ld, harg2.read_unread, harg3.read_unread, harg4.read_unread, harg5.read_unread, harg6.read_unread,
    View.readCov_unit_zero (S := S4096x256) _ hz2,
    View.ld_unit_zero (S := S4096x256) hz2, View.ld_unit_zero (S := S256x256) hz2, View.ld_unit_zero (S := S256x4096) hz2,
    View.ld_unit_zero (S := S1x256) hz2]

/-- Where the condition fails, the output block is left at the two halves computed from the carried buffer as it
    came in. -/
theorem pieces_B (c : Dev nD) (i : grid0.Coords) (arg2 : Memref sig .tc .vmem S4096x256 .f32) (harg2 : arg2.IsWhole) (arg3 : Memref sig .tc .vmem S256x256 .f32) (harg3 : arg3.IsWhole) (arg4 : Memref sig .tc .vmem S256x4096 .f32) (harg4 : arg4.IsWhole) (arg5 : Memref sig .tc .vmem S256x4096 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S4096x256 .f32) (harg8 : arg8.IsWhole) (hc0 : ¬cond0_0 i) (x0 : Vec F S4096x256 .f32) (x1 : Vec F S256x256 .f32) (x2 : Vec F S256x4096 .f32) (x3 : Vec F S256x4096 .f32) (x4 : Vec F S1x256 .f32) (xs : Vec F S4096x256 .f32)
    (hcover : ∀ y : S512x256.Idx, ∃ pc ∈ (kernelRunB c i arg2 harg2 arg3 harg3 arg4 harg4 arg5 harg5 arg6 harg6 arg7 harg7 arg8 harg8 hc0 x0 x1 x2 x3 x4 xs).1, y ∈ pc.1.set) :
    View.canon (kernelRunB c i arg2 harg2 arg3 harg3 arg4 harg4 arg5 harg5 arg6 harg6 arg7 harg7 arg8 harg8 hc0 x0 x1 x2 x3 x4 xs).1
      = halves (k0_pay2 x2 xs x4) (k0_pay3 x3 xs x4) := by
  revert hcover
  unfold kernelRunB
  dsimp only
  sl_unfold_words
  intro hcover
  rw [canon_halves _ _ _ _ hcover]
  simp only [View.readAt_eq_ld, harg4.read_unread, harg5.read_unread, harg6.read_unread, harg8.read_unread,
    View.ld_unit_zero (S := S4096x256) hz2, View.ld_unit_zero (S := S256x4096) hz2, View.ld_unit_zero (S := S1x256) hz2]

end Cert.KernelIdeal.Hand

end
-- ==== Proof.Spec.lean ====
/-
  The mathematics both programs compute, stated once over literal shapes and imported by both value legs.

  A graph-convolution layer on N = 4096 nodes with 256 input and 256 output features: the SUPPORT matrix is the
  node features times the weight, support(k, q) = ∑ j, x(k, j) · w(j, q), and the layer's result adds the bias to
  the adjacency times the support, out(r, q) = (∑ k, adj(r, k) · support(k, q)) + b(q). Every sum is a finite sum
  on the extended reals, where addition is commutative and associative with unit 0; nothing here needs the
  entries to be finite.
-/
import Idealize.ShloMosaic.PureOps.Ideal
import Idealize.ShloMosaic.Lib.ValueIdx

noncomputable section

open scoped BigOperators

namespace Cert.Spec

open Idealize.ShloMosaic Idealize.ShloMosaic.ValueIdx

/-- Node features, the support matrix and the result: 4096 rows of 256 features. -/
abbrev SNodeFeat : Shape := ⟨2, ![4096, 256]⟩
/-- The dense adjacency: 4096 × 4096. -/
abbrev SAdj : Shape := ⟨2, ![4096, 4096]⟩
/-- The weight: 256 × 256. -/
abbrev SWeight : Shape := ⟨2, ![256, 256]⟩
/-- The bias: 256 entries. -/
abbrev SBias : Shape := ⟨1, ![256]⟩

/-- The support matrix `x · w`: entry (k, q) is the sum over the 256 input features j of x(k, j) · w(j, q). -/
def support (x : FVec Ideal SNodeFeat .f32) (w : FVec Ideal SWeight .f32) : FVec Ideal SNodeFeat .f32 :=
  fun i => ∑ j : Fin 256, x (ix2 (i 0) j) * w (ix2 j (i 1))

/-- The layer's result `adj · (x · w) + b`: entry (r, q) is the sum over the 4096 nodes k of
    adj(r, k) · support(k, q), plus the bias entry b(q). -/
def gcn (x : FVec Ideal SNodeFeat .f32) (adj : FVec Ideal SAdj .f32) (w : FVec Ideal SWeight .f32)
    (b : FVec Ideal SBias .f32) : FVec Ideal SNodeFeat .f32 :=
  fun i => (∑ k : Fin 4096, adj (ix2 (i 0) k) * support x w (ix2 k (i 1))) + b (ix1 (i 1))

theorem support_apply (x : FVec Ideal SNodeFeat .f32) (w : FVec Ideal SWeight .f32) (k : Fin 4096) (q : Fin 256) :
    support x w (ix2 k q) = ∑ j : Fin 256, x (ix2 k j) * w (ix2 j q) := rfl

theorem gcn_apply (x : FVec Ideal SNodeFeat .f32) (adj : FVec Ideal SAdj .f32) (w : FVec Ideal SWeight .f32)
    (b : FVec Ideal SBias .f32) (r : Fin 4096) (q : Fin 256) :
    gcn x adj w b (ix2 r q) = (∑ k : Fin 4096, adj (ix2 r k) * support x w (ix2 k q)) + b (ix1 q) := rfl

end Cert.Spec

end
-- ==== Proof.KI.ValueLemmas.lean ====
import proofs.«107922_g2000603260507787_pallasbulk_1139_8_alg».proof.Proof.KI.Base
import proofs.«107922_g2000603260507787_pallasbulk_1139_8_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx
open scoped BigOperators

/-! ## The two contractions' operand coordinates

Both products contract the left operand's axis 1 with the right operand's axis 0 and keep the left axis 0 and the right
axis 1 as the result's rows and columns. One statement per operand axis, at the literal axis. -/

/-- Support product, left operand, axis 0: the result's row. -/
theorem lhs_sup_0 (i : S4096x256.Idx) (q : dot_S4096x256_S256x256_S4096x256_1_0_0_1_n_n.contr.Idx) :
    (dot_S4096x256_S256x256_S4096x256_1_0_0_1_n_n.lhsIdx i q 0).val = (i 0).val := by
  unfold DotDims.lhsIdx
  rw [dif_neg (show ¬(0 : Fin S4096x256.rank) ∈ dot_S4096x256_S256x256_S4096x256_1_0_0_1_n_n.lhsBatch by decide), dif_pos (show (0 : Fin S4096x256.rank) ∈ dot_S4096x256_S256x256_S4096x256_1_0_0_1_n_n.lhsNonContracting by decide)]
  rfl
/-- Support product, left operand, axis 1: the contracted position. -/
theorem lhs_sup_1 (i : S4096x256.Idx) (q : dot_S4096x256_S256x256_S4096x256_1_0_0_1_n_n.contr.Idx) :
    (dot_S4096x256_S256x256_S4096x256_1_0_0_1_n_n.lhsIdx i q 1).val = (q ⟨0, by decide⟩).val :=
  dot_S4096x256_S256x256_S4096x256_1_0_0_1_n_n.lhsIdx_val_of_single rfl i q
/-- Support product, right operand, axis 0: the contracted position. -/
theorem rhs_sup_0 (i : S4096x256.Idx) (q : dot_S4096x256_S256x256_S4096x256_1_0_0_1_n_n.contr.Idx) :
    (dot_S4096x256_S256x256_S4096x256_1_0_0_1_n_n.rhsIdx i q 0).val = (q ⟨0, by decide⟩).val :=
  dot_S4096x256_S256x256_S4096x256_1_0_0_1_n_n.rhsIdx_val_of_single rfl i q
/-- Support product, right operand, axis 1: the result's column. -/
theorem rhs_sup_1 (i : S4096x256.Idx) (q : dot_S4096x256_S256x256_S4096x256_1_0_0_1_n_n.contr.Idx) :
    (dot_S4096x256_S256x256_S4096x256_1_0_0_1_n_n.rhsIdx i q 1).val = (i 1).val := by
  unfold DotDims.rhsIdx
  rw [dif_neg (show ¬(1 : Fin S256x256.rank) ∈ dot_S4096x256_S256x256_S4096x256_1_0_0_1_n_n.rhsBatch by decide), dif_pos (show (1 : Fin S256x256.rank) ∈ dot_S4096x256_S256x256_S4096x256_1_0_0_1_n_n.rhsNonContracting by decide)]
  rfl

/-- Adjacency product, left operand, axis 0: the result's row. -/
theorem lhs_adj_0 (i : S256x256.Idx) (q : dot_S256x4096_S4096x256_S256x256_1_0_0_1_n_n.contr.Idx) :
    (dot_S256x4096_S4096x256_S256x256_1_0_0_1_n_n.lhsIdx i q 0).val = (i 0).val := by
  unfold DotDims.lhsIdx
  rw [dif_neg (show ¬(0 : Fin S256x4096.rank) ∈ dot_S256x4096_S4096x256_S256x256_1_0_0_1_n_n.lhsBatch by decide), dif_pos (show (0 : Fin S256x4096.rank) ∈ dot_S256x4096_S4096x256_S256x256_1_0_0_1_n_n.lhsNonContracting by decide)]
  rfl
/-- Adjacency product, left operand, axis 1: the contracted position. -/
theorem lhs_adj_1 (i : S256x256.Idx) (q : dot_S256x4096_S4096x256_S256x256_1_0_0_1_n_n.contr.Idx) :
    (dot_S256x4096_S4096x256_S256x256_1_0_0_1_n_n.lhsIdx i q 1).val = (q ⟨0, by decide⟩).val :=
  dot_S256x4096_S4096x256_S256x256_1_0_0_1_n_n.lhsIdx_val_of_single rfl i q
/-- Adjacency product, right operand, axis 0: the contracted position. -/
theorem rhs_adj_0 (i : S256x256.Idx) (q : dot_S256x4096_S4096x256_S256x256_1_0_0_1_n_n.contr.Idx) :
    (dot_S256x4096_S4096x256_S256x256_1_0_0_1_n_n.rhsIdx i q 0).val = (q ⟨0, by decide⟩).val :=
  dot_S256x4096_S4096x256_S256x256_1_0_0_1_n_n.rhsIdx_val_of_single rfl i q
/-- Adjacency product, right operand, axis 1: the result's column. -/
theorem rhs_adj_1 (i : S256x256.Idx) (q : dot_S256x4096_S4096x256_S256x256_1_0_0_1_n_n.contr.Idx) :
    (dot_S256x4096_S4096x256_S256x256_1_0_0_1_n_n.rhsIdx i q 1).val = (i 1).val := by
  unfold DotDims.rhsIdx
  rw [dif_neg (show ¬(1 : Fin S4096x256.rank) ∈ dot_S256x4096_S4096x256_S256x256_1_0_0_1_n_n.rhsBatch by decide), dif_pos (show (1 : Fin S4096x256.rank) ∈ dot_S256x4096_S4096x256_S256x256_1_0_0_1_n_n.rhsNonContracting by decide)]
  rfl

/-! ## The two products at an index -/

/-- The support product with a zero accumulator, entry (k, q): the sum over the 256 input features j of x(k, j) · w(j, q). -/
theorem matmul_sup_apply (x : FVec Ideal S4096x256 .f32) (w : FVec Ideal S256x256 .f32) (k : Fin 4096) (q' : Fin 256) :
    matmul dot_S4096x256_S256x256_S4096x256_1_0_0_1_n_n none x w (constant (F := Ideal) S4096x256 .f32 0x00000000#32) (ix2 k q')
      = ∑ j : Fin 256, x (ix2 k j) * w (ix2 j q') := by
  show FloatOps.matmul dot_S4096x256_S256x256_S4096x256_1_0_0_1_n_n none x w (constant S4096x256 .f32 0x00000000#32) (ix2 k q') = _
  rw [Ideal.matmul_constant_zero_apply, ← Equiv.sum_comp (contrEquiv1 dot_S4096x256_S256x256_S4096x256_1_0_0_1_n_n 256 rfl rfl).symm]
  refine Finset.sum_congr rfl fun j _ => ?_
  have hk := contrEquiv1_symm_val dot_S4096x256_S256x256_S4096x256_1_0_0_1_n_n 256 rfl rfl j
  have el : dot_S4096x256_S256x256_S4096x256_1_0_0_1_n_n.lhsIdx (ix2 k q') ((contrEquiv1 dot_S4096x256_S256x256_S4096x256_1_0_0_1_n_n 256 rfl rfl).symm j) = ix2 k j := funext fun a => Fin.ext (by
    match a with
    | ⟨0, _⟩ => exact lhs_sup_0 _ _
    | ⟨1, _⟩ => exact (lhs_sup_1 _ _).trans hk)
  have er : dot_S4096x256_S256x256_S4096x256_1_0_0_1_n_n.rhsIdx (ix2 k q') ((contrEquiv1 dot_S4096x256_S256x256_S4096x256_1_0_0_1_n_n 256 rfl rfl).symm j) = ix2 j q' := funext fun a => Fin.ext (by
    match a with
    | ⟨0, _⟩ => exact (rhs_sup_0 _ _).trans hk
    | ⟨1, _⟩ => exact rhs_sup_1 _ _)
  rw [el, er]

/-- The adjacency product with a zero accumulator, entry (p, q): the sum over the 4096 nodes k of a(p, k) · s(k, q). -/
theorem matmul_adj_apply (a : FVec Ideal S256x4096 .f32) (s : FVec Ideal S4096x256 .f32) (p : Fin 256) (q' : Fin 256) :
    matmul dot_S256x4096_S4096x256_S256x256_1_0_0_1_n_n none a s (constant (F := Ideal) S256x256 .f32 0x00000000#32) (ix2 p q')
      = ∑ k : Fin 4096, a (ix2 p k) * s (ix2 k q') := by
  show FloatOps.matmul dot_S256x4096_S4096x256_S256x256_1_0_0_1_n_n none a s (constant S256x256 .f32 0x00000000#32) (ix2 p q') = _
  rw [Ideal.matmul_constant_zero_apply, ← Equiv.sum_comp (contrEquiv1 dot_S256x4096_S4096x256_S256x256_1_0_0_1_n_n 4096 rfl rfl).symm]
  refine Finset.sum_congr rfl fun k _ => ?_
  have hk := contrEquiv1_symm_val dot_S256x4096_S4096x256_S256x256_1_0_0_1_n_n 4096 rfl rfl k
  have el : dot_S256x4096_S4096x256_S256x256_1_0_0_1_n_n.lhsIdx (ix2 p q') ((contrEquiv1 dot_S256x4096_S4096x256_S256x256_1_0_0_1_n_n 4096 rfl rfl).symm k) = ix2 p k := funext fun ax => Fin.ext (by
    match ax with
    | ⟨0, _⟩ => exact lhs_adj_0 _ _
    | ⟨1, _⟩ => exact (lhs_adj_1 _ _).trans hk)
  have er : dot_S256x4096_S4096x256_S256x256_1_0_0_1_n_n.rhsIdx (ix2 p q') ((contrEquiv1 dot_S256x4096_S4096x256_S256x256_1_0_0_1_n_n 4096 rfl rfl).symm k) = ix2 k q' := funext fun ax => Fin.ext (by
    match ax with
    | ⟨0, _⟩ => exact (rhs_adj_0 _ _).trans hk
    | ⟨1, _⟩ => exact rhs_adj_1 _ _)
  rw [el, er]

/-! ## The three stored values at an index -/

/-- What the first point of each group of four stores whole into the carried buffer: the support product (the cast to
    the same shape changes nothing). -/
theorem pay1_apply (x : Vec Ideal S4096x256 .f32) (w : Vec Ideal S256x256 .f32) (k : Fin 4096) (q' : Fin 256) :
    k0_pay1 (F := Ideal) x w (ix2 k q') = ∑ j : Fin 256, x (ix2 k j) * w (ix2 j q') := by
  unfold k0_pay1
  rw [shapeCast_self]
  exact matmul_sup_apply x w k q'

/-- What every point stores into the upper half of its output block: the adjacency block times the carried buffer, plus
    the bias row broadcast down the 256 rows. -/
theorem pay2_apply (a : Vec Ideal S256x4096 .f32) (s : Vec Ideal S4096x256 .f32) (b : Vec Ideal S1x256 .f32) (p : Fin 256) (q' : Fin 256) :
    k0_pay2 (F := Ideal) a s b (ix2 p q') = (∑ k : Fin 4096, a (ix2 p k) * s (ix2 k q')) + b (ix2 (0 : Fin 1) q') := by
  unfold k0_pay2
  rw [addf_apply, broadcastTo_1b_ab_apply, shapeCast_self]
  exact congrArg (· + b (ix2 (0 : Fin 1) q')) (matmul_adj_apply a s p q')

/-- The lower half: the same function of the second adjacency block. -/
theorem pay3_apply (a : Vec Ideal S256x4096 .f32) (s : Vec Ideal S4096x256 .f32) (b : Vec Ideal S1x256 .f32) (p : Fin 256) (q' : Fin 256) :
    k0_pay3 (F := Ideal) a s b (ix2 p q') = (∑ k : Fin 4096, a (ix2 p k) * s (ix2 k q')) + b (ix2 (0 : Fin 1) q') := by
  unfold k0_pay3
  rw [addf_apply, broadcastTo_1b_ab_apply, shapeCast_self]
  exact congrArg (· + b (ix2 (0 : Fin 1) q')) (matmul_adj_apply a s p q')

/-! ## What the region finds in the arrays

The one host operation before the region reshapes the bias from [256] to a [1, 256] row; the four arguments are not
written by it. -/

section Entry

variable {F : FTy → Type} [FloatOps F]
variable (m : (ℓ : Loc nD τ sig) → Buf (Elt F) ℓ)

/-- The node features as the region finds them: the launch contents. -/
theorem V1_main_arg0 (c : Dev nD) : V1 m c main_arg0 = m ((c.tc : Thread nD τ).loc main_arg0) := by
  dsimp only [V1, W1, W0, Gen.hostOps0]; after_results
/-- The adjacency as the region finds it: the launch contents. -/
theorem V1_main_arg1 (c : Dev nD) : V1 m c main_arg1 = m ((c.tc : Thread nD τ).loc main_arg1) := by
  dsimp only [V1, W1, W0, Gen.hostOps0]; after_results
/-- The weight as the region finds it: the launch contents. -/
theorem V1_main_arg2 (c : Dev nD) : V1 m c main_arg2 = m ((c.tc : Thread nD τ).loc main_arg2) := by
  dsimp only [V1, W1, W0, Gen.hostOps0]; after_results

/-- The bias row as the region finds it: entry (0, q) of the [1, 256] row is entry q of the bias (the same row-major
    position). -/
theorem V1_main_v0_apply (c : Dev nD) (u : Fin 1) (q' : Fin 256) :
    (V1 m c main_v0 : S1x256.Idx → Elt F .f32) (ix2 u q') = (m ((c.tc : Thread nD τ).loc main_arg3) : S256.Idx → Elt F .f32) (ix1 q') := by
  have e : (V1 m c main_v0 : S1x256.Idx → Elt F .f32)
      = shapeCast S1x256 (m ((c.tc : Thread nD τ).loc main_arg3) : S256.Idx → Elt F .f32) shapeCasts_S256_S1x256 := by
    dsimp only [V1, W1, W0, Gen.hostOps0]; after_results; rfl
  rw [e]
  exact shapeCast_a_1a_apply _ _ u q'

end Entry

/-! ## Where each window's block sits in its array

A block's coordinate on an axis is its block index times the block's size plus the coordinate inside the block. At point
t (of the 8, in order) the first adjacency window is on block row 2t and the second on block row 2t + 1, both of 256
rows: together rows 512·t … 512·t + 511 of the adjacency; the result window is on block row t of 512 rows. The node
features, the weight and the bias row are whole-array windows at block index 0. -/

/-- First adjacency window: block row 2t, block column 0. -/
theorem index2 : ∀ t : Fin cfg0.N, win0_2.index t (0 : Fin 2) = 2 * t.val ∧ win0_2.index t (1 : Fin 2) = 0 :=
  (by decide +kernel : ∀ t : Fin grid0.N, win0_2.index t (0 : Fin 2) = 2 * t.val ∧ win0_2.index t (1 : Fin 2) = 0)
/-- Second adjacency window: block row 2t + 1, block column 0. -/
theorem index3 : ∀ t : Fin cfg0.N, win0_3.index t (0 : Fin 2) = 2 * t.val + 1 ∧ win0_3.index t (1 : Fin 2) = 0 :=
  (by decide +kernel : ∀ t : Fin grid0.N, win0_3.index t (0 : Fin 2) = 2 * t.val + 1 ∧ win0_3.index t (1 : Fin 2) = 0)
/-- Result window: block row t, block column 0. -/
theorem index5 : ∀ t : Fin cfg0.N, win0_5.index t (0 : Fin 2) = t.val ∧ win0_5.index t (1 : Fin 2) = 0 :=
  (by decide +kernel : ∀ t : Fin grid0.N, win0_5.index t (0 : Fin 2) = t.val ∧ win0_5.index t (1 : Fin 2) = 0)
/-- Node features, weight and bias row: block (0, 0) at every point. -/
theorem index0 : ∀ t : Fin cfg0.N, win0_0.index t (0 : Fin 2) = 0 ∧ win0_0.index t (1 : Fin 2) = 0 :=
  (by decide +kernel : ∀ t : Fin grid0.N, win0_0.index t (0 : Fin 2) = 0 ∧ win0_0.index t (1 : Fin 2) = 0)
theorem index1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem index4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

section Blocks

variable {F : FTy → Type} [FloatOps F]
variable (V : (c : Dev nD) → (b : Ref sig .tc) → Buf (Elt F) ((c : Thread nD τ).loc b))

/-- The node-features window's block is the whole array. -/
theorem blk0_apply (c : Dev nD) (t : Fin cfg0.N) (k : Fin 4096) (j : Fin 256) :
    (iblk V c 0 t : Vec F S4096x256 .f32) (ix2 k j) = (V c main_arg0 : S4096x256.Idx → Elt F .f32) (ix2 k j) := by
  have hi := index0 t
  unfold iblk
  rw [View.read_apply]
  show V c main_arg0 _ = V c main_arg0 _
  congr 1
  funext a
  apply Fin.ext
  match a with
  | ⟨0, _⟩ => show win0_0.index t 0 * 4096 + 1 * k.val = k.val; rw [hi.1]; omega
  | ⟨1, _⟩ => show win0_0.index t 1 * 256 + 1 * j.val = j.val; rw [hi.2]; omega

/-- The weight window's block is the whole array. -/
theorem blk1_apply (c : Dev nD) (t : Fin cfg0.N) (j : Fin 256) (q' : Fin 256) :
    (iblk V c 1 t : Vec F S256x256 .f32) (ix2 j q') = (V c main_arg2 : S256x256.Idx → Elt F .f32) (ix2 j q') := by
  have hi := index1 t
  unfold iblk
  rw [View.read_apply]
  show V c main_arg2 _ = V c main_arg2 _
  congr 1
  funext a
  apply Fin.ext
  match a with
  | ⟨0, _⟩ => show win0_1.index t 0 * 256 + 1 * j.val = j.val; rw [hi.1]; omega
  | ⟨1, _⟩ => show win0_1.index t 1 * 256 + 1 * q'.val = q'.val; rw [hi.2]; omega

/-- The first adjacency window's block row p is adjacency row 512·t + p. -/
theorem blk2_apply (c : Dev nD) (t : Fin cfg0.N) (p : Fin 256) (k : Fin 4096) (r : Fin 4096) (hr : r.val = 512 * t.val + p.val) :
    (iblk V c 2 t : Vec F S256x4096 .f32) (ix2 p k) = (V c main_arg1 : S4096x4096.Idx → Elt F .f32) (ix2 r k) := by
  have hi := index2 t
  unfold iblk
  rw [View.read_apply]
  show V c main_arg1 _ = V c main_arg1 _
  congr 1
  funext a
  apply Fin.ext
  match a with
  | ⟨0, _⟩ => show win0_2.index t 0 * 256 + 1 * p.val = r.val; rw [hi.1, hr]; omega
  | ⟨1, _⟩ => show win0_2.index t 1 * 4096 + 1 * k.val = k.val; rw [hi.2]; omega

/-- The second adjacency window's block row p is adjacency row 512·t + 256 + p. -/
theorem blk3_apply (c : Dev nD) (t : Fin cfg0.N) (p : Fin 256) (k : Fin 4096) (r : Fin 4096) (hr : r.val = 512 * t.val + 256 + p.val) :
    (iblk V c 3 t : Vec F S256x4096 .f32) (ix2 p k) = (V c main_arg1 : S4096x4096.Idx → Elt F .f32) (ix2 r k) := by
  have hi := index3 t
  unfold iblk
  rw [View.read_apply]
  show V c main_arg1 _ = V c main_arg1 _
  congr 1
  funext a
  apply Fin.ext
  match a with
  | ⟨0, _⟩ => show win0_3.index t 0 * 256 + 1 * p.val = r.val; rw [hi.1, hr]; omega
  | ⟨1, _⟩ => show win0_3.index t 1 * 4096 + 1 * k.val = k.val; rw [hi.2]; omega

/-- The bias-row window's block is the whole [1, 256] row. -/
theorem blk4_apply (c : Dev nD) (t : Fin cfg0.N) (u : Fin 1) (q' : Fin 256) :
    (iblk V c 4 t : Vec F S1x256 .f32) (ix2 u q') = (V c main_v0 : S1x256.Idx → Elt F .f32) (ix2 u q') := by
  have hi := index4 t
  unfold iblk
  rw [View.read_apply]
  show V c main_v0 _ = V c main_v0 _
  congr 1
  funext a
  apply Fin.ext
  match a with
  | ⟨0, _⟩ => show win0_4.index t 0 * 1 + 1 * u.val = u.val; rw [hi.1]; omega
  | ⟨1, _⟩ => show win0_4.index t 1 * 256 + 1 * q'.val = q'.val; rw [hi.2]; omega

/-- The result window's block at point t, read off ANY contents G of the result array: block row p' is array row 512·t + p'. -/
theorem blk5_read_apply (c : Dev nD) (t : Fin cfg0.N) (G : Buf (Elt F) ((c : Thread nD τ).loc main_v1)) (p' : Fin 512) (q' : Fin 256)
    (r : Fin 4096) (hr : r.val = 512 * t.val + p'.val) :
    (((cfg0.win 5).blk t).view.read (Elt F) G : Vec F S512x256 .f32) (ix2 p' q') = (G : S4096x256.Idx → Elt F .f32) (ix2 r q') := by
  have hi := index5 t
  rw [View.read_apply]
  show G _ = G _
  congr 1
  funext a
  apply Fin.ext
  match a with
  | ⟨0, _⟩ => show win0_5.index t 0 * 512 + 1 * p'.val = r.val; rw [hi.1, hr]; omega
  | ⟨1, _⟩ => show win0_5.index t 1 * 256 + 1 * q'.val = q'.val; rw [hi.2]; omega

end Blocks

end Cert.KernelIdeal.Hand

end
-- ==== Proof.KI.Cover.lean ====
/-
  The fused region's result window tiles the result array.

  The grid has 2 × 4 = 8 points, numbered t = 4·c + i. The result window's block at point t is rows
  512·t … 512·t + 511 of the 4096 × 256 result, all 256 columns, and it is written back at every point. So row r
  of the result lies in the block of point r / 512, and the eight blocks cover every entry.
-/
import proofs.«107922_g2000603260507787_pallasbulk_1139_8_alg».proof.Proof.KI.Entry
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

/-- The result window's block index at point `t`: row block `t`, column block 0. Decided over the 8 points. -/
theorem idx_facts0_5 : ∀ t : Fin cfg0.N, win0_5.index t (0 : Fin 2) = t.val ∧ win0_5.index t (1 : Fin 2) = 0 :=
  (by decide +kernel : ∀ t : Fin grid0.N, win0_5.index t (0 : Fin 2) = t.val ∧ win0_5.index t (1 : Fin 2) = 0)

/-- An entry of the result array is in point `t`'s block iff, on each axis, its coordinate is within the block's
    extent (512 rows, 256 columns) starting at the extent times the block index. -/
theorem mem_blk0_5 (t : Fin cfg0.N) (i : S4096x256.Idx) :
    i ∈ ((cfg0.win 5).blk t).view.set ↔ ∀ a : Fin 2, win0_5.index t a * S512x256.size a ≤ (i a).val ∧ (i a).val < win0_5.index t a * S512x256.size a + S512x256.size a := by
  show i ∈ ((View.whole main_v1).slice (win0_5.rect t)).set ↔ _
  rw [View.set_slice_whole, Rect.mem_set_unit]
  exact Iff.rfl

/-- Every entry of the result array is in the block some point writes back: row `r` in that of point r / 512. -/
theorem cover0_5 (c : Dev nD) : ∀ i : (((cfg0.win 5).arr.view.loc (c.tc : Thread nD τ)).2.ty.Idx),
    ∃ t : Fin cfg0.N, (cfg0.win 5).flush t = true ∧ i ∈ ((cfg0.win 5).blk t).view.set := by
  show ∀ i : S4096x256.Idx, _
  intro i
  have hN : grid0.N = 8 := N_0
  have hi0 : (i 0).val < 4096 := idx2_lt0 i
  have hi1 : (i 1).val < 256 := idx2_lt1 i
  have ht : (i 0).val / 512 < cfg0.N := by show _ < grid0.N; rw [hN]; omega
  refine ⟨⟨(i 0).val / 512, ht⟩, flush0_5 _, ?_⟩
  rw [mem_blk0_5]
  obtain ⟨e0, e1⟩ := idx_facts0_5 ⟨(i 0).val / 512, ht⟩
  have e0' : win0_5.index ⟨(i 0).val / 512, ht⟩ (0 : Fin 2) = (i 0).val / 512 := e0
  intro a
  match a with
  | ⟨0, _⟩ =>
    show win0_5.index ⟨(i 0).val / 512, ht⟩ (0 : Fin 2) * 512 ≤ (i 0).val ∧ (i 0).val < win0_5.index ⟨(i 0).val / 512, ht⟩ (0 : Fin 2) * 512 + 512
    rw [e0']; omega
  | ⟨1, _⟩ =>
    show win0_5.index ⟨(i 0).val / 512, ht⟩ (1 : Fin 2) * 256 ≤ (i 1).val ∧ (i 1).val < win0_5.index ⟨(i 0).val / 512, ht⟩ (1 : Fin 2) * 256 + 256
    rw [e1]; omega

end Cert.KernelIdeal.Hand

end
-- ==== Proof.KI.Value.lean ====
/-
  The value of the fused graph-convolution region at the ideal values.

  The region runs 8 points in order. At the points that are multiples of four the body first writes the support
  matrix x · w over the whole carried buffer; at every point it then writes its output block, rows 512·t … 512·t + 511
  of the result, as two halves of 256 rows: each half is one 256-row block of the adjacency times the carried buffer,
  plus the bias row on every row. Two facts by induction on the point: the carried buffer holds the support matrix
  after EVERY point (a multiple of four writes it, any other point keeps what the point before left), and so the
  output block after point t is rows 512·t … of the layer's result adj · (x · w) + b. The eight blocks are written
  back to disjoint row ranges that cover the result array, which therefore ends holding the layer's result.
-/
import proofs.«107922_g2000603260507787_pallasbulk_1139_8_alg».proof.Proof.KI.Frame
import proofs.«107922_g2000603260507787_pallasbulk_1139_8_alg».proof.Proof.KI.Pieces
import proofs.«107922_g2000603260507787_pallasbulk_1139_8_alg».proof.Proof.KI.ValueLemmas
import proofs.«107922_g2000603260507787_pallasbulk_1139_8_alg».proof.Proof.KI.Cover
import proofs.«107922_g2000603260507787_pallasbulk_1139_8_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx
open scoped BigOperators

/-! ## What each case of the body leaves, as values (any float instance) -/

section Found

variable {F : FTy → Type} [FloatOps F]

/-- Where the condition holds the carried buffer is left at the support product of the loaded node features and weight. -/
theorem sout_A_eq (c : Dev nD) (i : grid0.Coords) (arg2 : Memref sig .tc .vmem S4096x256 .f32) (harg2 : arg2.IsWhole) (arg3 : Memref sig .tc .vmem S256x256 .f32) (harg3 : arg3.IsWhole) (arg4 : Memref sig .tc .vmem S256x4096 .f32) (harg4 : arg4.IsWhole) (arg5 : Memref sig .tc .vmem S256x4096 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S4096x256 .f32) (harg8 : arg8.IsWhole) (hc0 : cond0_0 i) (x0 : Vec F S4096x256 .f32) (x1 : Vec F S256x256 .f32) (x2 : Vec F S256x4096 .f32) (x3 : Vec F S256x4096 .f32) (x4 : Vec F S1x256 .f32) :
    sout_A c i arg2 harg2 arg3 harg3 arg4 harg4 arg5 harg5 arg6 harg6 arg7 harg7 arg8 harg8 hc0 x0 x1 x2 x3 x4 = k0_pay1 x0 x1 := by
  unfold sout_A
  rw [View.read_writes_eq_canon _ _ _ (scover_A c i arg2 harg2 arg3 harg3 arg4 harg4 arg5 harg5 arg6 harg6 arg7 harg7 arg8 harg8 hc0 x0 x1 x2 x3 x4)]
  exact spieces_A c i arg2 harg2 arg3 harg3 arg4 harg4 arg5 harg5 arg6 harg6 arg7 harg7 arg8 harg8 hc0 x0 x1 x2 x3 x4

/-- Where the condition holds the output block is left at its two halves over the support product just written. -/
theorem out_A_5_eq (c : Dev nD) (i : grid0.Coords) (arg2 : Memref sig .tc .vmem S4096x256 .f32) (harg2 : arg2.IsWhole) (arg3 : Memref sig .tc .vmem S256x256 .f32) (harg3 : arg3.IsWhole) (arg4 : Memref sig .tc .vmem S256x4096 .f32) (harg4 : arg4.IsWhole) (arg5 : Memref sig .tc .vmem S256x4096 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S4096x256 .f32) (harg8 : arg8.IsWhole) (hc0 : cond0_0 i) (x0 : Vec F S4096x256 .f32) (x1 : Vec F S256x256 .f32) (x2 : Vec F S256x4096 .f32) (x3 : Vec F S256x4096 .f32) (x4 : Vec F S1x256 .f32) :
    out_A_5 c i arg2 harg2 arg3 harg3 arg4 harg4 arg5 harg5 arg6 harg6 arg7 harg7 arg8 harg8 hc0 x0 x1 x2 x3 x4 = halves (k0_pay2 x2 (k0_pay1 x0 x1) x4) (k0_pay3 x3 (k0_pay1 x0 x1) x4) := by
  unfold out_A_5
  rw [View.read_writes_eq_canon _ _ _ (cover_A_5 c i arg2 harg2 arg3 harg3 arg4 harg4 arg5 harg5 arg6 harg6 arg7 harg7 arg8 harg8 hc0 x0 x1 x2 x3 x4)]
  exact pieces_A c i arg2 harg2 arg3 harg3 arg4 harg4 arg5 harg5 arg6 harg6 arg7 harg7 arg8 harg8 hc0 x0 x1 x2 x3 x4 (cover_A_5 c i arg2 harg2 arg3 harg3 arg4 harg4 arg5 harg5 arg6 harg6 arg7 harg7 arg8 harg8 hc0 x0 x1 x2 x3 x4)

/-- Where the condition fails the output block is left at its two halves over the carried buffer as it came in. -/
theorem out_B_5_eq (c : Dev nD) (i : grid0.Coords) (arg2 : Memref sig .tc .vmem S4096x256 .f32) (harg2 : arg2.IsWhole) (arg3 : Memref sig .tc .vmem S256x256 .f32) (harg3 : arg3.IsWhole) (arg4 : Memref sig .tc .vmem S256x4096 .f32) (harg4 : arg4.IsWhole) (arg5 : Memref sig .tc .vmem S256x4096 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S4096x256 .f32) (harg8 : arg8.IsWhole) (hc0 : ¬cond0_0 i) (x0 : Vec F S4096x256 .f32) (x1 : Vec F S256x256 .f32) (x2 : Vec F S256x4096 .f32) (x3 : Vec F S256x4096 .f32) (x4 : Vec F S1x256 .f32) (xs : Vec F S4096x256 .f32) :
    out_B_5 c i arg2 harg2 arg3 harg3 arg4 harg4 arg5 harg5 arg6 harg6 arg7 harg7 arg8 harg8 hc0 x0 x1 x2 x3 x4 xs = halves (k0_pay2 x2 xs x4) (k0_pay3 x3 xs x4) := by
  unfold out_B_5
  rw [View.read_writes_eq_canon _ _ _ (cover_B_5 c i arg2 harg2 arg3 harg3 arg4 harg4 arg5 harg5 arg6 harg6 arg7 harg7 arg8 harg8 hc0 x0 x1 x2 x3 x4 xs)]
  exact pieces_B c i arg2 harg2 arg3 harg3 arg4 harg4 arg5 harg5 arg6 harg6 arg7 harg7 arg8 harg8 hc0 x0 x1 x2 x3 x4 xs (cover_B_5 c i arg2 harg2 arg3 harg3 arg4 harg4 arg5 harg5 arg6 harg6 arg7 harg7 arg8 harg8 hc0 x0 x1 x2 x3 x4 xs)

variable (V : (c : Dev nD) → (b : Ref sig .tc) → Buf (Elt F) ((c : Thread nD τ).loc b))

/-- The five input blocks at point `t`, at their literal types. -/
abbrev xblk (c : Dev nD) (t : Fin cfg0.N) : Vec F S4096x256 .f32 := iblk V c 0 t
abbrev wblk (c : Dev nD) (t : Fin cfg0.N) : Vec F S256x256 .f32 := iblk V c 1 t
abbrev ablk2 (c : Dev nD) (t : Fin cfg0.N) : Vec F S256x4096 .f32 := iblk V c 2 t
abbrev ablk3 (c : Dev nD) (t : Fin cfg0.N) : Vec F S256x4096 .f32 := iblk V c 3 t
abbrev bblk (c : Dev nD) (t : Fin cfg0.N) : Vec F S1x256 .f32 := iblk V c 4 t

/-- After a point that is a multiple of four: the output block's halves over the support product of the point's blocks,
    and the carried buffer at that product. -/
theorem outsAt_A_val (c : Dev nD) (t : Fin cfg0.N) (h : t.val % 4 = 0) :
    outsAt V c t.val t.isLt
      = (halves (k0_pay2 (ablk2 V c t) (k0_pay1 (xblk V c t) (wblk V c t)) (bblk V c t)) (k0_pay3 (ablk3 V c t) (k0_pay1 (xblk V c t) (wblk V c t)) (bblk V c t)),
          k0_pay1 (xblk V c t) (wblk V c t)) := by
  rw [outsAt_A V c t h]
  exact congrArg₂ Prod.mk
    (out_A_5_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h) (xblk V c t) (wblk V c t) (ablk2 V c t) (ablk3 V c t) (bblk V c t))
    (sout_A_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h) (xblk V c t) (wblk V c t) (ablk2 V c t) (ablk3 V c t) (bblk V c t))

/-- After any other point: the output block's halves over what the point before left in the carried buffer, which stays. -/
theorem outsAt_B_val (c : Dev nD) (t : Fin cfg0.N) (h : ¬t.val % 4 = 0) :
    outsAt V c t.val t.isLt
      = (halves (k0_pay2 (ablk2 V c t) (outsAt V c (t.val - 1) (Nat.lt_of_le_of_lt (Nat.sub_le _ _) t.isLt)).2 (bblk V c t))
            (k0_pay3 (ablk3 V c t) (outsAt V c (t.val - 1) (Nat.lt_of_le_of_lt (Nat.sub_le _ _) t.isLt)).2 (bblk V c t)),
          (outsAt V c (t.val - 1) (Nat.lt_of_le_of_lt (Nat.sub_le _ _) t.isLt)).2) := by
  rw [outsAt_B V c t h]
  exact congrArg₂ Prod.mk
    (out_B_5_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h' => h ((hcond0_0 t).mp h')) (xblk V c t) (wblk V c t) (ablk2 V c t) (ablk3 V c t) (bblk V c t)
      (outsAt V c (t.val - 1) (Nat.lt_of_le_of_lt (Nat.sub_le _ _) t.isLt)).2)
    rfl

end Found

/-! ## At the ideal values -/

section Value

variable (V : (c : Dev nD) → (b : Ref sig .tc) → Buf (Elt Ideal) ((c : Thread nD τ).loc b))

/-- The arrays as the region finds them, at their literal types: node features, adjacency, weight, bias row. -/
abbrev xarr (c : Dev nD) : Vec Ideal S4096x256 .f32 := V c main_arg0
abbrev aarr (c : Dev nD) : Vec Ideal S4096x4096 .f32 := V c main_arg1
abbrev warr (c : Dev nD) : Vec Ideal S256x256 .f32 := V c main_arg2
abbrev brow (c : Dev nD) : Vec Ideal S1x256 .f32 := V c main_v0

/-- The support matrix of the arrays as found. -/
abbrev supp (c : Dev nD) : Vec Ideal S4096x256 .f32 := Cert.Spec.support (xarr V c) (warr V c)

/-- The layer's result over the arrays as found, the bias read off its [1, 256] row: entry (r, q) is
    (∑ k, adj(r, k) · support(k, q)) + row(0, q). -/
def layer (c : Dev nD) : Vec Ideal S4096x256 .f32 := fun i =>
  (∑ k : Fin 4096, aarr V c (ix2 (i 0) k) * supp V c (ix2 k (i 1))) + brow V c (ix2 (0 : Fin 1) (i 1))

theorem layer_apply (c : Dev nD) (r : Fin 4096) (q' : Fin 256) :
    layer V c (ix2 r q') = (∑ k : Fin 4096, aarr V c (ix2 r k) * supp V c (ix2 k q')) + brow V c (ix2 (0 : Fin 1) q') := rfl

/-- The support product of the node-features and weight windows' blocks (the whole arrays) is the support matrix. -/
theorem pay1_blocks (c : Dev nD) (t : Fin cfg0.N) : k0_pay1 (F := Ideal) (xblk V c t) (wblk V c t) = supp V c := by
  funext i
  obtain ⟨k, q', rfl⟩ : ∃ (k : Fin 4096) (q' : Fin 256), i = ix2 k q' := ⟨i 0, i 1, eq_ix2 i⟩
  refine (pay1_apply (xblk V c t) (wblk V c t) k q').trans ?_
  refine (Finset.sum_congr rfl fun j _ => ?_).trans (Cert.Spec.support_apply (xarr V c) (warr V c) k q').symm
  exact congrArg₂ (· * ·) (blk0_apply V c t k j) (blk1_apply V c t j q')

/-- THE CARRIED BUFFER holds the support matrix after every point: a multiple of four writes it, any other point keeps
    what the point before left. -/
theorem scratch_inv (c : Dev nD) : ∀ (n : ℕ) (hn : n < cfg0.N), (outsAt V c n hn).2 = supp V c
  | 0, hn => by
    rw [outsAt_A_val V c ⟨0, hn⟩ (Nat.zero_mod 4)]
    exact pay1_blocks V c ⟨0, hn⟩
  | n + 1, hn => by
    by_cases h : (n + 1) % 4 = 0
    · rw [outsAt_A_val V c ⟨n + 1, hn⟩ h]
      exact pay1_blocks V c ⟨n + 1, hn⟩
    · rw [outsAt_B_val V c ⟨n + 1, hn⟩ h]
      exact scratch_inv c n (Nat.lt_of_succ_lt hn)

/-- Over a carried buffer at the support matrix, the two halves the body stores at point t are rows 512·t … 512·t + 511
    of the layer's result: the upper half from adjacency rows 512·t + p, the lower from rows 512·t + 256 + p. -/
theorem halves_eq_layer (c : Dev nD) (t : Fin cfg0.N) (s : Vec Ideal S4096x256 .f32) (hs : s = supp V c)
    (p' : Fin 512) (q' : Fin 256) (r : Fin 4096) (hr : r.val = 512 * t.val + p'.val) :
    halves (k0_pay2 (F := Ideal) (ablk2 V c t) s (bblk V c t)) (k0_pay3 (F := Ideal) (ablk3 V c t) s (bblk V c t)) (ix2 p' q')
      = layer V c (ix2 r q') := by
  subst hs
  rw [layer_apply]
  have hp5 : p'.val < 512 := p'.isLt
  by_cases hp : p'.val < 256
  · refine (halves_top_apply _ _ (⟨p'.val, hp⟩ : Fin 256) q' p' rfl).trans ?_
    refine (pay2_apply (ablk2 V c t) (supp V c) (bblk V c t) (⟨p'.val, hp⟩ : Fin 256) q').trans ?_
    refine congrArg₂ (· + ·) (Finset.sum_congr rfl fun k _ => ?_) (blk4_apply V c t (0 : Fin 1) q')
    exact congrArg (· * supp V c (ix2 k q')) (blk2_apply V c t (⟨p'.val, hp⟩ : Fin 256) k r hr)
  · refine (halves_bot_apply _ _ (⟨p'.val - 256, by omega⟩ : Fin 256) q' p' (by show p'.val = 256 + (p'.val - 256); omega)).trans ?_
    refine (pay3_apply (ablk3 V c t) (supp V c) (bblk V c t) (⟨p'.val - 256, by omega⟩ : Fin 256) q').trans ?_
    refine congrArg₂ (· + ·) (Finset.sum_congr rfl fun k _ => ?_) (blk4_apply V c t (0 : Fin 1) q')
    exact congrArg (· * supp V c (ix2 k q')) (blk3_apply V c t (⟨p'.val - 256, by omega⟩ : Fin 256) k r (by show r.val = 512 * t.val + 256 + (p'.val - 256); omega))

/-- THE OUTPUT BLOCK after point t is rows 512·t … 512·t + 511 of the layer's result. -/
theorem out_inv (c : Dev nD) (t : Fin cfg0.N) (p' : Fin 512) (q' : Fin 256) (r : Fin 4096) (hr : r.val = 512 * t.val + p'.val) :
    (outsAt V c t.val t.isLt).1 (ix2 p' q') = layer V c (ix2 r q') := by
  by_cases h : t.val % 4 = 0
  · rw [outsAt_A_val V c t h]
    exact halves_eq_layer V c t _ (pay1_blocks V c t) p' q' r hr
  · rw [outsAt_B_val V c t h]
    exact halves_eq_layer V c t _ (scratch_inv V c (t.val - 1) _) p' q' r hr

/-- What point t writes back is block t of the layer's result. -/
theorem flushed_eq (q : Fin cfg0.W → PosShare TreeShare) (c : Dev nD) (t : Fin cfg0.N) :
    (dat V q c).flushed 5 t = ((cfg0.win 5).blk t).view.read (Elt Ideal) (layer V c) := by
  show (cfg0.win 5).cut (grid0.coords t) ((dat V q c).after 5 t) = _
  rw [after_5]
  refine funext fun (y : S512x256.Idx) => ?_
  obtain ⟨p', q', rfl⟩ : ∃ (p' : Fin 512) (q' : Fin 256), y = ix2 p' q' := ⟨y 0, y 1, eq_ix2 y⟩
  have hN : t.val < 8 := lt_of_lt_of_eq t.isLt N_0
  have hp : p'.val < 512 := p'.isLt
  refine Eq.trans ?_ (blk5_read_apply c t (layer V c) p' q' (⟨512 * t.val + p'.val, by omega⟩ : Fin 4096) rfl).symm
  exact out_inv V c t p' q' (⟨512 * t.val + p'.val, by omega⟩ : Fin 4096) rfl

/-- So the result array ends holding the layer's result over the arrays as found. -/
theorem final_layer (q : Fin cfg0.W → PosShare TreeShare) (c : Dev nD) : (dat V q c).arrAt 5 cfg0.N = layer V c :=
  (dat V q c).arrAt_eq_of_cover 5 (layer V c) (fun t _ => flushed_eq V q c t) (cover0_5 c)

end Value

/-! ## The result over the launch contents -/

/-- After the eight write-backs the result array holds, at (r, q), (∑ k, adj(r, k) · (∑ j, x(k, j) · w(j, q))) + b(q)
    of the launch contents: the one host operation before the region only reshapes the bias to the row the body reads. -/
theorem result_eq (m : (ℓ : Loc nD τ sig) → Buf (Elt Ideal) ℓ) (q : Fin cfg0.W → PosShare TreeShare) (c : Dev nD) :
    (dat (F := Ideal) (V1 m) q c).arrAt 5 cfg0.N
      = Cert.Spec.gcn (m ((c.tc : Thread nD τ).loc main_arg0)) (m ((c.tc : Thread nD τ).loc main_arg1))
          (m ((c.tc : Thread nD τ).loc main_arg2)) (m ((c.tc : Thread nD τ).loc main_arg3)) := by
  refine (final_layer (V1 m) q c).trans ?_
  funext i
  obtain ⟨r, q', rfl⟩ : ∃ (r : Fin 4096) (q' : Fin 256), i = ix2 r q' := ⟨i 0, i 1, eq_ix2 i⟩
  rw [layer_apply, Cert.Spec.gcn_apply]
  have e0 : xarr (V1 m) c = m ((c.tc : Thread nD τ).loc main_arg0) := V1_main_arg0 m c
  have e1 : aarr (V1 m) c = m ((c.tc : Thread nD τ).loc main_arg1) := V1_main_arg1 m c
  have e2 : warr (V1 m) c = m ((c.tc : Thread nD τ).loc main_arg2) := V1_main_arg2 m c
  have eb : brow (V1 m) c (ix2 (0 : Fin 1) q') = m ((c.tc : Thread nD τ).loc main_arg3) (ix1 q') := V1_main_v0_apply m c (0 : Fin 1) q'
  have es : supp (V1 m) c = Cert.Spec.support (m ((c.tc : Thread nD τ).loc main_arg0)) (m ((c.tc : Thread nD τ).loc main_arg2)) := by
    show Cert.Spec.support (xarr (V1 m) c) (warr (V1 m) c) = _
    rw [e0, e2]
  rw [eb, es, e1]

end Cert.KernelIdeal.Hand

end
-- ==== Proof.LibScatterSet.lean ====
/-
  A scatter whose body returns the update ("set"), read at one entry of the result.

  The scatter is a left fold over the update indices: each update that lands inside the operand overwrites the entry
  it lands on, the others are dropped.  Read at one entry this is: the update that lands there, when exactly one does;
  the operand's entry, when none does.
-/
import Idealize.ShloMosaic.PureOps.ShapeOps

namespace Idealize.ShloMosaic.ScatterSet

open Idealize.ShloMosaic

section fold

variable {ι κ α : Type} [DecidableEq ι]

/-- One overwriting step: update `n` lands at `g n` (nowhere when `none`) and carries the value `v n`. -/
def step (g : κ → Option ι) (v : κ → α) (r : ι → α) (n : κ) : ι → α :=
  match g n with
  | some i => fun i' => if i' = i then v n else r i'
  | none => r

/-- A step that does not land on `i'` leaves that entry alone. -/
theorem step_apply_of_ne (g : κ → Option ι) (v : κ → α) (r : ι → α) (n : κ) (i' : ι) (h : g n ≠ some i') :
    step g v r n i' = r i' := by
  unfold step
  cases hg : g n with
  | none => rfl
  | some i =>
    have hne : i' ≠ i := fun e => h (by rw [hg, e])
    simp only [if_neg hne]

/-- A step that lands on `i'` writes its value there. -/
theorem step_apply_of_eq (g : κ → Option ι) (v : κ → α) (r : ι → α) (n : κ) (i' : ι) (h : g n = some i') :
    step g v r n i' = v n := by
  unfold step
  rw [h]
  simp only [if_true]

/-- Folding steps none of which lands on `i'` leaves that entry alone. -/
theorem foldl_step_miss (g : κ → Option ι) (v : κ → α) (i' : ι) (l : List κ) (x : ι → α)
    (h : ∀ n ∈ l, g n ≠ some i') : l.foldl (step g v) x i' = x i' := by
  induction l generalizing x with
  | nil => rfl
  | cons a t ih =>
    rw [List.foldl_cons, ih (step g v x a) (fun n hn => h n (List.mem_cons_of_mem _ hn))]
    exact step_apply_of_ne g v x a i' (h a List.mem_cons_self)

/-- Folding steps of which `n0`, in the list, lands on `i'` and no other does: the entry holds `n0`'s value. -/
theorem foldl_step_hit (g : κ → Option ι) (v : κ → α) (i' : ι) (n0 : κ) (l : List κ) (x : ι → α)
    (hmem : n0 ∈ l) (hg : g n0 = some i') (huniq : ∀ n ∈ l, g n = some i' → n = n0) :
    l.foldl (step g v) x i' = v n0 := by
  induction l generalizing x with
  | nil => exact absurd hmem List.not_mem_nil
  | cons a t ih =>
    rw [List.foldl_cons]
    by_cases ht : n0 ∈ t
    · exact ih (step g v x a) ht (fun n hn => huniq n (List.mem_cons_of_mem _ hn))
    · have ha : n0 = a := by
        rcases List.mem_cons.1 hmem with e | e
        · exact e
        · exact absurd e ht
      subst ha
      rw [foldl_step_miss g v i' t (step g v x n0) (fun n hn e => ht (huniq n (List.mem_cons_of_mem _ hn) e ▸ hn))]
      exact step_apply_of_eq g v x n0 i' hg

end fold

section scatter

variable {s si u : Shape} {α : Type} {w : Nat}

/-- A scatter whose body returns the update is the fold of the overwriting steps over the update indices in
    row-major order. -/
theorem scatter_set_eq_foldl (d : ScatterDims s si u) (x : s.Idx → α) (idx : IVec si w) (upd : u.Idx → α) :
    Host.scatter d (fun _ b => b) x idx upd
      = (List.finRange u.numel).foldl
          (step (fun n => d.resultIdx? (u.rowMajor.symm n) idx) (fun n => upd (u.rowMajor.symm n))) x := by
  unfold Host.scatter
  congr 1
  funext r n
  unfold step
  dsimp only
  cases d.resultIdx? (u.rowMajor.symm n) idx <;> rfl

/-- An update whose start plus window coordinate is `i`'s coordinate on every axis lands at `i`. -/
theorem resultIdx?_eq_some (d : ScatterDims s si u) (j : u.Idx) (idx : IVec si w) (i : s.Idx)
    (h : ∀ a, d.start j idx a + (d.window j a : Int) = ((i a).val : Int)) : d.resultIdx? j idx = some i := by
  unfold ScatterDims.resultIdx?
  have hin : ∀ a, 0 ≤ d.start j idx a + (d.window j a : Int) ∧ d.start j idx a + (d.window j a : Int) < (s.size a : Int) :=
    fun a => by
      rw [h a]
      exact ⟨Int.natCast_nonneg _, by exact_mod_cast (i a).isLt⟩
  rw [dif_pos hin]
  congr 1
  funext a
  apply Fin.ext
  show (d.start j idx a + (d.window j a : Int)).toNat = (i a).val
  rw [h a]
  exact Int.toNat_natCast _

/-- With every scatter index the zero word, every window starts at offset zero. -/
theorem start_eq_zero (d : ScatterDims s si u) (j : u.Idx) (idx : IVec si w) (hidx : ∀ k, idx k = 0#w) (a : Fin s.rank) :
    d.start j idx a = 0 := by
  unfold ScatterDims.start
  split
  · rw [hidx]; exact BitVec.toInt_zero
  · rfl

/-- With every scatter index the zero word, an update whose window coordinate is `i`'s coordinate on every axis
    lands at `i`. -/
theorem resultIdx?_eq_some_of_window (d : ScatterDims s si u) (j : u.Idx) (idx : IVec si w) (hidx : ∀ k, idx k = 0#w)
    (i : s.Idx) (h : ∀ a, d.window j a = (i a).val) : d.resultIdx? j idx = some i :=
  resultIdx?_eq_some d j idx i (fun a => by rw [start_eq_zero d j idx hidx a, h a, Int.zero_add])

/-- An entry no update lands on keeps the operand's value. -/
theorem scatter_set_apply_of_miss (d : ScatterDims s si u) (x : s.Idx → α) (idx : IVec si w) (upd : u.Idx → α)
    (i' : s.Idx) (h : ∀ j : u.Idx, d.resultIdx? j idx ≠ some i') :
    Host.scatter d (fun _ b => b) x idx upd i' = x i' := by
  rw [scatter_set_eq_foldl]
  exact foldl_step_miss _ _ i' _ x (fun n _ => h (u.rowMajor.symm n))

/-- An entry exactly one update `j` lands on holds that update's value. -/
theorem scatter_set_apply_of_hit (d : ScatterDims s si u) (x : s.Idx → α) (idx : IVec si w) (upd : u.Idx → α)
    (i' : s.Idx) (j : u.Idx) (hj : d.resultIdx? j idx = some i')
    (huniq : ∀ j' : u.Idx, d.resultIdx? j' idx = some i' → j' = j) :
    Host.scatter d (fun _ b => b) x idx upd i' = upd j := by
  rw [scatter_set_eq_foldl]
  have hn0 : u.rowMajor.symm (u.rowMajor j) = j := u.rowMajor.symm_apply_apply j
  have := foldl_step_hit (fun n => d.resultIdx? (u.rowMajor.symm n) idx) (fun n => upd (u.rowMajor.symm n)) i'
    (u.rowMajor j) (List.finRange u.numel) x (List.mem_finRange _) (by simp only [hn0]; exact hj)
    (fun n _ hn => by
      have := huniq _ hn
      rw [← this]; exact (u.rowMajor.apply_symm_apply n).symm)
  rw [this]
  simp only [hn0]

/-- When every update `j` lands at `e j` and `e` is injective: entry `e j` holds update `j`. -/
theorem scatter_set_apply_emb (d : ScatterDims s si u) (x : s.Idx → α) (idx : IVec si w) (upd : u.Idx → α)
    (e : u.Idx → s.Idx) (he : ∀ j, d.resultIdx? j idx = some (e j)) (hinj : Function.Injective e) (j : u.Idx) :
    Host.scatter d (fun _ b => b) x idx upd (e j) = upd j :=
  scatter_set_apply_of_hit d x idx upd (e j) j (he j) (fun j' hj' => by
    rw [he j'] at hj'
    exact hinj (Option.some.inj hj'))

/-- When every update `j` lands at `e j`: an entry outside the image of `e` keeps the operand's value. -/
theorem scatter_set_apply_not_emb (d : ScatterDims s si u) (x : s.Idx → α) (idx : IVec si w) (upd : u.Idx → α)
    (e : u.Idx → s.Idx) (he : ∀ j, d.resultIdx? j idx = some (e j)) (i' : s.Idx) (hi' : ∀ j, e j ≠ i') :
    Host.scatter d (fun _ b => b) x idx upd i' = x i' :=
  scatter_set_apply_of_miss d x idx upd i' (fun j hj => by
    rw [he j] at hj
    exact hi' j (Option.some.inj hj))

end scatter

end Idealize.ShloMosaic.ScatterSet
-- ==== Proof.RI.ValueHost.lean ====
/-
  What the host operations before the first region leave in the padded copies of the four arguments.

  Each copy is made by filling a buffer with zeros and scattering the argument into it with an overwriting body. At
  these shapes nothing is padded: the update window is the whole buffer (features, weight, adjacency), or the whole
  of its single row (bias), so every zero is overwritten and the copy holds exactly the argument's entries.
-/
import proofs.«107922_g2000603260507787_pallasbulk_1139_8_alg».proof.Proof.RI.Entry
import proofs.«107922_g2000603260507787_pallasbulk_1139_8_alg».proof.Proof.LibScatterSet
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Idealize.ShloMosaic.StableHlo
open Cert.ReferenceIdeal Cert.ReferenceIdeal.Gen

variable {F : FTy → Type} [FloatOps F]

/-! ## Where the updates of the four scatters land

Three of the scatters have no scattered axis at all: the index vector is empty, there is ONE update window, it starts at
offset zero on both axes and it is as large as the operand, so update entry `j` lands on operand entry `j`. The fourth
writes a vector of 256 entries as row 0 of a one-row matrix: its single start index is the zero word, the operand's
row axis is inserted (window coordinate 0 there) and the column axis is the update's only axis, so update entry `q`
lands on operand entry (0, q). -/

/-- No scattered axis, a window over both axes (4096 × 256): update entry `j` lands on entry `j`. -/
theorem lands_feat {w : Nat} (idx : IVec S0 w) (j : S4096x256.Idx) :
    scatter_S4096x256_S0_S4096x256_01_n_n_0.resultIdx? j idx = some j :=
  ScatterSet.resultIdx?_eq_some_of_window _ j idx (fun k => (k 0).elim0) j (fun a => by
    match a with
    | ⟨0, _⟩ => rfl
    | ⟨1, _⟩ => rfl)

/-- The same for the 256 × 256 weight. -/
theorem lands_weight {w : Nat} (idx : IVec S0 w) (j : S256x256.Idx) :
    scatter_S256x256_S0_S256x256_01_n_n_0.resultIdx? j idx = some j :=
  ScatterSet.resultIdx?_eq_some_of_window _ j idx (fun k => (k 0).elim0) j (fun a => by
    match a with
    | ⟨0, _⟩ => rfl
    | ⟨1, _⟩ => rfl)

/-- The same for the 4096 × 4096 adjacency. -/
theorem lands_adj {w : Nat} (idx : IVec S0 w) (j : S4096x4096.Idx) :
    scatter_S4096x4096_S0_S4096x4096_01_n_n_0.resultIdx? j idx = some j :=
  ScatterSet.resultIdx?_eq_some_of_window _ j idx (fun k => (k 0).elim0) j (fun a => by
    match a with
    | ⟨0, _⟩ => rfl
    | ⟨1, _⟩ => rfl)

/-- The bias row: with the one start index the zero word, update entry `q` lands on entry (0, q). -/
theorem lands_bias {w : Nat} (idx : IVec S1 w) (hidx : ∀ k, idx k = 0#w) (j : S256.Idx) :
    scatter_S1x256_S1_S256_0_0_0_0.resultIdx? j idx = some (ix2 (0 : Fin 1) (j 0)) :=
  ScatterSet.resultIdx?_eq_some_of_window _ j idx hidx (ix2 (0 : Fin 1) (j 0)) (fun a => by
    match a with
    | ⟨0, _⟩ => rfl
    | ⟨1, _⟩ => rfl)

/-! ## The four scatters as functions

With an overwriting body, a scatter whose updates land one-to-one ONTO the operand returns the update array, whatever the
operand held; the bias scatter returns, in row 0, the bias. -/

theorem scatter_feat {α : Type} {w : Nat} (x upd : S4096x256.Idx → α) (idx : IVec S0 w) :
    Host.scatter scatter_S4096x256_S0_S4096x256_01_n_n_0 (fun _ b => b) x idx upd = upd :=
  funext fun i => ScatterSet.scatter_set_apply_emb _ x idx upd id (lands_feat idx) Function.injective_id i

theorem scatter_weight {α : Type} {w : Nat} (x upd : S256x256.Idx → α) (idx : IVec S0 w) :
    Host.scatter scatter_S256x256_S0_S256x256_01_n_n_0 (fun _ b => b) x idx upd = upd :=
  funext fun i => ScatterSet.scatter_set_apply_emb _ x idx upd id (lands_weight idx) Function.injective_id i

theorem scatter_adj {α : Type} {w : Nat} (x upd : S4096x4096.Idx → α) (idx : IVec S0 w) :
    Host.scatter scatter_S4096x4096_S0_S4096x4096_01_n_n_0 (fun _ b => b) x idx upd = upd :=
  funext fun i => ScatterSet.scatter_set_apply_emb _ x idx upd id (lands_adj idx) Function.injective_id i

theorem scatter_bias {α : Type} {w : Nat} (x : S1x256.Idx → α) (upd : S256.Idx → α) (idx : IVec S1 w) (hidx : ∀ k, idx k = 0#w)
    (q : Fin 256) :
    Host.scatter scatter_S1x256_S1_S256_0_0_0_0 (fun _ b => b) x idx upd (ix2 (0 : Fin 1) q) = upd (ix1 q) :=
  ScatterSet.scatter_set_apply_emb _ x idx upd (fun j => ix2 (0 : Fin 1) (j 0)) (lands_bias idx hidx)
    (fun j j' h => by
      rw [eq_ix1 j, eq_ix1 j']
      exact congrArg ix1 (congrFun h 1))
    (ix1 q)

/-! ## The first region's entry contents

The host operations before the first region fill a zero buffer per argument and scatter the argument into it. By the
above the padded copies of the features, the weight and the adjacency ARE the arguments, and the padded bias is the
bias in its one row. -/

variable (m : (ℓ : Loc nD τ sig) → Buf (Elt F) ℓ)

/-- The padded node features are the node features. -/
theorem hv1 (c : Dev nD) : V1 m c main_v1 = m ((c : Thread nD τ).loc main_arg0) := by
  have e : V1 m c main_v1 = Host.scatter scatter_S4096x256_S0_S4096x256_01_n_n_0 (fun _ b => b)
      (broadcastInDim S4096x256 ![] bcast_S_S4096x256 (constant (F := F) S_ .f32 0x00000000#32)) (emptyVec S0 hz_S0 : IVec S0 32)
      (m ((c : Thread nD τ).loc main_arg0)) := by
    dsimp only [V1, W1, W0, Gen.hostOps0]; after_results
  exact e.trans (scatter_feat _ _ _)

/-- The padded weight is the weight. -/
theorem hv3 (c : Dev nD) : V1 m c main_v3 = m ((c : Thread nD τ).loc main_arg2) := by
  have e : V1 m c main_v3 = Host.scatter scatter_S256x256_S0_S256x256_01_n_n_0 (fun _ b => b)
      (broadcastInDim S256x256 ![] bcast_S_S256x256 (constant (F := F) S_ .f32 0x00000000#32)) (emptyVec S0 hz_S0 : IVec S0 32)
      (m ((c : Thread nD τ).loc main_arg2)) := by
    dsimp only [V1, W1, W0, Gen.hostOps0]; after_results
  exact e.trans (scatter_weight _ _ _)

/-- The padded adjacency is the adjacency. -/
theorem hv5 (c : Dev nD) : V1 m c main_v5 = m ((c : Thread nD τ).loc main_arg1) := by
  have e : V1 m c main_v5 = Host.scatter scatter_S4096x4096_S0_S4096x4096_01_n_n_0 (fun _ b => b)
      (broadcastInDim S4096x4096 ![] bcast_S_S4096x4096 (constant (F := F) S_ .f32 0x00000000#32)) (emptyVec S0 hz_S0 : IVec S0 32)
      (m ((c : Thread nD τ).loc main_arg1)) := by
    dsimp only [V1, W1, W0, Gen.hostOps0]; after_results
  exact e.trans (scatter_adj _ _ _)

/-- The padded bias holds the bias in its one row. -/
theorem hv8 (c : Dev nD) (q : Fin 256) :
    V1 m c main_v8 (ix2 (0 : Fin 1) q) = m ((c : Thread nD τ).loc main_arg3) (ix1 q) := by
  have e : V1 m c main_v8 = Host.scatter scatter_S1x256_S1_S256_0_0_0_0 (fun _ b => b)
      (broadcastInDim S1x256 ![] bcast_S_S1x256 (constant (F := F) S_ .f32 0x00000000#32))
      (broadcastInDim S1 ![] bcast_S_S1 (constantI S_ 32 0#32))
      (m ((c : Thread nD τ).loc main_arg3)) := by
    dsimp only [V1, W1, W0, Gen.hostOps0]; after_results
  rw [e]
  exact scatter_bias _ _ _ (fun _ => rfl) q

end Cert.ReferenceIdeal.Hand

end
-- ==== Proof.RI.Value0.lean ====
/-
  The value of the first kernel region of the reference program at the ideal (extended-real) values: after its
  sixteen grid points the support array holds the product of the node features and the weights,
  support(k, q) = ∑ j, x(k, j) · w(j, q). Three steps. The body's payload at an entry (p, q) of a 256 by 256 block
  is the sum over the 256 contracted positions j of the feature block at (p, j) times the weight block at (j, q):
  the matrix product into a zero accumulator, its one contracted axis re-indexed by its coordinate. Grid point t
  reads rows 256·t … 256·t + 255 of the features and the whole weights, so what it writes back is rows
  256·t … 256·t + 255 of the support matrix. Row r of the array is in the block of point r / 256, so the sixteen
  blocks cover the array and it ends holding the support matrix everywhere.
-/
import proofs.«107922_g2000603260507787_pallasbulk_1139_8_alg».proof.Proof.RI.Frame0
import proofs.«107922_g2000603260507787_pallasbulk_1139_8_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen
open Idealize.ShloMosaic.ValueIdx
open scoped BigOperators

/-! ## The body's product at an entry -/

/-- The zero offsets of the body's one rectangle, as a constant function. -/
theorem hz_support : (![0, 0] : Fin 2 → Nat) = fun _ => 0 := funext fun a => by fin_cases a <;> rfl

/-- The left operand of the product is read at the output's row … -/
theorem lhs_support_0 (i : S256x256.Idx) (q : dot_S256x256_S256x256_S256x256_1_0_0_1_n_n.contr.Idx) :
    (dot_S256x256_S256x256_S256x256_1_0_0_1_n_n.lhsIdx i q 0).val = (i 0).val := by
  unfold DotDims.lhsIdx
  rw [dif_neg (show ¬(0 : Fin S256x256.rank) ∈ dot_S256x256_S256x256_S256x256_1_0_0_1_n_n.lhsBatch by decide), dif_pos (show (0 : Fin S256x256.rank) ∈ dot_S256x256_S256x256_S256x256_1_0_0_1_n_n.lhsNonContracting by decide)]
  rfl
/-- … and at the contracted position as its column; -/
theorem lhs_support_1 (i : S256x256.Idx) (q : dot_S256x256_S256x256_S256x256_1_0_0_1_n_n.contr.Idx) :
    (dot_S256x256_S256x256_S256x256_1_0_0_1_n_n.lhsIdx i q 1).val = (q ⟨0, by decide⟩).val :=
  dot_S256x256_S256x256_S256x256_1_0_0_1_n_n.lhsIdx_val_of_single rfl i q
/-- the right operand at the contracted position as its row … -/
theorem rhs_support_0 (i : S256x256.Idx) (q : dot_S256x256_S256x256_S256x256_1_0_0_1_n_n.contr.Idx) :
    (dot_S256x256_S256x256_S256x256_1_0_0_1_n_n.rhsIdx i q 0).val = (q ⟨0, by decide⟩).val :=
  dot_S256x256_S256x256_S256x256_1_0_0_1_n_n.rhsIdx_val_of_single rfl i q
/-- … and at the output's column. -/
theorem rhs_support_1 (i : S256x256.Idx) (q : dot_S256x256_S256x256_S256x256_1_0_0_1_n_n.contr.Idx) :
    (dot_S256x256_S256x256_S256x256_1_0_0_1_n_n.rhsIdx i q 1).val = (i 1).val := by
  unfold DotDims.rhsIdx
  rw [dif_neg (show ¬(1 : Fin S256x256.rank) ∈ dot_S256x256_S256x256_S256x256_1_0_0_1_n_n.rhsBatch by decide), dif_pos (show (1 : Fin S256x256.rank) ∈ dot_S256x256_S256x256_S256x256_1_0_0_1_n_n.rhsNonContracting by decide)]
  rfl

/-- The payload at entry (p, q): the casts to the same shape are the identity, the accumulator is zero, and the
    product's sum over its one contracted axis is the sum over that axis's 256 positions. -/
theorem pay_support_apply (x0 x1 : Vec Ideal S256x256 .f32) (p q : Fin 256) :
    k0_pay1 (F := Ideal) x0 x1 (ix2 p q) = ∑ j : Fin 256, x0 (ix2 p j) * x1 (ix2 j q) := by
  unfold k0_pay1
  simp only [shapeCast_self, matmul]
  rw [Ideal.matmul_constant_zero_apply, ← Equiv.sum_comp (contrEquiv1 dot_S256x256_S256x256_S256x256_1_0_0_1_n_n 256 rfl rfl).symm]
  refine Finset.sum_congr rfl fun k _ => ?_
  have hk := contrEquiv1_symm_val dot_S256x256_S256x256_S256x256_1_0_0_1_n_n 256 rfl rfl k
  have el : dot_S256x256_S256x256_S256x256_1_0_0_1_n_n.lhsIdx (ix2 p q) ((contrEquiv1 dot_S256x256_S256x256_S256x256_1_0_0_1_n_n 256 rfl rfl).symm k) = ix2 p k := funext fun a => Fin.ext (by
    match a with
    | ⟨0, _⟩ => exact lhs_support_0 _ _
    | ⟨1, _⟩ => exact (lhs_support_1 _ _).trans hk)
  have er : dot_S256x256_S256x256_S256x256_1_0_0_1_n_n.rhsIdx (ix2 p q) ((contrEquiv1 dot_S256x256_S256x256_S256x256_1_0_0_1_n_n 256 rfl rfl).symm k) = ix2 k q := funext fun a => Fin.ext (by
    match a with
    | ⟨0, _⟩ => exact (rhs_support_0 _ _).trans hk
    | ⟨1, _⟩ => exact rhs_support_1 _ _)
  rw [el, er]

/-- So the payload of a feature block that is rows 256·n … 256·n + 255 of an array `X` and of a weight block that
    is the whole of `W`, at the block entry `y`, is the support matrix of `X` and `W` at the array entry
    `i` in row 256·n + (y's row) and y's column. -/
theorem pay_support_block (X : FVec Ideal Cert.Spec.SNodeFeat .f32) (W : FVec Ideal Cert.Spec.SWeight .f32)
    (x0 x1 : Vec Ideal S256x256 .f32) (n : Nat)
    (h0 : ∀ (p j : Fin 256) (r : Fin 4096), r.val = 256 * n + p.val → x0 (ix2 p j) = X (ix2 r j))
    (h1 : ∀ j q : Fin 256, x1 (ix2 j q) = W (ix2 j q))
    (y : S256x256.Idx) (i : Cert.Spec.SNodeFeat.Idx) (hi0 : (i 0).val = 256 * n + (y 0).val) (hi1 : (i 1).val = (y 1).val) :
    k0_pay1 (F := Ideal) x0 x1 y = Cert.Spec.support X W i := by
  obtain ⟨p, q, rfl⟩ : ∃ (p : Fin 256) (q : Fin 256), y = ix2 p q := ⟨y 0, y 1, eq_ix2 y⟩
  obtain ⟨r, s, rfl⟩ : ∃ (r : Fin 4096) (s : Fin 256), i = ix2 r s := ⟨i 0, i 1, eq_ix2 i⟩
  have hs : s = q := Fin.ext hi1
  subst hs
  rw [pay_support_apply, Cert.Spec.support_apply]
  refine Finset.sum_congr rfl fun j _ => ?_
  rw [h0 p j r hi0, h1 j s]

/-! ## From the blocks to the array -/

variable (m : (ℓ : Loc nD τ sig) → Buf (Elt Ideal) ℓ)

/-- The printed index maps over the sixteen grid points: the feature window and the output window are at block
    row t, column 0; the weight window stays at block (0, 0). -/
theorem idx_support : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The feature window's block at point t, read off any contents `A` of its array: block entry (p, j) is the
    array's entry (256·t + p, j), a block's element sitting at block index times block size plus its own
    coordinate. -/
theorem featBlk_apply {F : FTy → Type} [FloatOps F] (c : Dev nD) (A : Buf (Elt F) ((c : Thread nD τ).loc main_v1)) (t : Fin cfg0.N)
    (p j : Fin 256) (r : Fin 4096) (hr : r.val = 256 * t.val + p.val) :
    (((cfg0.win 0).blk t).view.read (Elt F) A : Vec F S256x256 .f32) (ix2 p j) = (A : Vec F S4096x256 .f32) (ix2 r j) := by
  rw [View.read_apply]
  show (A : Vec F S4096x256 .f32) _ = (A : Vec F S4096x256 .f32) _
  congr 1
  funext a
  apply Fin.ext
  match a with
  | ⟨0, _⟩ => show win0_0.index t 0 * 256 + 1 * p.val = r.val; rw [(idx_support t).1, hr]; omega
  | ⟨1, _⟩ => show win0_0.index t 1 * 256 + 1 * j.val = j.val; rw [(idx_support t).2.1]; omega

/-- The weight window's block at any point is the whole of its array's contents. -/
theorem weightBlk_apply {F : FTy → Type} [FloatOps F] (c : Dev nD) (A : Buf (Elt F) ((c : Thread nD τ).loc main_v3)) (t : Fin cfg0.N)
    (j q : Fin 256) :
    (((cfg0.win 1).blk t).view.read (Elt F) A : Vec F S256x256 .f32) (ix2 j q) = (A : Vec F S256x256 .f32) (ix2 j q) := by
  rw [View.read_apply]
  show (A : Vec F S256x256 .f32) _ = (A : Vec F S256x256 .f32) _
  congr 1
  funext a
  apply Fin.ext
  match a with
  | ⟨0, _⟩ => show win0_1.index t 0 * 256 + 1 * j.val = j.val; rw [(idx_support t).2.2.1]; omega
  | ⟨1, _⟩ => show win0_1.index t 1 * 256 + 1 * q.val = q.val; rw [(idx_support t).2.2.2.1]; omega

/-- What point t writes back is block t of the support matrix of the launch features and weights. -/
theorem flushed_support (c : Dev nD)
    (hv1 : V1 m c main_v1 = m ((c : Thread nD τ).loc main_arg0)) (hv3 : V1 m c main_v3 = m ((c : Thread nD τ).loc main_arg2))
    (t : Fin cfg0.N) :
    (dat0 (F := Ideal) (V1 m) c).flushed 2 t = ((cfg0.win 2).blk t).view.read (Elt Ideal)
      (Cert.Spec.support (m ((c : Thread nD τ).loc main_arg0)) (m ((c : Thread nD τ).loc main_arg2))) := by
  show (cfg0.win 2).cut (grid0.coords t) ((dat0 (F := Ideal) (V1 m) c).after 2 t) = _
  rw [after0_2]
  unfold out0_2
  rw [View.canon_unit_zero hz_support]
  simp only [View.ld_unit_zero (S := S256x256) hz_support]
  obtain ⟨-, -, -, -, e4, e5⟩ := idx_support t
  funext j
  show k0_pay1 (F := Ideal) (iblk0 (V1 m) c 0 t) (iblk0 (V1 m) c 1 t) j
    = Cert.Spec.support (m ((c : Thread nD τ).loc main_arg0)) (m ((c : Thread nD τ).loc main_arg2)) (((cfg0.win 2).blk t).view.emb j)
  refine pay_support_block _ _ _ _ t.val
    (fun p j r hr => (featBlk_apply c (V1 m c main_v1) t p j r hr).trans (congrFun hv1 _))
    (fun j q => (weightBlk_apply c (V1 m c main_v3) t j q).trans (congrFun hv3 _)) j _ ?_ ?_
  · show win0_2.index t (0 : Fin 2) * 256 + 1 * (j 0).val = 256 * t.val + (j 0).val; rw [e4]; omega
  · show win0_2.index t (1 : Fin 2) * 256 + 1 * (j 1).val = (j 1).val; rw [e5]; omega

/-- An entry of the array is in point t's block iff each coordinate is in the block's range on its axis. -/
theorem mem_blk_support (t : Fin cfg0.N) (i : S4096x256.Idx) :
    i ∈ ((cfg0.win 2).blk t).view.set ↔ ∀ a : Fin 2, win0_2.index t a * S256x256.size a ≤ (i a).val ∧ (i a).val < win0_2.index t a * S256x256.size a + S256x256.size a := by
  show i ∈ ((View.whole main_v9).slice (win0_2.rect t)).set ↔ _
  rw [View.set_slice_whole, Rect.mem_set_unit]
  exact Iff.rfl

/-- Every entry of the array is written back by some point: row r by point r / 256. -/
theorem covered_support (i : S4096x256.Idx) :
    ∃ t : Fin cfg0.N, (cfg0.win 2).flush t = true ∧ i ∈ ((cfg0.win 2).blk t).view.set := by
  have hi0 : (i 0).val < 4096 := (i 0).isLt
  have hi1 : (i 1).val < 256 := (i 1).isLt
  have hN : cfg0.N = 16 := N_0
  have ht : (i 0).val / 256 < cfg0.N := by rw [hN]; omega
  obtain ⟨-, -, -, -, e4, e5⟩ := idx_support ⟨(i 0).val / 256, ht⟩
  refine ⟨⟨(i 0).val / 256, ht⟩, flush0_2 _, ?_⟩
  rw [mem_blk_support]
  intro a
  match a with
  | ⟨0, _⟩ =>
    show win0_2.index ⟨(i 0).val / 256, ht⟩ (0 : Fin 2) * 256 ≤ (i 0).val ∧ (i 0).val < win0_2.index ⟨(i 0).val / 256, ht⟩ (0 : Fin 2) * 256 + 256
    rw [e4]; show (i 0).val / 256 * 256 ≤ (i 0).val ∧ (i 0).val < (i 0).val / 256 * 256 + 256; omega
  | ⟨1, _⟩ =>
    show win0_2.index ⟨(i 0).val / 256, ht⟩ (1 : Fin 2) * 256 ≤ (i 1).val ∧ (i 1).val < win0_2.index ⟨(i 0).val / 256, ht⟩ (1 : Fin 2) * 256 + 256
    rw [e5]; omega

/-- After the region the support array holds the support matrix of the launch features and weights, given that the
    padded copies the region reads hold the launch features and weights. -/
theorem support_eq (c : Dev nD)
    (hv1 : V1 m c main_v1 = m ((c.tc : Thread nD τ).loc main_arg0)) (hv3 : V1 m c main_v3 = m ((c.tc : Thread nD τ).loc main_arg2)) :
    (dat0 (F := Ideal) (V1 m) c).arrAt 2 cfg0.N
      = Cert.Spec.support (m ((c.tc : Thread nD τ).loc main_arg0)) (m ((c.tc : Thread nD τ).loc main_arg2)) :=
  (dat0 (F := Ideal) (V1 m) c).arrAt_eq_of_cover 2 _ (fun t _ => flushed_support m c hv1 hv3 t) covered_support

end Cert.ReferenceIdeal.Hand

end
-- ==== Proof.LibSumBlocks.lean ====
/- A sum over a flat row-major index is the nested sum over its coordinates. -/
import Mathlib.Data.Fintype.BigOperators
import Mathlib.Logic.Equiv.Fin.Basic

/-- The row-major position of the pair `(a, b)` in an `m × n` grid lies below `m * n`. -/
theorem Fin.rowMajor_lt {m n : ℕ} (a : Fin m) (b : Fin n) : a.val * n + b.val < m * n :=
  calc a.val * n + b.val < a.val * n + n := Nat.add_lt_add_left b.isLt _
    _ = (a.val + 1) * n := (Nat.succ_mul _ _).symm
    _ ≤ m * n := Nat.mul_le_mul_right n a.isLt

/-- Two axes: a sum over the flat index of an `m × n` grid is the sum over the rows of the sums along each row.
    The pairs `(a, b)` are in bijection with the flat positions `a * n + b`, and a sum over pairs is an iterated sum. -/
theorem Fin.sum_rowMajor2 {M : Type*} [AddCommMonoid M] (m n : ℕ) (f : Fin (m * n) → M) :
    ∑ e, f e = ∑ a : Fin m, ∑ b : Fin n, f ⟨a.val * n + b.val, Fin.rowMajor_lt a b⟩ := by
  rw [← Fintype.sum_prod_type' (f := fun (a : Fin m) (b : Fin n) => f ⟨a.val * n + b.val, Fin.rowMajor_lt a b⟩)]
  exact (Fintype.sum_equiv finProdFinEquiv (fun p : Fin m × Fin n => f ⟨p.1.val * n + p.2.val, Fin.rowMajor_lt p.1 p.2⟩) f
    (fun p => congrArg f (Fin.ext (by simp [Nat.mul_comm, Nat.add_comm])))).symm

/-- Four axes: a sum over the flat row-major index of an `n0 × n1 × n2 × n3` grid is the nested sum over its four
    coordinates, the last axis innermost — the two-axis statement applied to the last axis, then to the third, then to
    the second. -/
theorem Fin.sum_rowMajor4 {M : Type*} [AddCommMonoid M] (n0 n1 n2 n3 : ℕ) (f : Fin (n0 * n1 * n2 * n3) → M) :
    ∑ e, f e = ∑ a : Fin n0, ∑ b : Fin n1, ∑ c : Fin n2, ∑ d : Fin n3,
      f ⟨((a.val * n1 + b.val) * n2 + c.val) * n3 + d.val,
        Fin.rowMajor_lt (⟨(a.val * n1 + b.val) * n2 + c.val,
          Fin.rowMajor_lt (⟨a.val * n1 + b.val, Fin.rowMajor_lt a b⟩ : Fin (n0 * n1)) c⟩ : Fin (n0 * n1 * n2)) d⟩ :=
  (Fin.sum_rowMajor2 (n0 * n1 * n2) n3 f).trans <|
  (Fin.sum_rowMajor2 (n0 * n1) n2 (fun x => ∑ d : Fin n3, f ⟨x.val * n3 + d.val, Fin.rowMajor_lt x d⟩)).trans <|
  Fin.sum_rowMajor2 n0 n1 (fun y => ∑ c : Fin n2, ∑ d : Fin n3,
    f ⟨(y.val * n2 + c.val) * n3 + d.val, Fin.rowMajor_lt (⟨y.val * n2 + c.val, Fin.rowMajor_lt y c⟩ : Fin (n0 * n1 * n2)) d⟩)

/-- The instance used for the edge arrays: 3200000 = 2 · 2 · 6250 · 128 entries, read as two halves of two blocks of
    6250 rows of 128 lanes. -/
theorem sum_flat_2x2x6250x128 {M : Type*} [AddCommMonoid M] (f : Fin 3200000 → M) :
    ∑ e, f e = ∑ a : Fin 2, ∑ b : Fin 2, ∑ r : Fin 6250, ∑ l : Fin 128,
      f ⟨((a.val * 2 + b.val) * 6250 + r.val) * 128 + l.val, by omega⟩ :=
  Fin.sum_rowMajor4 2 2 6250 128 f
-- ==== Proof.RI.Value1Lemmas.lean ====
/-
  The pointwise facts behind the aggregation's value. The aggregation walks a 16 × 8 grid: at point (i, k) it adds to
  a 256 × 256 accumulator the product of the adjacency block (i, k), 256 rows by 512 columns, with the support
  block k, 512 rows; the accumulator starts from zero at k = 0, and at k = 7 the bias row is added and the block is
  written to rows 256 i .. 256 i + 255 of the result. Here: the law that eight block sums added one after the other
  are the whole sum over 4096 terms; what each of the body's three stored values is at an entry; and which entries
  of the arrays each window's block holds at a grid point.
-/
import proofs.«107922_g2000603260507787_pallasbulk_1139_8_alg».proof.Proof.RI.Entry
import proofs.«107922_g2000603260507787_pallasbulk_1139_8_alg».proof.Proof.Spec
import proofs.«107922_g2000603260507787_pallasbulk_1139_8_alg».proof.Proof.LibSumBlocks
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen
open Idealize.ShloMosaic.ValueIdx
open scoped BigOperators

/-! ## Eight block sums added in order are the whole sum -/

section Blocks
variable {M : Type*} [AddCommMonoid M]

/-- The sum of the first `n` of eight terms (all eight once `n` reaches 8). -/
def firstBlocks (f : Fin 8 → M) (n : ℕ) : M := ∑ a ∈ Finset.range n, if h : a < 8 then f ⟨a, h⟩ else 0

theorem firstBlocks_zero (f : Fin 8 → M) : firstBlocks f 0 = 0 := Finset.sum_range_zero _

/-- One more term: the sum of the first `k + 1` is the sum of the first `k` plus term `k`. -/
theorem firstBlocks_succ (f : Fin 8 → M) (k : ℕ) (h : k < 8) : firstBlocks f (k + 1) = firstBlocks f k + f ⟨k, h⟩ := by
  unfold firstBlocks
  rw [Finset.sum_range_succ, dif_pos h]

/-- All eight terms. -/
theorem firstBlocks_eight (f : Fin 8 → M) : firstBlocks f 8 = ∑ a, f a := by
  unfold firstBlocks
  rw [Finset.sum_range]
  exact Finset.sum_congr rfl fun a _ => dif_pos a.isLt

/-- Position `b` of the `a`-th stretch of 512 among 4096 positions. -/
theorem blk_lt (a : Fin 8) (b : Fin 512) : a.val * 512 + b.val < 4096 := by have := a.isLt; have := b.isLt; omega
abbrev blkIx (a : Fin 8) (b : Fin 512) : Fin 4096 := ⟨a.val * 512 + b.val, blk_lt a b⟩

/-- A sum over 4096 terms is the sum over its eight consecutive stretches of 512 terms of the sums along each. -/
theorem sum_4096_blocks (g : Fin 4096 → M) : ∑ k, g k = ∑ a : Fin 8, ∑ b : Fin 512, g (blkIx a b) :=
  Fin.sum_rowMajor2 8 512 g

/-- So the eight block sums, added in order, are the whole sum. -/
theorem firstBlocks_eight_eq_sum (g : Fin 4096 → M) :
    firstBlocks (fun a : Fin 8 => ∑ b : Fin 512, g (blkIx a b)) 8 = ∑ k, g k := by
  rw [firstBlocks_eight, sum_4096_blocks]

end Blocks

/-! ## The body's stored values at an entry -/

/-- The reset stores zero everywhere. -/
theorem k1_pay1_apply (p q : Fin 256) : k1_pay1 (F := Ideal) (ix2 p q) = 0 := by
  unfold k1_pay1
  rw [shapeCast_self]
  exact Ideal.ofBits_zero_f32

/-- The block product's left operand index: its row is the output's row … -/
theorem lhs_agg_0 (i : S256x256.Idx) (q : dot_S256x512_S512x256_S256x256_1_0_0_1_n_n.contr.Idx) :
    (dot_S256x512_S512x256_S256x256_1_0_0_1_n_n.lhsIdx i q 0).val = (i 0).val := by
  unfold DotDims.lhsIdx
  rw [dif_neg (show ¬(0 : Fin S256x512.rank) ∈ dot_S256x512_S512x256_S256x256_1_0_0_1_n_n.lhsBatch by decide),
    dif_pos (show (0 : Fin S256x512.rank) ∈ dot_S256x512_S512x256_S256x256_1_0_0_1_n_n.lhsNonContracting by decide)]
  rfl
/-- … and its column the contracted position. -/
theorem lhs_agg_1 (i : S256x256.Idx) (q : dot_S256x512_S512x256_S256x256_1_0_0_1_n_n.contr.Idx) :
    (dot_S256x512_S512x256_S256x256_1_0_0_1_n_n.lhsIdx i q 1).val = (q ⟨0, by decide⟩).val :=
  dot_S256x512_S512x256_S256x256_1_0_0_1_n_n.lhsIdx_val_of_single rfl i q
/-- The right operand index: its row is the contracted position … -/
theorem rhs_agg_0 (i : S256x256.Idx) (q : dot_S256x512_S512x256_S256x256_1_0_0_1_n_n.contr.Idx) :
    (dot_S256x512_S512x256_S256x256_1_0_0_1_n_n.rhsIdx i q 0).val = (q ⟨0, by decide⟩).val :=
  dot_S256x512_S512x256_S256x256_1_0_0_1_n_n.rhsIdx_val_of_single rfl i q
/-- … and its column the output's column. -/
theorem rhs_agg_1 (i : S256x256.Idx) (q : dot_S256x512_S512x256_S256x256_1_0_0_1_n_n.contr.Idx) :
    (dot_S256x512_S512x256_S256x256_1_0_0_1_n_n.rhsIdx i q 1).val = (i 1).val := by
  unfold DotDims.rhsIdx
  rw [dif_neg (show ¬(1 : Fin S512x256.rank) ∈ dot_S256x512_S512x256_S256x256_1_0_0_1_n_n.rhsBatch by decide),
    dif_pos (show (1 : Fin S512x256.rank) ∈ dot_S256x512_S512x256_S256x256_1_0_0_1_n_n.rhsNonContracting by decide)]
  rfl

/-- The block product into the zero splat, at entry (p, q): the sum over the 512 contracted positions of
    a(p, k') · s(k', q). -/
theorem matmul_agg_apply (a : FVec Ideal S256x512 .f32) (s : FVec Ideal S512x256 .f32) (p q : Fin 256) :
    matmul (F := Ideal) dot_S256x512_S512x256_S256x256_1_0_0_1_n_n none a s (constant S256x256 .f32 0x00000000#32) (ix2 p q)
      = ∑ k' : Fin 512, a (ix2 p k') * s (ix2 k' q) := by
  simp only [matmul]
  rw [Ideal.matmul_constant_zero_apply,
    ← Equiv.sum_comp (contrEquiv1 dot_S256x512_S512x256_S256x256_1_0_0_1_n_n 512 rfl rfl).symm]
  refine Finset.sum_congr rfl fun k _ => ?_
  have hk := contrEquiv1_symm_val dot_S256x512_S512x256_S256x256_1_0_0_1_n_n 512 rfl rfl k
  have el : dot_S256x512_S512x256_S256x256_1_0_0_1_n_n.lhsIdx (ix2 p q)
      ((contrEquiv1 dot_S256x512_S512x256_S256x256_1_0_0_1_n_n 512 rfl rfl).symm k) = ix2 p k := funext fun a => Fin.ext (by
    match a with
    | ⟨0, _⟩ => exact lhs_agg_0 _ _
    | ⟨1, _⟩ => exact (lhs_agg_1 _ _).trans hk)
  have er : dot_S256x512_S512x256_S256x256_1_0_0_1_n_n.rhsIdx (ix2 p q)
      ((contrEquiv1 dot_S256x512_S512x256_S256x256_1_0_0_1_n_n 512 rfl rfl).symm k) = ix2 k q := funext fun a => Fin.ext (by
    match a with
    | ⟨0, _⟩ => exact (rhs_agg_0 _ _).trans hk
    | ⟨1, _⟩ => exact rhs_agg_1 _ _)
  rw [el, er]

/-- The update: the accumulator's entry plus the block product's entry. -/
theorem k1_pay2_apply (acc : Vec Ideal S256x256 .f32) (a : Vec Ideal S256x512 .f32) (s : Vec Ideal S512x256 .f32) (p q : Fin 256) :
    k1_pay2 (F := Ideal) acc a s (ix2 p q) = acc (ix2 p q) + ∑ k' : Fin 512, a (ix2 p k') * s (ix2 k' q) := by
  unfold k1_pay2
  simp only [shapeCast_self]
  rw [addf_apply]
  exact congrArg (acc (ix2 p q) + ·) (matmul_agg_apply a s p q)

/-- The last step: the accumulator's entry plus the bias row's entry in the same column. -/
theorem k1_pay3_apply (acc : Vec Ideal S256x256 .f32) (brow : Vec Ideal S1x256 .f32) (p q : Fin 256) :
    k1_pay3 (F := Ideal) acc brow (ix2 p q) = acc (ix2 p q) + brow (ix2 (0 : Fin 1) q) := by
  unfold k1_pay3
  simp only [shapeCast_self]
  rw [addf_apply]
  exact congrArg (acc (ix2 p q) + ·) (broadcastTo_1b_ab_apply brow broadcasts_S1x256_S256x256 p q)

end Cert.ReferenceIdeal.Hand

end
-- ==== Proof.RI.Value1Blocks.lean ====
/-
  Which entries of the arrays each window of the aggregation holds at a grid point. The grid is 16 × 8, walked row
  by row, so point t is (i, k) = (t / 8, t % 8). The adjacency window's block at t is rows 256 i .. 256 i + 255,
  columns 512 k .. 512 k + 511; the support window's block is rows 512 k .. 512 k + 511, all 256 columns; the bias
  window is its whole one-row array; the result window's block is rows 256 i .. 256 i + 255, all 256 columns.
-/
import proofs.«107922_g2000603260507787_pallasbulk_1139_8_alg».proof.Proof.RI.Entry
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen
open Idealize.ShloMosaic.ValueIdx
open scoped BigOperators

variable {F : FTy → Type} [FloatOps F]

/-! ## The block index of each window at a point -/

/-- The adjacency window's block index at point t is (t / 8, t % 8). -/
theorem idx1_0 : ∀ t : Fin cfg1.N, win1_0.index t 0 = t.val / 8 ∧ win1_0.index t 1 = t.val % 8 :=
  (by decide +kernel : ∀ t : Fin grid1.N, win1_0.index t 0 = t.val / 8 ∧ win1_0.index t 1 = t.val % 8)
/-- The support window's block index at point t is (t % 8, 0). -/
theorem idx1_1 : ∀ t : Fin cfg1.N, win1_1.index t 0 = t.val % 8 ∧ win1_1.index t 1 = 0 :=
  (by decide +kernel : ∀ t : Fin grid1.N, win1_1.index t 0 = t.val % 8 ∧ win1_1.index t 1 = 0)
/-- The bias window's block index is (0, 0) at every point. -/
theorem idx1_2 : ∀ t : Fin cfg1.N, win1_2.index t 0 = 0 ∧ win1_2.index t 1 = 0 :=
  (by decide +kernel : ∀ t : Fin grid1.N, win1_2.index t 0 = 0 ∧ win1_2.index t 1 = 0)
/-- The result window's block index at point t is (t / 8, 0). -/
theorem idx1_3 : ∀ t : Fin cfg1.N, win1_3.index t 0 = t.val / 8 ∧ win1_3.index t 1 = 0 :=
  (by decide +kernel : ∀ t : Fin grid1.N, win1_3.index t 0 = t.val / 8 ∧ win1_3.index t 1 = 0)

/-- The grid has 128 points. -/
theorem N_1 : cfg1.N = 128 := by decide

/-! ## The blocks read off the arrays -/

/-- The adjacency block at point t, entry (p, k'), is the array's entry (256 (t / 8) + p, 512 (t % 8) + k'). -/
theorem adjBlk_apply (c : Dev nD) (A : Buf (Elt F) ((c : Thread nD τ).loc main_v5)) (t : Fin cfg1.N) (p : Fin 256) (k' : Fin 512)
    (r k : Fin 4096) (hr : r.val = 256 * (t.val / 8) + p.val) (hk : k.val = 512 * (t.val % 8) + k'.val) :
    (((cfg1.win 0).blk t).view.read (Elt F) A : Vec F S256x512 .f32) (ix2 p k') = (A : Vec F S4096x4096 .f32) (ix2 r k) := by
  rw [View.read_apply]
  show (A : Vec F S4096x4096 .f32) _ = (A : Vec F S4096x4096 .f32) _
  congr 1
  funext a
  apply Fin.ext
  match a with
  | ⟨0, _⟩ => show win1_0.index t 0 * 256 + 1 * p.val = r.val; rw [(idx1_0 t).1, hr]; omega
  | ⟨1, _⟩ => show win1_0.index t 1 * 512 + 1 * k'.val = k.val; rw [(idx1_0 t).2, hk]; omega

/-- The support block at point t, entry (k', q), is the array's entry (512 (t % 8) + k', q). -/
theorem supBlk_apply (c : Dev nD) (S : Buf (Elt F) ((c : Thread nD τ).loc main_v9)) (t : Fin cfg1.N) (k' : Fin 512) (q : Fin 256)
    (k : Fin 4096) (hk : k.val = 512 * (t.val % 8) + k'.val) :
    (((cfg1.win 1).blk t).view.read (Elt F) S : Vec F S512x256 .f32) (ix2 k' q) = (S : Vec F S4096x256 .f32) (ix2 k q) := by
  rw [View.read_apply]
  show (S : Vec F S4096x256 .f32) _ = (S : Vec F S4096x256 .f32) _
  congr 1
  funext a
  apply Fin.ext
  match a with
  | ⟨0, _⟩ => show win1_1.index t 0 * 512 + 1 * k'.val = k.val; rw [(idx1_1 t).1, hk]; omega
  | ⟨1, _⟩ => show win1_1.index t 1 * 256 + 1 * q.val = q.val; rw [(idx1_1 t).2]; omega

/-- The bias window's block is the bias row itself. -/
theorem biasBlk_apply (c : Dev nD) (B : Buf (Elt F) ((c : Thread nD τ).loc main_v8)) (t : Fin cfg1.N) (q : Fin 256) :
    (((cfg1.win 2).blk t).view.read (Elt F) B : Vec F S1x256 .f32) (ix2 (0 : Fin 1) q) = (B : Vec F S1x256 .f32) (ix2 (0 : Fin 1) q) := by
  rw [View.read_apply]
  show (B : Vec F S1x256 .f32) _ = (B : Vec F S1x256 .f32) _
  congr 1
  funext a
  apply Fin.ext
  match a with
  | ⟨0, _⟩ => show win1_2.index t 0 * 1 + 1 * (0 : Fin 1).val = (0 : Fin 1).val; rw [(idx1_2 t).1]; rfl
  | ⟨1, _⟩ => show win1_2.index t 1 * 256 + 1 * q.val = q.val; rw [(idx1_2 t).2]; omega

/-- The result window's block at point t, read off a whole-array function G at entry (p, q), is G at
    (256 (t / 8) + p, q). -/
theorem outBlk_apply (c : Dev nD) (G : Buf (Elt F) ((c : Thread nD τ).loc main_v10)) (t : Fin cfg1.N) (p q : Fin 256)
    (r : Fin 4096) (hr : r.val = 256 * (t.val / 8) + p.val) :
    (((cfg1.win 3).blk t).view.read (Elt F) G : Vec F S256x256 .f32) (ix2 p q) = (G : Vec F S4096x256 .f32) (ix2 r q) := by
  rw [View.read_apply]
  show (G : Vec F S4096x256 .f32) _ = (G : Vec F S4096x256 .f32) _
  congr 1
  funext a
  apply Fin.ext
  match a with
  | ⟨0, _⟩ => show win1_3.index t 0 * 256 + 1 * p.val = r.val; rw [(idx1_3 t).1, hr]; omega
  | ⟨1, _⟩ => show win1_3.index t 1 * 256 + 1 * q.val = q.val; rw [(idx1_3 t).2]; omega

end Cert.ReferenceIdeal.Hand

end
-- ==== Proof.RI.Value1Pieces.lean ====
/-
  What the aggregation's body leaves behind in each of its three cases, as whole-buffer functions of what it read.
  Where k = 0 the accumulator is left at (zeros + adjacency block · support block); where 0 < k it is left at
  (what the point before left + adjacency block · support block); where k = 7 the output block is moreover left at
  that new accumulator plus the bias row broadcast over the rows. Each is the read-back of the stores the body made:
  every store covers its whole buffer, so the read-back is the last store's value, and a load that follows a store
  in the same run reads that store's value.
-/
import proofs.«107922_g2000603260507787_pallasbulk_1139_8_alg».proof.Proof.RI.Run1A
import proofs.«107922_g2000603260507787_pallasbulk_1139_8_alg».proof.Proof.RI.Run1B
import proofs.«107922_g2000603260507787_pallasbulk_1139_8_alg».proof.Proof.RI.Run1C
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen
open Idealize.ShloMosaic.ValueIdx
open scoped BigOperators

variable {F : FTy → Type} [FloatOps F]

/-- The zero offsets of a whole-buffer load or store. -/
theorem hz2 : (![0, 0] : Fin 2 → Nat) = fun _ => 0 := funext fun a => by fin_cases a <;> rfl

/-- Where k = 0: the accumulator is left at the update of the freshly stored zeros by the two blocks. -/
theorem sout1_A_eq (c : Dev nD) (i : grid1.Coords) (arg2 : Memref sig .tc .vmem S256x512 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S256x256 .f32) (harg6 : arg6.IsWhole) (hc0 : cond1_0 i) (hc1 : ¬cond1_1 i)
    (x0 : Vec F S256x512 .f32) (x1 : Vec F S512x256 .f32) (x2 : Vec F S1x256 .f32) :
    sout1_A c i arg2 harg2 arg3 harg3 arg4 harg4 arg5 harg5 arg6 harg6 hc0 hc1 x0 x1 x2 = k1_pay2 (k1_pay1 (F := F)) x0 x1 := by
  unfold sout1_A
  rw [View.read_writes_eq_canon _ _ _ (scover1_A c i arg2 harg2 arg3 harg3 arg4 harg4 arg5 harg5 arg6 harg6 hc0 hc1 x0 x1 x2)]
  unfold kernelRun1_A
  dsimp only
  sl_unfold_words
  rw [View.canon_cons_unit_zero (S := S256x256) hz2, View.readCov_unit_zero (S := S256x256) _ hz2]
  simp only [View.readAt_eq_ld, harg2.read_unread, harg3.read_unread, View.ld_unit_zero (S := S256x512) hz2,
    View.ld_unit_zero (S := S512x256) hz2, View.ld_unit_zero (S := S256x256) hz2]

/-- Where 0 < k < 7: the accumulator is left at the update of what it held by the two blocks. -/
theorem sout1_B_eq (c : Dev nD) (i : grid1.Coords) (arg2 : Memref sig .tc .vmem S256x512 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S256x256 .f32) (harg6 : arg6.IsWhole) (hc0 : ¬cond1_0 i) (hc1 : ¬cond1_1 i)
    (x0 : Vec F S256x512 .f32) (x1 : Vec F S512x256 .f32) (x2 : Vec F S1x256 .f32) (xs0 : Vec F S256x256 .f32) :
    sout1_B c i arg2 harg2 arg3 harg3 arg4 harg4 arg5 harg5 arg6 harg6 hc0 hc1 x0 x1 x2 xs0 = k1_pay2 xs0 x0 x1 := by
  unfold sout1_B
  rw [View.read_writes_eq_canon _ _ _ (scover1_B c i arg2 harg2 arg3 harg3 arg4 harg4 arg5 harg5 arg6 harg6 hc0 hc1 x0 x1 x2 xs0)]
  unfold kernelRun1_B
  dsimp only
  sl_unfold_words
  rw [View.canon_unit_zero hz2]
  simp only [View.readAt_eq_ld, harg2.read_unread, harg3.read_unread, harg6.read_unread, View.ld_unit_zero (S := S256x512) hz2,
    View.ld_unit_zero (S := S512x256) hz2, View.ld_unit_zero (S := S256x256) hz2]

/-- Where k = 7: the accumulator likewise, -/
theorem sout1_C_eq (c : Dev nD) (i : grid1.Coords) (arg2 : Memref sig .tc .vmem S256x512 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S256x256 .f32) (harg6 : arg6.IsWhole) (hc0 : ¬cond1_0 i) (hc1 : cond1_1 i)
    (x0 : Vec F S256x512 .f32) (x1 : Vec F S512x256 .f32) (x2 : Vec F S1x256 .f32) (xs0 : Vec F S256x256 .f32) :
    sout1_C c i arg2 harg2 arg3 harg3 arg4 harg4 arg5 harg5 arg6 harg6 hc0 hc1 x0 x1 x2 xs0 = k1_pay2 xs0 x0 x1 := by
  unfold sout1_C
  rw [View.read_writes_eq_canon _ _ _ (scover1_C c i arg2 harg2 arg3 harg3 arg4 harg4 arg5 harg5 arg6 harg6 hc0 hc1 x0 x1 x2 xs0)]
  unfold kernelRun1_C
  dsimp only
  sl_unfold_words
  rw [View.canon_unit_zero hz2]
  simp only [View.readAt_eq_ld, harg2.read_unread, harg3.read_unread, harg6.read_unread, View.ld_unit_zero (S := S256x512) hz2,
    View.ld_unit_zero (S := S512x256) hz2, View.ld_unit_zero (S := S256x256) hz2]

/-- and the output block at that new accumulator plus the bias row. -/
theorem out1_C_3_eq (c : Dev nD) (i : grid1.Coords) (arg2 : Memref sig .tc .vmem S256x512 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S256x256 .f32) (harg6 : arg6.IsWhole) (hc0 : ¬cond1_0 i) (hc1 : cond1_1 i)
    (x0 : Vec F S256x512 .f32) (x1 : Vec F S512x256 .f32) (x2 : Vec F S1x256 .f32) (xs0 : Vec F S256x256 .f32) :
    out1_C_3 c i arg2 harg2 arg3 harg3 arg4 harg4 arg5 harg5 arg6 harg6 hc0 hc1 x0 x1 x2 xs0 = k1_pay3 (k1_pay2 xs0 x0 x1) x2 := by
  unfold out1_C_3
  rw [View.read_writes_eq_canon _ _ _ (cover1_C_3 c i arg2 harg2 arg3 harg3 arg4 harg4 arg5 harg5 arg6 harg6 hc0 hc1 x0 x1 x2 xs0)]
  unfold kernelRun1_C
  dsimp only
  sl_unfold_words
  rw [View.canon_unit_zero hz2]
  simp only [View.readAt_eq_ld, harg2.read_unread, harg3.read_unread, harg4.read_unread, harg6.read_unread,
    View.readCov_unit_zero (S := S256x256) _ hz2, View.ld_unit_zero (S := S256x512) hz2,
    View.ld_unit_zero (S := S512x256) hz2, View.ld_unit_zero (S := S256x256) hz2, View.ld_unit_zero (S := S1x256) hz2]

end Cert.ReferenceIdeal.Hand

end
-- ==== Proof.RI.Value1Acc.lean ====
/-
  What the accumulator and the output block hold after each point of the aggregation, at the ideal values. Point
  t = 8 i + k adds to the accumulator the product of adjacency block (i, k) with support block k, so after it the
  accumulator's entry (p, q) is the sum, over the first k + 1 column blocks, of the 512 products
  adj(256 i + p, ·) · support(·, q) of the block; this is proved by induction on the point. At k = 7 all eight
  blocks are in, the sum is the whole row-by-column sum over 4096 positions, and the output block is that plus the
  bias entry of the column: block i of the layer's result.
-/
import proofs.«107922_g2000603260507787_pallasbulk_1139_8_alg».proof.Proof.RI.Frame1
import proofs.«107922_g2000603260507787_pallasbulk_1139_8_alg».proof.Proof.RI.Value1Lemmas
import proofs.«107922_g2000603260507787_pallasbulk_1139_8_alg».proof.Proof.RI.Value1Blocks
import proofs.«107922_g2000603260507787_pallasbulk_1139_8_alg».proof.Proof.RI.Value1Pieces
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen
open Idealize.ShloMosaic.ValueIdx
open scoped BigOperators

variable {F : FTy → Type} [FloatOps F]

/-! ## What each case leaves, over the point's blocks (any number format) -/

section Cases
variable (V : (c : Dev nD) → (b : Ref sig .tc) → Buf (Elt F) ((c : Thread nD τ).loc b))

/-- Where k = 0 the accumulator is left at zeros updated by the point's two blocks. -/
theorem acc_at_first (c : Dev nD) (t : Fin cfg1.N) (h0 : t.val % 8 = 0) :
    (outsAt1 V c t.val t.isLt).2 = k1_pay2 (k1_pay1 (F := F)) (iblk1 V c 0 t) (iblk1 V c 1 t) := by
  have h1 : ¬t.val % 8 = 7 := by omega
  rw [outsAt1_A V c t h0 h1]
  dsimp only
  exact sout1_A_eq (F := F) c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)

/-- Where 0 < k the accumulator is left at what the point before left, updated by the point's two blocks. -/
theorem acc_at_later (c : Dev nD) (t : Fin cfg1.N) (h0 : ¬t.val % 8 = 0) :
    (outsAt1 V c t.val t.isLt).2
      = k1_pay2 (outsAt1 V c (t.val - 1) (Nat.lt_of_le_of_lt (Nat.sub_le _ _) t.isLt)).2 (iblk1 V c 0 t) (iblk1 V c 1 t) := by
  by_cases h1 : t.val % 8 = 7
  · rw [outsAt1_C V c t h0 h1]
    dsimp only
    exact sout1_C_eq (F := F) c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2
  · rw [outsAt1_B V c t h0 h1]
    dsimp only
    exact sout1_B_eq (F := F) c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2

/-- Where k = 7 the output block is left at that new accumulator plus the bias row. -/
theorem out_at_last (c : Dev nD) (t : Fin cfg1.N) (h1 : t.val % 8 = 7) :
    (outsAt1 V c t.val t.isLt).1
      = k1_pay3 (k1_pay2 (outsAt1 V c (t.val - 1) (Nat.lt_of_le_of_lt (Nat.sub_le _ _) t.isLt)).2 (iblk1 V c 0 t) (iblk1 V c 1 t)) (iblk1 V c 2 t) := by
  have h0 : ¬t.val % 8 = 0 := by omega
  rw [outsAt1_C V c t h0 h1]
  dsimp only
  exact out1_C_3_eq (F := F) c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2

end Cases

/-! ## At the ideal values -/

variable (V : (c : Dev nD) → (b : Ref sig .tc) → Buf (Elt Ideal) ((c : Thread nD τ).loc b))

/-- The three arrays the region reads, by their literal shapes: the adjacency, the support matrix, the bias row. -/
abbrev adjArr (c : Dev nD) : FVec Ideal S4096x4096 .f32 := V c main_v5
abbrev supArr (c : Dev nD) : FVec Ideal S4096x256 .f32 := V c main_v9
abbrev biasArr (c : Dev nD) : FVec Ideal S1x256 .f32 := V c main_v8
/-- and their blocks at a point. -/
abbrev adjBlk (c : Dev nD) (t : Fin cfg1.N) : Vec Ideal S256x512 .f32 := iblk1 V c 0 t
abbrev supBlk (c : Dev nD) (t : Fin cfg1.N) : Vec Ideal S512x256 .f32 := iblk1 V c 1 t
abbrev biasBlk (c : Dev nD) (t : Fin cfg1.N) : Vec Ideal S1x256 .f32 := iblk1 V c 2 t

theorem adjBlk_at (c : Dev nD) (t : Fin cfg1.N) (p : Fin 256) (k' : Fin 512) (r k : Fin 4096)
    (hr : r.val = 256 * (t.val / 8) + p.val) (hk : k.val = 512 * (t.val % 8) + k'.val) :
    adjBlk V c t (ix2 p k') = adjArr V c (ix2 r k) :=
  adjBlk_apply (F := Ideal) c (V c main_v5) t p k' r k hr hk

theorem supBlk_at (c : Dev nD) (t : Fin cfg1.N) (k' : Fin 512) (q : Fin 256) (k : Fin 4096)
    (hk : k.val = 512 * (t.val % 8) + k'.val) :
    supBlk V c t (ix2 k' q) = supArr V c (ix2 k q) :=
  supBlk_apply (F := Ideal) c (V c main_v9) t k' q k hk

theorem biasBlk_at (c : Dev nD) (t : Fin cfg1.N) (q : Fin 256) :
    biasBlk V c t (ix2 (0 : Fin 1) q) = biasArr V c (ix2 (0 : Fin 1) q) :=
  biasBlk_apply (F := Ideal) c (V c main_v8) t q

/-- Column block `a`'s share of the entry (r, q) of adjacency times support: the 512 products along the block. -/
def blockTerm (adj : FVec Ideal S4096x4096 .f32) (s : FVec Ideal S4096x256 .f32) (r : Fin 4096) (q : Fin 256) (a : Fin 8) : EReal :=
  ∑ b : Fin 512, adj (ix2 r (blkIx a b)) * s (ix2 (blkIx a b) q)

/-- The eight shares added in order are the whole sum over the 4096 positions. -/
theorem blockTerm_all (adj : FVec Ideal S4096x4096 .f32) (s : FVec Ideal S4096x256 .f32) (r : Fin 4096) (q : Fin 256) :
    firstBlocks (blockTerm adj s r q) 8 = ∑ k : Fin 4096, adj (ix2 r k) * s (ix2 k q) :=
  firstBlocks_eight_eq_sum (fun k : Fin 4096 => adj (ix2 r k) * s (ix2 k q))

/-- One update at point t: the accumulator's entry (p, q) gains column block (t mod 8)'s share of the entry
    (256 (t / 8) + p, q). -/
theorem update_at (c : Dev nD) (t : Fin cfg1.N) (acc : Vec Ideal S256x256 .f32) (p q : Fin 256) (r : Fin 4096)
    (hr : r.val = 256 * (t.val / 8) + p.val) :
    k1_pay2 (F := Ideal) acc (adjBlk V c t) (supBlk V c t) (ix2 p q)
      = acc (ix2 p q) + blockTerm (adjArr V c) (supArr V c) r q ⟨t.val % 8, Nat.mod_lt _ (by decide)⟩ := by
  refine (k1_pay2_apply acc (adjBlk V c t) (supBlk V c t) p q).trans ?_
  refine congrArg (acc (ix2 p q) + ·) ?_
  unfold blockTerm
  refine Finset.sum_congr rfl fun k' _ => ?_
  have hk : (blkIx ⟨t.val % 8, Nat.mod_lt _ (by decide)⟩ k').val = 512 * (t.val % 8) + k'.val := by
    show t.val % 8 * 512 + k'.val = _
    omega
  rw [adjBlk_at V c t p k' r _ hr hk, supBlk_at V c t k' q _ hk]

/-- THE INVARIANT: after the point numbered n = 8 i + k the accumulator's entry (p, q) is the sum of the first
    k + 1 column blocks' shares of the entry (256 i + p, q). -/
theorem acc_inv (c : Dev nD) : ∀ (n : ℕ) (hn : n < cfg1.N) (p q : Fin 256) (r : Fin 4096), r.val = 256 * (n / 8) + p.val →
    (outsAt1 V c n hn).2 (ix2 p q) = firstBlocks (blockTerm (adjArr V c) (supArr V c) r q) (n % 8 + 1) := by
  intro n
  induction n with
  | zero =>
    intro hn p q r hr
    rw [acc_at_first V c ⟨0, hn⟩ rfl]
    refine (update_at V c ⟨0, hn⟩ (k1_pay1 (F := Ideal)) p q r hr).trans ?_
    rw [k1_pay1_apply, firstBlocks_succ _ 0 (by decide), firstBlocks_zero]
    rfl
  | succ m ih =>
    intro hn p q r hr
    by_cases h0 : (m + 1) % 8 = 0
    · rw [acc_at_first V c ⟨m + 1, hn⟩ h0]
      refine (update_at V c ⟨m + 1, hn⟩ (k1_pay1 (F := Ideal)) p q r hr).trans ?_
      rw [k1_pay1_apply]
      show 0 + blockTerm _ _ r q ⟨(m + 1) % 8, _⟩ = firstBlocks _ ((m + 1) % 8 + 1)
      rw [firstBlocks_succ _ ((m + 1) % 8) (Nat.mod_lt _ (by decide))]
      congr 1
      rw [h0, firstBlocks_zero]
    · have ihm := ih (Nat.lt_of_succ_lt hn) p q r (by omega)
      rw [acc_at_later V c ⟨m + 1, hn⟩ h0]
      refine (update_at V c ⟨m + 1, hn⟩ _ p q r hr).trans ?_
      show (outsAt1 V c m _).2 (ix2 p q) + blockTerm _ _ r q ⟨(m + 1) % 8, _⟩ = firstBlocks _ ((m + 1) % 8 + 1)
      rw [firstBlocks_succ _ ((m + 1) % 8) (Nat.mod_lt _ (by decide)), ihm]
      have e : m % 8 + 1 = (m + 1) % 8 := by omega
      rw [e]

/-- The layer's result over the three arrays: entry (r, q) is the whole sum over the 4096 positions k of
    adj(r, k) · support(k, q), plus the bias row's entry q. -/
def aggOf (adj : FVec Ideal S4096x4096 .f32) (s : FVec Ideal S4096x256 .f32) (brow : FVec Ideal S1x256 .f32) :
    FVec Ideal S4096x256 .f32 :=
  fun i => (∑ k : Fin 4096, adj (ix2 (i 0) k) * s (ix2 k (i 1))) + brow (ix2 (0 : Fin 1) (i 1))

/-- What a point with k = 7 writes back is its block of that result. -/
theorem flushed1_3_eq (c : Dev nD) (t : Fin cfg1.N) (hf : (cfg1.win 3).flush t = true) :
    (dat1 V c).flushed 3 t
      = ((cfg1.win 3).blk t).view.read (Elt Ideal) (aggOf (adjArr V c) (supArr V c) (biasArr V c)) := by
  have h7 : t.val % 8 = 7 := (flush1_3 t).mp hf
  have hN : t.val < 128 := lt_of_lt_of_eq t.isLt N_1
  funext y
  obtain ⟨p, q, rfl⟩ : ∃ (p q : Fin 256), y = ix2 p q := ⟨y 0, y 1, eq_ix2 y⟩
  show (cfg1.win 3).cut (grid1.coords t) ((dat1 V c).after 3 t) (ix2 p q) = _
  rw [after1_3]
  show (outsAt1 V c t.val t.isLt).1 ((cfg1.win 3).xinj (grid1.coords t) (ix2 p q)) = _
  rw [show (cfg1.win 3).xinj (grid1.coords t) (ix2 p q) = ix2 p q from
    funext fun a => Fin.ext (by match a with | ⟨0, _⟩ => rfl | ⟨1, _⟩ => rfl)]
  rw [out_at_last V c t h7]
  obtain ⟨r, hr⟩ : ∃ r : Fin 4096, r.val = 256 * (t.val / 8) + p.val := ⟨⟨256 * (t.val / 8) + p.val, by have := p.isLt; omega⟩, rfl⟩
  refine (k1_pay3_apply _ (biasBlk V c t) p q).trans ?_
  refine Eq.trans ?_ (outBlk_apply (F := Ideal) c (aggOf (adjArr V c) (supArr V c) (biasArr V c)) t p q r hr).symm
  show _ = (∑ k : Fin 4096, adjArr V c (ix2 r k) * supArr V c (ix2 k q)) + biasArr V c (ix2 (0 : Fin 1) q)
  rw [biasBlk_at V c t q]
  congr 1
  refine (update_at V c t _ p q r hr).trans ?_
  refine Eq.trans ?_ (blockTerm_all (adjArr V c) (supArr V c) r q)
  have hprev := acc_inv V c (t.val - 1) (Nat.lt_of_le_of_lt (Nat.sub_le _ _) t.isLt) p q r (by omega)
  rw [hprev]
  have e : (t.val - 1) % 8 + 1 = t.val % 8 := by omega
  rw [e, ← firstBlocks_succ (blockTerm (adjArr V c) (supArr V c) r q) (t.val % 8) (Nat.mod_lt _ (by decide))]
  rw [h7]

end Cert.ReferenceIdeal.Hand

end
-- ==== Proof.RI.Cover1.lean ====
/-
  The aggregation region's result window tiles the result array.

  The grid has 16 × 8 = 128 points, numbered t = 8·b + k with b the row block and k the step along the contraction.
  The result window's block at point t is rows 256·(t / 8) … 256·(t / 8) + 255 of the 4096 × 256 result, all 256
  columns, and it is written back exactly at the last step of each row block (t ≡ 7 mod 8). So row r of the result
  lies in the block written back at point 8·(r / 256) + 7, and the sixteen written-back blocks cover every entry.
-/
import proofs.«107922_g2000603260507787_pallasbulk_1139_8_alg».proof.Proof.RI.Entry
import Idealize.ShloMosaic.Lib.Pipeline.Value
import Idealize.ShloMosaic.Lib.ValueIdx

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.ReferenceIdeal Cert.ReferenceIdeal.Gen

/-- The result window's block index at point `t`: row block `t / 8`, column block 0. Decided over the 128 points. -/
theorem idx_facts1_3 : ∀ t : Fin cfg1.N, win1_3.index t (0 : Fin 2) = t.val / 8 ∧ win1_3.index t (1 : Fin 2) = 0 :=
  (by decide +kernel : ∀ t : Fin grid1.N, win1_3.index t (0 : Fin 2) = t.val / 8 ∧ win1_3.index t (1 : Fin 2) = 0)

/-- An entry of the result array is in point `t`'s block iff, on each axis, its coordinate is within the block's
    256 positions starting at 256 times the block index. -/
theorem mem_blk1_3 (t : Fin cfg1.N) (i : S4096x256.Idx) :
    i ∈ ((cfg1.win 3).blk t).view.set ↔ ∀ a : Fin 2, win1_3.index t a * S256x256.size a ≤ (i a).val ∧ (i a).val < win1_3.index t a * S256x256.size a + S256x256.size a := by
  show i ∈ ((View.whole main_v10).slice (win1_3.rect t)).set ↔ _
  rw [View.set_slice_whole, Rect.mem_set_unit]
  exact Iff.rfl

/-- Every entry of the result array is in the block some point writes back: row `r` in that of point
    8·(r / 256) + 7. -/
theorem cover1_3 (c : Dev nD) : ∀ i : (((cfg1.win 3).arr.view.loc (c.tc : Thread nD τ)).2.ty.Idx),
    ∃ t : Fin cfg1.N, (cfg1.win 3).flush t = true ∧ i ∈ ((cfg1.win 3).blk t).view.set := by
  show ∀ i : S4096x256.Idx, _
  intro i
  have hN : grid1.N = 128 := N_1
  have hi0 : (i 0).val < 4096 := idx2_lt0 i
  have hi1 : (i 1).val < 256 := idx2_lt1 i
  have ht : 8 * ((i 0).val / 256) + 7 < cfg1.N := by show _ < grid1.N; rw [hN]; omega
  refine ⟨⟨8 * ((i 0).val / 256) + 7, ht⟩, (flush1_3 _).mpr (by show (8 * ((i 0).val / 256) + 7) % 8 = 7; omega), ?_⟩
  rw [mem_blk1_3]
  obtain ⟨e0, e1⟩ := idx_facts1_3 ⟨8 * ((i 0).val / 256) + 7, ht⟩
  have e0' : win1_3.index ⟨8 * ((i 0).val / 256) + 7, ht⟩ (0 : Fin 2) = (8 * ((i 0).val / 256) + 7) / 8 := e0
  intro a
  match a with
  | ⟨0, _⟩ =>
    show win1_3.index ⟨8 * ((i 0).val / 256) + 7, ht⟩ (0 : Fin 2) * 256 ≤ (i 0).val ∧ (i 0).val < win1_3.index ⟨8 * ((i 0).val / 256) + 7, ht⟩ (0 : Fin 2) * 256 + 256
    rw [e0']; omega
  | ⟨1, _⟩ =>
    show win1_3.index ⟨8 * ((i 0).val / 256) + 7, ht⟩ (1 : Fin 2) * 256 ≤ (i 1).val ∧ (i 1).val < win1_3.index ⟨8 * ((i 0).val / 256) + 7, ht⟩ (1 : Fin 2) * 256 + 256
    rw [e1]; omega

end Cert.ReferenceIdeal.Hand

end
-- ==== Proof.RI.Value1.lean ====
/-
  The aggregation region's result: the array it leaves is the layer's result adj · support + bias of the contents
  it found. Every point with k = 7 writes back its block of that result (the accumulator's invariant), and those
  sixteen blocks cover the 4096 rows; so the result array ends holding it. Read at the contents the region is
  entered with (the adjacency as the host operations left it, the support matrix as the first region wrote it, the
  bias row), that is the graph-convolution layer of the four arguments.
-/
import proofs.«107922_g2000603260507787_pallasbulk_1139_8_alg».proof.Proof.RI.Value1Acc
import proofs.«107922_g2000603260507787_pallasbulk_1139_8_alg».proof.Proof.RI.Cover1
import proofs.«107922_g2000603260507787_pallasbulk_1139_8_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen
open Idealize.ShloMosaic.ValueIdx
open scoped BigOperators

/-- The result array after the region, over any entry contents: adjacency times support plus the bias row. -/
theorem agg_final (V : (c : Dev nD) → (b : Ref sig .tc) → Buf (Elt Ideal) ((c : Thread nD τ).loc b)) (c : Dev nD) :
    (dat1 (F := Ideal) V c).arrAt 3 cfg1.N = aggOf (adjArr V c) (supArr V c) (biasArr V c) :=
  (dat1 (F := Ideal) V c).arrAt_eq_of_cover 3 (aggOf (adjArr V c) (supArr V c) (biasArr V c)) (flushed1_3_eq V c) (cover1_3 c)

/-- At the contents the second region is entered with — the adjacency argument, the support matrix of the node
    features and the weight, the bias argument as a row — the result array is the layer of the four arguments. -/
theorem gcn_eq (m : (ℓ : Loc nD τ sig) → Buf (Elt Ideal) ℓ) (s9 : (c : Dev nD) → Buf (Elt Ideal) ((c : Thread nD τ).loc main_v9)) (c : Dev nD)
    (hs : s9 c = Cert.Spec.support (m ((c : Thread nD τ).loc main_arg0)) (m ((c : Thread nD τ).loc main_arg2)))
    (hv5 : V1 m c main_v5 = m ((c : Thread nD τ).loc main_arg1))
    (hv8 : ∀ q : Fin 256, V1 m c main_v8 (ix2 (0 : Fin 1) q) = m ((c : Thread nD τ).loc main_arg3) (ix1 q)) :
    (dat1 (F := Ideal) (V2 m s9) c).arrAt 3 cfg1.N
      = Cert.Spec.gcn (m ((c : Thread nD τ).loc main_arg0)) (m ((c : Thread nD τ).loc main_arg1)) (m ((c : Thread nD τ).loc main_arg2)) (m ((c : Thread nD τ).loc main_arg3)) := by
  rw [agg_final (V2 m s9) c]
  have e5 : adjArr (V2 m s9) c = m ((c : Thread nD τ).loc main_arg1) := by
    show Function.update (W1 m c) (Proc.devRef .tc main_v9) (s9 c) (Proc.devRef .tc main_v5) = _
    rw [Function.update_of_ne (StableHlo.devRef_ne_of_ne (by decide))]
    exact hv5
  have e9 : supArr (V2 m s9) c = Cert.Spec.support (m ((c : Thread nD τ).loc main_arg0)) (m ((c : Thread nD τ).loc main_arg2)) := by
    show Function.update (W1 m c) (Proc.devRef .tc main_v9) (s9 c) (Proc.devRef .tc main_v9) = _
    rw [Function.update_self]
    exact hs
  have e8 : ∀ q : Fin 256, biasArr (V2 m s9) c (ix2 (0 : Fin 1) q) = m ((c : Thread nD τ).loc main_arg3) (ix1 q) := by
    intro q
    show Function.update (W1 m c) (Proc.devRef .tc main_v9) (s9 c) (Proc.devRef .tc main_v8) (ix2 (0 : Fin 1) q) = _
    rw [Function.update_of_ne (StableHlo.devRef_ne_of_ne (by decide))]
    exact hv8 q
  refine funext fun (i : S4096x256.Idx) => ?_
  obtain ⟨r, q, rfl⟩ : ∃ (r : Fin 4096) (q : Fin 256), i = ix2 r q := ⟨i 0, i 1, eq_ix2 i⟩
  rw [Cert.Spec.gcn_apply]
  show (∑ k : Fin 4096, adjArr (V2 m s9) c (ix2 r k) * supArr (V2 m s9) c (ix2 k q)) + biasArr (V2 m s9) c (ix2 (0 : Fin 1) q) = _
  rw [e5, e9, e8]

end Cert.ReferenceIdeal.Hand

end
-- ==== Proof.lean ====
/-
  The certificate of a graph-convolution layer, out = adj · (x · w) + bias, on 4096 nodes with 256 features in and out.

  The kernel is one pipelined region over 8 row tiles of 512 rows: at the first tile of each half of the grid it
  computes the support matrix x · w once into a scratch buffer that stays resident, and at every tile it multiplies
  the two 256-row halves of the adjacency tile with the resident support and adds the bias row. The reference pads
  its operands (at these aligned shapes the pads overwrite every entry, so they are copies), computes the support
  in a first region tiled over 16 row blocks, and in a second region accumulates, for each of 16 row blocks, the
  products of the 8 column blocks of the adjacency with the matching row blocks of the support, adding the bias
  after the last one.

  At the ideal instance both results are, entry by entry, (∑ k, adj(r,k) · ∑ j, x(k,j) · w(j,q)) + bias(q)
  (`Cert.Spec.gcn`): the kernel sums over all 4096 nodes at once, the reference over 8 blocks of 512 starting from
  0, and a finite sum on the extended reals may be regrouped freely (addition is commutative and associative
  with unit 0), so the finiteness of the inputs is not used. The three frames come from the launches of the regions,
  whose posts also name the result array's contents; the idealization rewrote nothing, so the fourth conjunct is
  trivial.
-/
import proofs.«107922_g2000603260507787_pallasbulk_1139_8_alg».proof.Defs
import proofs.«107922_g2000603260507787_pallasbulk_1139_8_alg».proof.Proof.Gen.Kernel
import proofs.«107922_g2000603260507787_pallasbulk_1139_8_alg».proof.Proof.Gen.KernelIdeal
import proofs.«107922_g2000603260507787_pallasbulk_1139_8_alg».proof.Proof.Gen.ReferenceIdeal
import proofs.«107922_g2000603260507787_pallasbulk_1139_8_alg».proof.Proof.Gen.Pre_finite_inputs
import proofs.«107922_g2000603260507787_pallasbulk_1139_8_alg».proof.Proof.FramesKernel
import proofs.«107922_g2000603260507787_pallasbulk_1139_8_alg».proof.Proof.FramesReference
import proofs.«107922_g2000603260507787_pallasbulk_1139_8_alg».proof.Proof.KI.Value
import proofs.«107922_g2000603260507787_pallasbulk_1139_8_alg».proof.Proof.RI.ValueHost
import proofs.«107922_g2000603260507787_pallasbulk_1139_8_alg».proof.Proof.RI.Value0
import proofs.«107922_g2000603260507787_pallasbulk_1139_8_alg».proof.Proof.RI.Value1

noncomputable section

namespace Cert.Proof

open Idealize.ShloMosaic Idealize.SL.Sem

/-- From memories that agree on the four arguments both idealized programs end with the result array at the layer's
    value `Cert.Spec.gcn` of the arguments: the kernel's eight write-backs leave it there, and so do the sixteen of
    the reference's second region, whose support array is the first region's `Cert.Spec.support`. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.Spec.gcn (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)), ?_, ?_⟩
  · exact (θ_run Cert.KernelIdeal.defs _ _).mono
      (fun _ h c => ⟨(h c).1.trans (Cert.KernelIdeal.Hand.result_eq m Cert.KernelIdeal.Hand.qK c), (h c).2⟩) (run_kernelIdeal m ρ)
  · refine (θ_run Cert.ReferenceIdeal.defs _ _).mono (fun _ h c => ⟨(h c).1.trans ?_, (h c).2⟩) (run_referenceIdeal m' ρ')
    refine (Cert.ReferenceIdeal.Hand.gcn_eq m' (refSupport m') c
      (Cert.ReferenceIdeal.Hand.support_eq m' c (Cert.ReferenceIdeal.Hand.hv1 m' c) (Cert.ReferenceIdeal.Hand.hv3 m' c))
      (Cert.ReferenceIdeal.Hand.hv5 m' c) (Cert.ReferenceIdeal.Hand.hv8 m' c)).trans ?_
    rw [(hagree c).1, (hagree c).2.1, (hagree c).2.2.1, (hagree c).2.2.2]

/-- The five conjuncts under the generated witnesses of the programs' stated side conditions. -/
theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
